-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64x64 : Shape := ⟨2, ![64, 64]⟩
abbrev S64x1 : Shape := ⟨2, ![64, 1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_

variable [Facts]

def fn_part1 {F : FTy → Type} [FloatOps F] (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  main_v18

def fn {F : FTy → Type} [FloatOps F] (main_arg0 : FVec F S50000x128 .f32) (main_arg1 : IVec S2x800000 32) (main_arg2 : IVec S50000 32) (main_arg3 : FVec F S128x64 .f32) (main_arg4 : FVec F S64x64 .f32) (main_arg5 : FVec F S64x1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x1 .f32 := Host.absf main_arg5
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64x64 : Shape := ⟨2, ![64, 64]⟩
abbrev S64x1 : Shape := ⟨2, ![64, 1]⟩
abbrev S1x800000 : Shape := ⟨2, ![1, 800000]⟩
abbrev S800000 : Shape := ⟨1, ![800000]⟩
abbrev S50000x1 : Shape := ⟨2, ![50000, 1]⟩
abbrev S50000x64 : Shape := ⟨2, ![50000, 64]⟩
abbrev S2000x128 : Shape := ⟨2, ![2000, 128]⟩
abbrev S2000x64 : Shape := ⟨2, ![2000, 64]⟩
abbrev S_ : Shape := ⟨0, ![]⟩
abbrev S800000x1 : Shape := ⟨2, ![800000, 1]⟩
abbrev S800000x64 : Shape := ⟨2, ![800000, 64]⟩
abbrev S512x1 : Shape := ⟨2, ![512, 1]⟩
abbrev S1000x64 : Shape := ⟨2, ![1000, 64]⟩
abbrev S1000x1 : Shape := ⟨2, ![1000, 1]⟩
abbrev S512x64 : Shape := ⟨2, ![512, 64]⟩
abbrev S1000x512 : Shape := ⟨2, ![1000, 512]⟩

abbrev nBuf : Space → Nat
  | .hbm => 40
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x64, .f32⟩
  | .hbm, ⟨4, _⟩ => ⟨S64x64, .f32⟩
  | .hbm, ⟨5, _⟩ => ⟨S64x1, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x1, .i32⟩
  | .hbm, ⟨11, _⟩ => ⟨S50000x64, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .f32⟩
  | .hbm, ⟨22, _⟩ => ⟨S50000x64, .f32⟩
  | .hbm, ⟨23, _⟩ => ⟨S800000x1, .i32⟩
  | .hbm, ⟨24, _⟩ => ⟨S50000x64, .f32⟩
  | .hbm, ⟨25, _⟩ => ⟨S50000x64, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x64, .f32⟩
  | .hbm, ⟨35, _⟩ => ⟨S_, .f32⟩
  | .hbm, ⟨36, _⟩ => ⟨S50000x64, .f32⟩
  | .hbm, ⟨37, _⟩ => ⟨S800000x1, .i32⟩
  | .hbm, ⟨38, _⟩ => ⟨S50000x64, .f32⟩
  | .hbm, ⟨39, _⟩ => ⟨S512x1, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S64x64, .f32⟩
  | .local _ .vmem, ⟨8, _⟩ => ⟨S2000x64, .f32⟩
  | .local _ .vmem, ⟨9, _⟩ => ⟨S2000x64, .f32⟩
  | .local _ .vmem, ⟨10, _⟩ => ⟨S1000x64, .f32⟩
  | .local _ .vmem, ⟨11, _⟩ => ⟨S1000x64, .f32⟩
  | .local _ .vmem, ⟨12, _⟩ => ⟨S1000x1, .i32⟩
  | .local _ .vmem, ⟨13, _⟩ => ⟨S1000x1, .i32⟩
  | .local _ .vmem, ⟨14, _⟩ => ⟨S64x1, .f32⟩
  | .local _ .vmem, ⟨15, _⟩ => ⟨S512x1, .f32⟩
  | .local _ .vmem, ⟨16, _⟩ => ⟨S512x64, .f32⟩
  | .local _ .vmem, ⟨17, _⟩ => ⟨S512x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_scratch0 : Ref sig .tc := ⟨.vmem, 16, rfl⟩
abbrev cc2_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def k2_cond2 (i : grid2.Coords) : BitVec 1 :=
  let arg0 : BitVec 32 := BitVec.ofNat 32 (i 0).val
  let c49_i32 : BitVec 32 := 49#32
  let v27 : BitVec 1 := Scalar.cmpi .eq arg0 c49_i32
  let v28 : BitVec 32 := Scalar.extui v27
  let c0_i32_14 : BitVec 32 := 0#32
  let v29 : BitVec 1 := Scalar.cmpi .ne v28 c0_i32_14
  v29

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  iota_S1000x512_d1_w32 : S1000x512.Iotas .tc 32 [1]
  broadcasts_S1000x1_S1000x512 : S1000x1.Broadcasts S1000x512
  natLt_1_32 : 1 < 32
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  broadcasts_S512x1_S512x64 : S512x1.Broadcasts S512x64
  inb_S64x1_S64x1_0_0 : ∀ a, (![0, 0] : Fin 2 → Nat) a + S64x1.size a ≤ S64x1.size a
  h_S64x1 : 0 < S64x1.numel
  dot_S2000x128_S128x64_S2000x64_1_0_0_1_n_n_wf : DotDims.WF S2000x128 S128x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x64_S2000x64_1_0_0_1_n_n_wf : DotDims.WF S2000x64 S64x64 S2000x64 [1] [0] [0] [1] [] []
  dot_S1000x512_S1000x64_S512x64_0_0_1_1_n_n_wf : DotDims.WF S1000x512 S1000x64 S512x64 [0] [0] [1] [1] [] []
  dot_S1000x512_S1000x1_S512x1_0_0_1_1_n_n_wf : DotDims.WF S1000x512 S1000x1 S512x1 [0] [0] [1] [1] [] []
  dot_S512x64_S64x1_S512x1_1_0_0_1_n_n_wf : DotDims.WF S512x64 S64x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x64.size a ≤ S50000x64.size a
  hwx2_0 : ∀ i : grid2.Coords, EltTy.bits .f32 = 32 ∨ (Rect.block (s := S50000x64) S1000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x1.size a ≤ S50000x1.size a
  hwx2_1 : ∀ i : grid2.Coords, EltTy.bits .i32 = 32 ∨ (Rect.block (s := S50000x1) S1000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x1.size a ≤ S64x1.size a
  hwx2_2 : ∀ i : grid2.Coords, EltTy.bits .f32 = 32 ∨ (Rect.block (s := S64x1) S64x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x1.size a ≤ S512x1.size a
  hwx2_3 : ∀ i : grid2.Coords, EltTy.bits .f32 = 32 ∨ (Rect.block (s := S512x1) S512x1.size (cc2_transform_3 i) (hinb2_3 i)).WholeWords (EltTy.packing .f32)

variable [Facts₀]

def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S1000x512_S1000x64_S512x64_0_0_1_1_n_n : DotDims S1000x512 S1000x64 S512x64 where
  lhsContracting := [0]
  rhsContracting := [0]
  lhsNonContracting := [1]
  rhsNonContracting := [1]
  lhsBatch := []
  rhsBatch := []
  wf := dot_S1000x512_S1000x64_S512x64_0_0_1_1_n_n_wf
def dot_S1000x512_S1000x1_S512x1_0_0_1_1_n_n : DotDims S1000x512 S1000x1 S512x1 where
  lhsContracting := [0]
  rhsContracting := [0]
  lhsNonContracting := [1]
  rhsNonContracting := [1]
  lhsBatch := []
  rhsBatch := []
  wf := dot_S1000x512_S1000x1_S512x1_0_0_1_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v15) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v26) S1000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S1000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S64x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v27) S512x1.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64x64 : Shape := ⟨2, ![64, 64]⟩
abbrev S64x1 : Shape := ⟨2, ![64, 1]⟩
abbrev S1x800000 : Shape := ⟨2, ![1, 800000]⟩
abbrev S800000 : Shape := ⟨1, ![800000]⟩
abbrev S50000x64 : Shape := ⟨2, ![50000, 64]⟩
abbrev S_ : Shape := ⟨0, ![]⟩
abbrev S800000x1 : Shape := ⟨2, ![800000, 1]⟩
abbrev S800000x64 : Shape := ⟨2, ![800000, 64]⟩
abbrev S512 : Shape := ⟨1, ![512]⟩
abbrev S50000x1 : Shape := ⟨2, ![50000, 1]⟩
abbrev S512x64 : Shape := ⟨2, ![512, 64]⟩
abbrev S512x1 : Shape := ⟨2, ![512, 1]⟩

abbrev nBuf : Space → Nat
  | .hbm => 66
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x64, .f32⟩
  | .hbm, ⟨4, _⟩ => ⟨S64x64, .f32⟩
  | .hbm, ⟨5, _⟩ => ⟨S64x1, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x64, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S_, .f32⟩
  | .hbm, ⟨21, _⟩ => ⟨S50000x64, .f32⟩
  | .hbm, ⟨22, _⟩ => ⟨S800000x1, .i32⟩
  | .hbm, ⟨23, _⟩ => ⟨S50000x64, .f32⟩
  | .hbm, ⟨24, _⟩ => ⟨S_, .f32⟩
  | .hbm, ⟨25, _⟩ => ⟨S50000x64, .f32⟩
  | .hbm, ⟨26, _⟩ => ⟨S50000x64, .f32⟩
  | .hbm, ⟨27, _⟩ => ⟨S50000x64, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x64, .f32⟩
  | .hbm, ⟨37, _⟩ => ⟨S_, .f32⟩
  | .hbm, ⟨38, _⟩ => ⟨S50000x64, .f32⟩
  | .hbm, ⟨39, _⟩ => ⟨S800000x1, .i32⟩
  | .hbm, ⟨40, _⟩ => ⟨S50000x64, .f32⟩
  | .hbm, ⟨41, _⟩ => ⟨S_, .f32⟩
  | .hbm, ⟨42, _⟩ => ⟨S50000, .f32⟩
  | .hbm, ⟨43, _⟩ => ⟨S_, .f32⟩
  | .hbm, ⟨44, _⟩ => ⟨S512, .f32⟩
  | .hbm, ⟨45, _⟩ => ⟨S50000x1, .i32⟩
  | .hbm, ⟨46, _⟩ => ⟨S512, .f32⟩
  | .hbm, ⟨47, _⟩ => ⟨S_, .f32⟩
  | .hbm, ⟨48, _⟩ => ⟨S512x64, .f32⟩
  | .hbm, ⟨49, _⟩ => ⟨S50000x1, .i32⟩
  | .hbm, ⟨50, _⟩ => ⟨S512x64, .f32⟩
  | .hbm, ⟨51, _⟩ => ⟨S_, .f32⟩
  | .hbm, ⟨52, _⟩ => ⟨S512, .f32⟩
  | .hbm, ⟨53, _⟩ => ⟨S512, .f32⟩
  | .hbm, ⟨54, _⟩ => ⟨S512x1, .f32⟩
  | .hbm, ⟨55, _⟩ => ⟨S512x64, .f32⟩
  | .hbm, ⟨56, _⟩ => ⟨S512x64, .f32⟩
  | .hbm, ⟨57, _⟩ => ⟨S512x1, .f32⟩
  | .hbm, ⟨58, _⟩ => ⟨S512x1, .f32⟩
  | .hbm, ⟨59, _⟩ => ⟨S512x1, .f32⟩
  | .hbm, ⟨60, _⟩ => ⟨S_, .f32⟩
  | .hbm, ⟨61, _⟩ => ⟨S512x1, .f32⟩
  | .hbm, ⟨62, _⟩ => ⟨S512x1, .f32⟩
  | .hbm, ⟨63, _⟩ => ⟨S_, .f32⟩
  | .hbm, ⟨64, _⟩ => ⟨S512x1, .f32⟩
  | .hbm, ⟨65, _⟩ => ⟨S512x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_cst : Ref sig .tc := ⟨.hbm, 24, rfl⟩
abbrev main_call0_v0 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S_S512 : S_.BroadcastsInDim S512 (![] : Fin 0 → Fin S512.rank)
  bcast_S50000_S50000x1_0 : S50000.BroadcastsInDim S50000x1 (![0] : Fin 1 → Fin S50000x1.rank)
  bcast_S_S512x64 : S_.BroadcastsInDim S512x64 (![] : Fin 0 → Fin S512x64.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S_S512x1 : S_.BroadcastsInDim S512x1 (![] : Fin 0 → Fin S512x1.rank)
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  scatter_S512_S50000x1_S50000_n_0_0_1_wf : ScatterDims.WF S512 S50000x1 S50000 [] [0] [0] 1
  scatter_S512x64_S50000x1_S50000x64_1_0_0_1_wf : ScatterDims.WF S512x64 S50000x1 S50000x64 [1] [0] [0] 1
  dot_S512x64_S64x1_S512x1_1_0_0_1_n_n_wf : DotDims.WF S512x64 S64x1 S512x1 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

class Facts : Prop extends Facts₀ where

variable [Facts]
-- ==== Proof.K.Reg0.lean ====
/-
  The first projection call (grid of 25 points): at every point the body reads a block of 2000 rows of the node
  features and the whole 128×64 weight matrix and stores their matrix product, a 2000×64 block, into the output
  window, which is written back at every point. Stated at a parameter: the buffer contents the call is entered from.
-/
import proofs.«407159_j20469814132905_1_alg».proof.Proof.Gen.Kernel.Launch
import proofs.«407159_j20469814132905_1_alg».proof.Proof.Gen.Kernel.Skeleton
import proofs.«407159_j20469814132905_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array that the point works on. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window whose body leaves its block in place holds that block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window is fetched once; its block index never moves, so it too holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S2000x128 := Rect.unit (s := S2000x128) ![0, 0] S2000x128.size inb_S2000x128_S2000x128_0_0
abbrev r0_w : Rect S128x64 := Rect.unit (s := S128x64) ![0, 0] S128x64.size inb_S128x64_S128x64_0_0
abbrev r0_o : Rect S2000x64 := Rect.unit (s := S2000x64) ![0, 0] S2000x64.size inb_S2000x64_S2000x64_0_0

/-- What the body leaves in the output window: its one whole-block store, the product of the two loaded blocks. -/
def out0_2 (x0 : Vec F S2000x128 .f32) (x1 : Vec F S128x64 .f32) : Vec F S2000x64 .f32 :=
  View.canon [⟨r0_o, k0_pay1 (View.ld x0 r0_x) (View.ld x1 r0_w)⟩]

theorem cover0_2 (p0 : Vec F S2000x64 .f32) (y : S2000x64.Idx) :
    ∃ pc ∈ ([⟨r0_o, p0⟩] : List (View.Piece (Elt F) S2000x64 .f32)), y ∈ pc.1.set :=
  View.cover_of_tiled [⟨r0_o, p0⟩] S2000x64.size (by rfl) y

/-- The store is of the whole block through the zero offset, so what is left IS the product. -/
theorem out0_2_eq [∀ e, Nonempty (Elt F e)] (x0 : Vec F S2000x128 .f32) (x1 : Vec F S128x64 .f32) : out0_2 x0 x1 = k0_pay1 x0 x1 := by
  have hz : (![0, 0] : Fin 2 → ℕ) = fun _ => 0 := by funext a; fin_cases a <;> rfl
  unfold out0_2
  rw [View.canon_unit_zero hz, View.ld_unit_zero hz, View.ld_unit_zero hz]

set_option maxHeartbeats 1000000 in
/-- The body on whole staging buffers: the two inputs are read and kept, the output ends at the product. -/
theorem sound_kernel0 (c : Dev nD) (E : Set ℕ) (i : grid0.Coords) (arg1 : Memref sig .tc .vmem S2000x128 .f32) (harg1 : arg1.IsWhole)
    (arg2 : Memref sig .tc .vmem S128x64 .f32) (harg2 : arg2.IsWhole) (arg3 : Memref sig .tc .vmem S2000x64 .f32) (harg3 : arg3.IsWhole)
    (x0 : Vec F S2000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The call's bookkeeping on core `c`: the arrays as the call finds them; after the body at point `t` each
    input's buffer at its block and the output's at the product of the two; nothing carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  The second projection call (grid of 25 points): at every point the body reads a block of 2000 rows of the
  aggregated features, takes the maximum with zero, and stores the product with the whole 64×64 weight matrix, a 2000×64 block, into the output
  window, which is written back at every point. Stated at a parameter: the buffer contents the call is entered from.
-/
import proofs.«407159_j20469814132905_1_alg».proof.Proof.Gen.Kernel.Launch
import proofs.«407159_j20469814132905_1_alg».proof.Proof.Gen.Kernel.Skeleton
import proofs.«407159_j20469814132905_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array that the point works on. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window whose body leaves its block in place holds that block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window is fetched once; its block index never moves, so it too holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_x : Rect S2000x64 := Rect.unit (s := S2000x64) ![0, 0] S2000x64.size inb_S2000x64_S2000x64_0_0
abbrev r1_w : Rect S64x64 := Rect.unit (s := S64x64) ![0, 0] S64x64.size inb_S64x64_S64x64_0_0
abbrev r1_o : Rect S2000x64 := Rect.unit (s := S2000x64) ![0, 0] S2000x64.size inb_S2000x64_S2000x64_0_0

/-- What the body leaves in the output window: its one whole-block store, the product of the two loaded blocks. -/
def out1_2 (x0 : Vec F S2000x64 .f32) (x1 : Vec F S64x64 .f32) : Vec F S2000x64 .f32 :=
  View.canon [⟨r1_o, k1_pay1 (View.ld x0 r1_x) (View.ld x1 r1_w)⟩]

theorem cover1_2 (p0 : Vec F S2000x64 .f32) (y : S2000x64.Idx) :
    ∃ pc ∈ ([⟨r1_o, p0⟩] : List (View.Piece (Elt F) S2000x64 .f32)), y ∈ pc.1.set :=
  View.cover_of_tiled [⟨r1_o, p0⟩] S2000x64.size (by rfl) y

/-- The store is of the whole block through the zero offset, so what is left IS the product. -/
theorem out1_2_eq [∀ e, Nonempty (Elt F e)] (x0 : Vec F S2000x64 .f32) (x1 : Vec F S64x64 .f32) : out1_2 x0 x1 = k1_pay1 x0 x1 := by
  have hz : (![0, 0] : Fin 2 → ℕ) = fun _ => 0 := by funext a; fin_cases a <;> rfl
  unfold out1_2
  rw [View.canon_unit_zero hz, View.ld_unit_zero hz, View.ld_unit_zero hz]

set_option maxHeartbeats 1000000 in
/-- The body on whole staging buffers: the two inputs are read and kept, the output ends at the product. -/
theorem sound_kernel1 (c : Dev nD) (E : Set ℕ) (i : grid1.Coords) (arg1 : Memref sig .tc .vmem S2000x64 .f32) (harg1 : arg1.IsWhole)
    (arg2 : Memref sig .tc .vmem S64x64 .f32) (harg2 : arg2.IsWhole) (arg3 : Memref sig .tc .vmem S2000x64 .f32) (harg3 : arg3.IsWhole)
    (x0 : Vec F S2000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__relu_proj_kernel i arg1 harg1 arg2 harg2 arg3 harg3) K := by
  simp only [cc1__relu_proj_kernel_eq_skeleton]; unfold cc1__relu_proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The call's bookkeeping on core `c`: the arrays as the call finds them; after the body at point `t` each
    input's buffer at its block and the output's at the product of the two; nothing carried between points. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/-
  The frame half of the third pallas_call (the pooling kernel, a grid of 50 points) of `Cert.Kernel`, at any
  float model `F` and at a parameter `V`: the TensorCore's buffer contents when the region is entered.

  The kernel keeps two accumulators in scratch memory (512x64 sums and 512x1 counts). At the first point it resets
  both and adds that point's addends; at every later point it adds that point's addends to what the point before
  left; at the last point it also computes the output from the accumulators and stores it, the output's window being
  idle at every other point. So the region invariant before point `n + 1` holds the accumulators at `carried2 n`,
  defined by recursion on the point from the stores' payloads `k2_pay1`, `k2_pay2` (the reset values),
  `k2_pay4`, `k2_pay5` (the updates); and the one block written back is `k2_pay6` of the accumulators after
  the last point and the weight block.

  Contents: whole-buffer load and store lemmas; the body's run in each of its three control cases (first point,
  a middle point, last point), each ending at exactly the payload terms; the closed forms of the two conditions over
  the grid and where the output window is idle; the invariant; the proof data `dat2`; the body obligation at a
  generic point; and that the invariant begins and ends at what the launch hands over.
-/
import proofs.«407159_j20469814132905_1_alg».proof.Proof.Gen.Kernel.Launch
import proofs.«407159_j20469814132905_1_alg».proof.Proof.Gen.Kernel.Skeleton
import proofs.«407159_j20469814132905_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer loads and stores

A load through the whole-shape rectangle at zero offsets reads the buffer's contents; a store through it,
last, leaves its payload whatever came before. -/

theorem zeros2 : (![0, 0] : Fin 2 → Nat) = fun _ => 0 := funext fun a => by fin_cases a <;> rfl

theorem readAt_unit0 {sg : RefSig} {κ : Kind} {sp : Space} {S : Shape} {e : EltTy} {Val : EltTy → Type}
    (v : View sg κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f (Rect.unit off S.size inb)).trans (View.ld_unit_zero h inb _)

theorem read_writes_unit0 {sg : RefSig} {κ : Kind} {sp : Space} {S : Shape} {e : EltTy} {Val : EltTy → Type}
    [∀ e, Nonempty (Val e)] (v : View sg κ sp S e) (f : v.ty.Contents Val) {off : Fin S.rank → Nat}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb]

theorem readCov_cons_unit0 {sg : RefSig} {κ : Kind} {sp : Space} {S : Shape} {e : EltTy} {Val : EltTy → Type}
    [∀ e, Nonempty (Val e)] (v : View sg κ sp S e) {off : Fin S.rank → Nat}
    (h : off = fun _ => 0) (inb : ∀ a, off a + S.size a ≤ S.size a) (w : S.Idx → Val e)
    (L : List (View.Piece Val S e)) :
    v.readCov ((⟨Rect.unit off S.size inb, w⟩ : View.Piece Val S e) :: L) (Rect.unit off S.size inb).toLoadRect = w :=
  View.readCov_cons_toLoadRect v (Rect.unit off S.size inb) w L

/-! ## The body's two conditions -/

/-- The first conditional's condition (the grid coordinate is zero), from the grid coordinates. -/
abbrev cond2_0 (i : grid2.Coords) : Prop := (Scalar.cmpi .ne (Scalar.extui (Scalar.cmpi .eq (BitVec.ofNat 32 (i 0).val) 0#32)) 0#32) = 1#1
/-- The second conditional's condition (the grid coordinate is the last). -/
abbrev cond2_1 (i : grid2.Coords) : Prop := k2_cond2 i = 1#1

/-! ## The body's three runs

On whole memrefs: the input blocks at their contents, the two accumulators at what the point before left (at
anything at the first point, which resets them), the output's buffer handed back untouched where the body does
not store into it. -/

set_option maxHeartbeats 1000000 in
/-- A middle point: both accumulators take this point's addend. -/
theorem run2_B (c : Dev nD) (i : grid2.Coords)
    (arg1 : Memref sig .tc .vmem S1000x64 .f32) (harg1 : arg1.IsWhole) (arg2 : Memref sig .tc .vmem S1000x1 .i32) (harg2 : arg2.IsWhole)
    (arg3 : Memref sig .tc .vmem S64x1 .f32) (harg3 : arg3.IsWhole) (arg4 : Memref sig .tc .vmem S512x1 .f32) (harg4 : arg4.IsWhole)
    (arg5 : Memref sig .tc .vmem S512x64 .f32) (harg5 : arg5.IsWhole) (arg6 : Memref sig .tc .vmem S512x1 .f32) (harg6 : arg6.IsWhole)
    (hc0 : ¬cond2_0 i) (hc1 : ¬cond2_1 i)
    (x0 : Vec F S1000x64 .f32) (x1 : Vec F S1000x1 .i32) (x2 : Vec F S64x1 .f32) (xi3 : Vec F S512x1 .f32)
    (xs0 : Vec F S512x64 .f32) (xs1 : Vec F S512x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi3 ∗ owns (c : Thread nD τ) arg5 fullShare xs0 ∗ owns (c : Thread nD τ) arg6 fullShare xs1
        ∗ (iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare (k2_pay4 x1 x0 xs0)
            ∗ owns (c : Thread nD τ) arg6 fullShare (k2_pay5 x1 xs1)) -∗ K ⟨⟩))
      ⊢ wp frame (wpE (defs₀ (F := F)) Variants.none c none) E (cc2__pool_fc_kernel i arg1 harg1 arg2 harg2 arg3 harg3 arg4 harg4 arg5 harg5 arg6 harg6) K := by
  simp only [cc2__pool_fc_kernel_eq_skeleton]; unfold cc2__pool_fc_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [HS0]
  · iexists _; isplitr
    swap; · iexact HS0
    ipureintro
    rw [read_writes_unit0 (S := S512x64) _ _ zeros2, readAt_unit0 (S := S1000x1) _ _ zeros2, readAt_unit0 (S := S1000x64) _ _ zeros2,
      readAt_unit0 (S := S512x64) _ _ zeros2, hf0, hf1, hfs0]
  · iexists _; isplitr
    swap; · iexact HS1
    ipureintro
    rw [read_writes_unit0 (S := S512x1) _ _ zeros2, readAt_unit0 (S := S1000x1) _ _ zeros2,
      readAt_unit0 (S := S512x1) _ _ zeros2, hf1, hfs1]

set_option maxHeartbeats 1000000 in
/-- The first point: both accumulators are reset, then take this point's addend. -/
theorem run2_A (c : Dev nD) (i : grid2.Coords)
    (arg1 : Memref sig .tc .vmem S1000x64 .f32) (harg1 : arg1.IsWhole) (arg2 : Memref sig .tc .vmem S1000x1 .i32) (harg2 : arg2.IsWhole)
    (arg3 : Memref sig .tc .vmem S64x1 .f32) (harg3 : arg3.IsWhole) (arg4 : Memref sig .tc .vmem S512x1 .f32) (harg4 : arg4.IsWhole)
    (arg5 : Memref sig .tc .vmem S512x64 .f32) (harg5 : arg5.IsWhole) (arg6 : Memref sig .tc .vmem S512x1 .f32) (harg6 : arg6.IsWhole)
    (hc0 : cond2_0 i) (hc1 : ¬cond2_1 i)
    (x0 : Vec F S1000x64 .f32) (x1 : Vec F S1000x1 .i32) (x2 : Vec F S64x1 .f32) (xi3 : Vec F S512x1 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare (k2_pay4 x1 x0 k2_pay1)
            ∗ owns (c : Thread nD τ) arg6 fullShare (k2_pay5 x1 k2_pay2)) -∗ K ⟨⟩))
      ⊢ wp frame (wpE (defs₀ (F := F)) Variants.none c none) E (cc2__pool_fc_kernel i arg1 harg1 arg2 harg2 arg3 harg3 arg4 harg4 arg5 harg5 arg6 harg6) K := by
  simp only [cc2__pool_fc_kernel_eq_skeleton]; unfold cc2__pool_fc_kernel_skel
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [HS0]
  · iexists _; isplitr
    swap; · iexact HS0
    ipureintro
    rw [read_writes_unit0 (S := S512x64) _ _ zeros2]
    sl_unfold_words
    rw [readCov_cons_unit0 (S := S512x64) _ zeros2, readAt_unit0 (S := S1000x1) _ _ zeros2,
      readAt_unit0 (S := S1000x64) _ _ zeros2, hf0, hf1]
  · iexists _; isplitr
    swap; · iexact HS1
    ipureintro
    rw [read_writes_unit0 (S := S512x1) _ _ zeros2]
    sl_unfold_words
    rw [readCov_cons_unit0 (S := S512x1) _ zeros2, readAt_unit0 (S := S1000x1) _ _ zeros2, hf1]

set_option maxHeartbeats 1000000 in
/-- The last point: both accumulators take this point's addend, and the output is computed from them and stored. -/
theorem run2_C (c : Dev nD) (i : grid2.Coords)
    (arg1 : Memref sig .tc .vmem S1000x64 .f32) (harg1 : arg1.IsWhole) (arg2 : Memref sig .tc .vmem S1000x1 .i32) (harg2 : arg2.IsWhole)
    (arg3 : Memref sig .tc .vmem S64x1 .f32) (harg3 : arg3.IsWhole) (arg4 : Memref sig .tc .vmem S512x1 .f32) (harg4 : arg4.IsWhole)
    (arg5 : Memref sig .tc .vmem S512x64 .f32) (harg5 : arg5.IsWhole) (arg6 : Memref sig .tc .vmem S512x1 .f32) (harg6 : arg6.IsWhole)
    (hc0 : ¬cond2_0 i) (hc1 : cond2_1 i)
    (x0 : Vec F S1000x64 .f32) (x1 : Vec F S1000x1 .i32) (x2 : Vec F S64x1 .f32)
    (xs0 : Vec F S512x64 .f32) (xs1 : Vec F S512x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xs0 ∗ owns (c : Thread nD τ) arg6 fullShare xs1
        ∗ (iprop(owns (c : Thread nD τ) arg1 fullShare x0 ∗ owns (c : Thread nD τ) arg2 fullShare x1 ∗ owns (c : Thread nD τ) arg3 fullShare x2
            ∗ owns (c : Thread nD τ) arg4 fullShare (k2_pay6 (k2_pay5 x1 xs1) (k2_pay4 x1 x0 xs0) x2) ∗ owns (c : Thread nD τ) arg5 fullShare (k2_pay4 x1 x0 xs0)
            ∗ owns (c : Thread nD τ) arg6 fullShare (k2_pay5 x1 xs1)) -∗ K ⟨⟩))
      ⊢ wp frame (wpE (defs₀ (F := F)) Variants.none c none) E (cc2__pool_fc_kernel i arg1 harg1 arg2 harg2 arg3 harg3 arg4 harg4 arg5 harg5 arg6 harg6) K := by
  simp only [cc2__pool_fc_kernel_eq_skeleton]; unfold cc2__pool_fc_kernel_skel
  unfold owns
  iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]
  · iexists _; isplitr
    swap; · iexact H3
    ipureintro
    rw [read_writes_unit0 (S := S512x1) _ _ zeros2]
    sl_unfold_words
    rw [readCov_cons_unit0 (S := S512x1) _ zeros2, readCov_cons_unit0 (S := S512x64) _ zeros2,
      readAt_unit0 (S := S64x1) _ _ zeros2, readAt_unit0 (S := S1000x1) _ _ zeros2, readAt_unit0 (S := S1000x64) _ _ zeros2,
      readAt_unit0 (S := S512x64) _ _ zeros2, readAt_unit0 (S := S512x1) _ _ zeros2, hf0, hf1, hf2, hfs0, hfs1]
  isplitl [HS0]
  · iexists _; isplitr
    swap; · iexact HS0
    ipureintro
    sl_unfold_words
    rw [read_writes_unit0 (S := S512x64) _ _ zeros2, readAt_unit0 (S := S1000x1) _ _ zeros2, readAt_unit0 (S := S1000x64) _ _ zeros2,
      readAt_unit0 (S := S512x64) _ _ zeros2, hf0, hf1, hfs0]
  · iexists _; isplitr
    swap; · iexact HS1
    ipureintro
    sl_unfold_words
    rw [read_writes_unit0 (S := S512x1) _ _ zeros2, readAt_unit0 (S := S1000x1) _ _ zeros2,
      readAt_unit0 (S := S512x1) _ _ zeros2, hf1, hfs1]

/-! ## The conditions over the grid, and where the output window is idle -/

/-- The first conditional is taken at the first point only, -/
theorem hcond2_0 : ∀ t : Fin cfg2.N, cond2_0 (grid2.coords t) ↔ t.val = 0 :=
  (by decide +kernel : ∀ t : Fin grid2.N, cond2_0 (grid2.coords t) ↔ t.val = 0)
/-- the second at the last point only. -/
theorem hcond2_1 : ∀ t : Fin cfg2.N, cond2_1 (grid2.coords t) ↔ t.val = 49 :=
  (by decide +kernel : ∀ t : Fin grid2.N, cond2_1 (grid2.coords t) ↔ t.val = 49)

/-- The three inputs are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
/-- Off the last point the output window is idle and is not written back; -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
/-- at the last point it is live. -/
theorem liveAt2_3 : ∀ t : Fin cfg2.N, cond2_1 (grid2.coords t) → cfg2.idle 3 (grid2.coords t) = false := by decide +kernel

/-! ## The memrefs the body is called with -/

abbrev ms2_0 (t : Fin cfg2.N) : Memref sig .tc .vmem S1000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1000x1 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x1 .f32 := win2_3.stage (cfg2.slots t 3)
abbrev hs2_3 (t : Fin cfg2.N) : (ms2_3 t).IsWhole := hstage2_3 ((cfg2.slots t 3).cast nbuf2_3)
/-- The two accumulators: whole scoped buffers of the kernel's own. -/
abbrev scM2_0 : Memref sig .tc .vmem S512x64 .f32 := Memref.whole cc2_scratch0
abbrev scM2_1 : Memref sig .tc .vmem S512x1 .f32 := Memref.whole cc2_scratch1

/-! ## The invariant's shape -/

/-- A scoped buffer of the core at some contents. -/
abbrev anyBuf (c : Dev nD) (b : Ref sig .tc) : sProp 𝕄 :=
  iprop(∃ f : Buf (Elt F) ((c : Thread nD τ).loc b), ((c : Thread nD τ).loc b) ↦{fullShare} f)

/-- The core's scoped buffers other than this call's staging buffers, with the two accumulators as `T` states them,
    and the generator register at some state. -/
def Phi2With (c : Dev nD) (T : sProp 𝕄) : sProp 𝕄 :=
  iprop((anyBuf (F := F) c cc0_stg0_0 ∗ anyBuf (F := F) c cc0_stg0_1 ∗ anyBuf (F := F) c cc0_stg1_0 ∗ anyBuf (F := F) c cc0_stg2_0 ∗ anyBuf (F := F) c cc0_stg2_1 ∗ anyBuf (F := F) c cc1_stg0_0 ∗ anyBuf (F := F) c cc1_stg0_1 ∗ anyBuf (F := F) c cc1_stg1_0 ∗ anyBuf (F := F) c cc1_stg2_0 ∗ anyBuf (F := F) c cc1_stg2_1 ∗ T) ∗ (∃ r, prngReg c r))

/-- What is left of it without the accumulators. -/
def Phi2Rest (c : Dev nD) : sProp 𝕄 :=
  iprop((anyBuf (F := F) c cc0_stg0_0 ∗ anyBuf (F := F) c cc0_stg0_1 ∗ anyBuf (F := F) c cc0_stg1_0 ∗ anyBuf (F := F) c cc0_stg2_0 ∗ anyBuf (F := F) c cc0_stg2_1 ∗ anyBuf (F := F) c cc1_stg0_0 ∗ anyBuf (F := F) c cc1_stg0_1 ∗ anyBuf (F := F) c cc1_stg1_0 ∗ anyBuf (F := F) c cc1_stg2_0 ∗ anyBuf (F := F) c cc1_stg2_1) ∗ (∃ r, prngReg c r))

theorem Phi2With_out (c : Dev nD) (T : sProp 𝕄) : Phi2With (F := F) c T ⊢ iprop(T ∗ Phi2Rest (F := F) c) := by
  unfold Phi2With Phi2Rest
  iintro ⟨⟨A1, A2, A3, A4, A5, A6, A7, A8, A9, A10, HT⟩, Hg⟩
  isplitl [HT]; · iexact HT
  isplitr [Hg]
  swap; · iexact Hg
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  iexact A10

theorem Phi2With_in (c : Dev nD) (T : sProp 𝕄) : iprop(T ∗ Phi2Rest (F := F) c) ⊢ Phi2With (F := F) c T := by
  unfold Phi2With Phi2Rest
  iintro ⟨HT, ⟨A1, A2, A3, A4, A5, A6, A7, A8, A9, A10⟩, Hg⟩
  isplitr [Hg]
  swap; · iexact Hg
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  iexact HT

/-- What the launch hands the region, in that shape: both accumulators at some contents. -/
theorem PhiA2_eq (c : Dev nD) :
    (Pipeline.ΦA spec2 c : sProp 𝕄)
      = Phi2With (F := F) c iprop((∃ d, owns (c : Thread nD τ) scM2_0 fullShare d) ∗ (∃ d, owns (c : Thread nD τ) scM2_1 fullShare d)) := by
  unfold Pipeline.ΦA Phi2With; rw [scopedRest2_eq]; simp only [scM2_0, scM2_1, owns_whole]; try rfl

/-! ## The windows' blocks and what the accumulators carry -/

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the two accumulators hold after the body at position `n`: (the 512x64 sums, the 512x1 counts) — the reset
    values plus the first point's addends, then each point's addends on what the point before left. -/
def carried2 (c : Dev nD) : (n : ℕ) → n < cfg2.N → Vec F S512x64 .f32 × Vec F S512x1 .f32
  | 0, h => (k2_pay4 (iblk2 V c 1 ⟨0, h⟩) (iblk2 V c 0 ⟨0, h⟩) k2_pay1, k2_pay5 (iblk2 V c 1 ⟨0, h⟩) k2_pay2)
  | n + 1, h => (k2_pay4 (iblk2 V c 1 ⟨n + 1, h⟩) (iblk2 V c 0 ⟨n + 1, h⟩) (carried2 c n (Nat.lt_of_succ_lt h)).1,
                 k2_pay5 (iblk2 V c 1 ⟨n + 1, h⟩) (carried2 c n (Nat.lt_of_succ_lt h)).2)

/-- At the first point: the reset values plus its addends. -/
theorem carried2_first (c : Dev nD) (t : Fin cfg2.N) (h0 : t.val = 0) :
    carried2 V c t.val t.isLt = (k2_pay4 (iblk2 V c 1 t) (iblk2 V c 0 t) k2_pay1, k2_pay5 (iblk2 V c 1 t) k2_pay2) := by
  obtain ⟨n, hn⟩ := t
  cases n with
  | zero => rfl
  | succ n => exact absurd h0 (Nat.succ_ne_zero n)

/-- At a later point: its addends on what the point before left. -/
theorem carried2_later (c : Dev nD) (t : Fin cfg2.N) (h0 : t.val ≠ 0) :
    carried2 V c t.val t.isLt
      = (k2_pay4 (iblk2 V c 1 t) (iblk2 V c 0 t) (carried2 V c (t.val - 1) (Nat.lt_of_le_of_lt (Nat.sub_le _ _) t.isLt)).1,
         k2_pay5 (iblk2 V c 1 t) (carried2 V c (t.val - 1) (Nat.lt_of_le_of_lt (Nat.sub_le _ _) t.isLt)).2) := by
  obtain ⟨n, hn⟩ := t
  cases n with
  | zero => exact absurd rfl h0
  | succ n => rfl

/-! ## The region invariant -/

/-- Before the first point what the launch hands over (both accumulators at anything); before a later point the
    accumulators at what the point before left. -/
def Phi2 (c : Dev nD) : (n : ℕ) → n ≤ cfg2.N → sProp 𝕄
  | 0, _ => Pipeline.ΦA spec2 c
  | n + 1, hn => Phi2With (F := F) c iprop(owns (c : Thread nD τ) scM2_0 fullShare (carried2 V c n hn).1 ∗ owns (c : Thread nD τ) scM2_1 fullShare (carried2 V c n hn).2)

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = Phi2With (F := F) c iprop(owns (c : Thread nD τ) scM2_0 fullShare (carried2 V c n hn).1 ∗ owns (c : Thread nD τ) scM2_1 fullShare (carried2 V c n hn).2) := rfl

theorem Phi2_pos (c : Dev nD) (n : ℕ) (h : n ≤ cfg2.N) (hz : n ≠ 0) :
    Phi2 V c n h = Phi2With (F := F) c iprop(owns (c : Thread nD τ) scM2_0 fullShare (carried2 V c (n - 1) (by omega)).1 ∗ owns (c : Thread nD τ) scM2_1 fullShare (carried2 V c (n - 1) (by omega)).2) := by
  cases n with
  | zero => exact absurd rfl hz
  | succ n => rfl

/-! ## The proof data -/

/-- The arrays as the region finds them; after the body each input's buffer at its block, the output's at the
    closing computation on what the accumulators then hold (consulted at the last point only: elsewhere the window
    is idle); the invariant `Phi2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay6 (carried2 V c t.val t.isLt).2 (carried2 V c t.val t.isLt).1 (iblk2 V c 2 t)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay6 (carried2 V c t.val t.isLt).2 (carried2 V c t.val t.isLt).1 (iblk2 V c 2 t) := by dsimp only [dat2]

/-- What the last point writes back. -/
theorem after2_3_last (c : Dev nD) (t : Fin cfg2.N) (ht : t.val = 49) :
    (dat2 V c).after 3 t = k2_pay6 (carried2 V c t.val t.isLt).2 (carried2 V c t.val t.isLt).1 (iblk2 V c 2 t) :=
  after2_3 V c t

/-- Each input's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' memrefs hold their blocks; the point is the first, the last or one between,
    and the run for that case applies: the invariant hands it the accumulators at what the point before left (at
    anything at the first point) and takes them back at this point's contents; off the last point the output's buffer
    goes back as it came, at the last it holds the closing computation on the accumulators. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [Phi2_castSucc V c t]
  have hN : t.val < 50 := lt_of_lt_of_eq t.isLt (show cfg2.N = 50 from N_2)
  by_cases h0 : t.val = 0
  · have hc0 : cond2_0 (grid2.coords t) := (hcond2_0 t).mpr h0
    have hc1 : ¬cond2_1 (grid2.coords t) := fun h => by have := (hcond2_1 t).mp h; omega
    rw [Dat.leavesExact_idle (dat2 V c) 3 t (idleAt2_3 t hc1) (noFlush2_3 t hc1)]
    rw [carried2_first V c t h0, Phi2_zero V c _ _ h0, PhiA2_eq]
    iintro ⟨HΦ, Ho, ⟨%d0, H0⟩, ⟨%d1, H1⟩, ⟨%d2, H2⟩, ⟨%d3, H3⟩⟩
    ihave ⟨⟨HS0, HS1⟩, HR⟩ := (Phi2With_out (F := F) c _) $$ HΦ
    iapply (run2_A c (grid2.coords t) _ (hs2_0 t) _ (hs2_1 t) _ (hs2_2 t) _ (hs2_3 t) scM2_0 (Memref.isWhole_whole _) scM2_1 (Memref.isWhole_whole _)
      hc0 hc1 (iblk2 V c 0 t) (iblk2 V c 1 t) (iblk2 V c 2 t) _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 HR]
    · iapply (Phi2With_in (F := F) c _)
      isplitr [HR]
      swap; · iexact HR
      isplitl [HS0]; · iexact HS0
      iexact HS1
    isplitl [Ho]; · iexact Ho
    isplitl [H0]; · iexact H0
    isplitl [H1]; · iexact H1
    isplitl [H2]; · iexact H2
    iexists _; iexact H3
  · have hc0 : ¬cond2_0 (grid2.coords t) := fun h => h0 ((hcond2_0 t).mp h)
    rw [carried2_later V c t h0, Phi2_pos V c _ _ h0]
    by_cases h1 : t.val = 49
    · have hc1 : cond2_1 (grid2.coords t) := (hcond2_1 t).mpr h1
      rw [show (dat2 V c).leavesExact 3 t = owns (c : Thread nD τ) (ms2_3 t) fullShare ((dat2 V c).after 3 t) from by
        unfold Dat.leavesExact; rw [liveAt2_3 t hc1], after2_3, carried2_later V c t h0]
      iintro ⟨HΦ, Ho, ⟨%d0, H0⟩, ⟨%d1, H1⟩, ⟨%d2, H2⟩, ⟨%d3, H3⟩⟩
      ihave ⟨⟨HS0, HS1⟩, HR⟩ := (Phi2With_out (F := F) c _) $$ HΦ
      iapply (run2_C c (grid2.coords t) _ (hs2_0 t) _ (hs2_1 t) _ (hs2_2 t) _ (hs2_3 t) scM2_0 (Memref.isWhole_whole _) scM2_1 (Memref.isWhole_whole _)
        hc0 hc1 (iblk2 V c 0 t) (iblk2 V c 1 t) (iblk2 V c 2 t) _ _ Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, H3, HS0, HS1⟩
      isplitl [HS0 HS1 HR]
      · iapply (Phi2With_in (F := F) c _)
        isplitr [HR]
        swap; · iexact HR
        isplitl [HS0]; · iexact HS0
        iexact HS1
      isplitl [Ho]; · iexact Ho
      isplitl [H0]; · iexact H0
      isplitl [H1]; · iexact H1
      isplitl [H2]; · iexact H2
      iexact H3
    · have hc1 : ¬cond2_1 (grid2.coords t) := fun h => h1 ((hcond2_1 t).mp h)
      rw [Dat.leavesExact_idle (dat2 V c) 3 t (idleAt2_3 t hc1) (noFlush2_3 t hc1)]
      iintro ⟨HΦ, Ho, ⟨%d0, H0⟩, ⟨%d1, H1⟩, ⟨%d2, H2⟩, ⟨%d3, H3⟩⟩
      ihave ⟨⟨HS0, HS1⟩, HR⟩ := (Phi2With_out (F := F) c _) $$ HΦ
      iapply (run2_B c (grid2.coords t) _ (hs2_0 t) _ (hs2_1 t) _ (hs2_2 t) _ (hs2_3 t) scM2_0 (Memref.isWhole_whole _) scM2_1 (Memref.isWhole_whole _)
        hc0 hc1 (iblk2 V c 0 t) (iblk2 V c 1 t) (iblk2 V c 2 t) _ _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 HR]
      · iapply (Phi2With_in (F := F) c _)
        isplitr [HR]
        swap; · iexact HR
        isplitl [HS0]; · iexact HS0
        iexact HS1
      isplitl [Ho]; · iexact Ho
      isplitl [H0]; · iexact H0
      isplitl [H1]; · iexact H1
      isplitl [H2]; · iexact H2
      iexists _; iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = Phi2 V c 0 (Nat.zero_le _) from rfl, Phi2_zero V c 0 _ rfl]
  try exact Idealize.SL.BI.Entails.refl _

/-- After any point the invariant gives it back: what the accumulators hold is forgotten. -/
theorem Phi2_out (c : Dev nD) (t : Fin (cfg2.N + 1)) (ht : t.val ≠ 0) : (dat2 V c).Φ t ⊢ Pipeline.ΦA spec2 c := by
  rw [show (dat2 V c).Φ t = Phi2 V c t.val (Nat.le_of_lt_succ t.isLt) from rfl, Phi2_pos V c _ _ ht, PhiA2_eq]
  iintro HΦ
  ihave ⟨⟨HS0, HS1⟩, HR⟩ := (Phi2With_out (F := F) c _) $$ HΦ
  iapply (Phi2With_in (F := F) c _)
  isplitr [HR]
  swap; · iexact HR
  isplitl [HS0]
  · iexists _; iexact HS0
  · iexists _; iexact HS1

/-- The same after the last point. -/
theorem hout2 (c : Dev nD) : (dat2 V c).Φ (Fin.last cfg2.N) ⊢ Pipeline.ΦA spec2 c :=
  Phi2_out V c _ (by rw [Fin.val_last]; have : cfg2.N = 50 := N_2; omega)

end Cert.Kernel.Hand

end
-- ==== Proof.K.Run.lean ====
/-
  The whole program as a run of segments: three stretches of host operations and the three kernel calls between
  them. The contents of every buffer are followed from the launch through each segment; the launch theorem for a
  program of several calls then says that every execution ends, and that every buffer ends at the last contents.
  From that one statement come the frame (each argument is never written, so it ends as launched) and the value
  of the result (what the third call's single write-back leaves).
-/
import proofs.«407159_j20469814132905_1_alg».proof.Proof.K.Reg0
import proofs.«407159_j20469814132905_1_alg».proof.Proof.K.Reg1
import proofs.«407159_j20469814132905_1_alg».proof.Proof.K.Reg2
import proofs.«407159_j20469814132905_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => m (c, b)
/-- After the first stretch of host operations (the edge index split into sources and targets, the graph ids as a column). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- The contents after call 0: its arrays at what the write-backs leave, every other buffer as before it. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second stretch (gather along the sources, scatter-add onto the targets). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- The contents after call 1: its arrays at what the write-backs leave, every other buffer as before it. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third stretch (the same aggregation once more). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b

/-- The contents after call 2: its arrays at what the write-backs leave, every other buffer as before it. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- Argument 0 ends as launched: no host operation writes it and every call only reads it. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide)
    _ = m ((c : Thread nD τ).loc main_arg0) := rfl

/-- Argument 1 ends as launched: no host operation writes it and every call only reads it. -/
theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-- Argument 2 ends as launched: no host operation writes it and every call only reads it. -/
theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

/-- Argument 3 ends as launched: no host operation writes it and every call only reads it. -/
theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := (W2_arr m c 1).trans (((dat0 (V1 m) c).arrAt_in 1 rfl _).trans (A_eq0 (V1 m) c 1))
    _ = W0 m c (Proc.devRef .tc main_arg3) := StableHlo.after_of_writes_sub hostOps0 _ hostOps0_writes (by decide)
    _ = m ((c : Thread nD τ).loc main_arg3) := rfl

/-- Argument 4 ends as launched: no host operation writes it and every call only reads it. -/
theorem W6_main_arg4 (c : Dev nD) : W6 m c (Proc.devRef .tc main_arg4) = m ((c : Thread nD τ).loc main_arg4) :=
  calc W6 m c (Proc.devRef .tc main_arg4)
    _ = W5 m c (Proc.devRef .tc main_arg4) := W6_of_ne m c main_arg4 (by decide)
    _ = W4 m c (Proc.devRef .tc main_arg4) := StableHlo.after_of_writes_sub hostOps2 _ hostOps2_writes (by decide)
    _ = W3 m c (Proc.devRef .tc main_arg4) := (W4_arr m c 1).trans (((dat1 (V3 m) c).arrAt_in 1 rfl _).trans (A_eq1 (V3 m) c 1))
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

/-- Argument 5 ends as launched: no host operation writes it and every call only reads it. -/
theorem W6_main_arg5 (c : Dev nD) : W6 m c (Proc.devRef .tc main_arg5) = m ((c : Thread nD τ).loc main_arg5) :=
  calc W6 m c (Proc.devRef .tc main_arg5)
    _ = W5 m c (Proc.devRef .tc main_arg5) := (W6_arr m c 2).trans (((dat2 (V5 m) c).arrAt_in 2 rfl _).trans (A_eq2 (V5 m) c 2))
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

/-! ## The calls' bookkeeping as one family, and what rides beside the buffers -/

/-- Every call's bookkeeping, each at the contents its call is entered from. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
abbrev L : GSem nD τ sig → Finset Unit := fun _ => ∅
abbrev lv : GSem nD τ sig → Unit → ℕ := fun _ _ => 0
/-- Beside the buffers: the core's generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

set_option backward.isDefEq.respectTransparency.types false in
/-- Call 0 as a segment of the program: entered with every unscoped buffer at the contents before it, left with the
    call's arrays at what its write-backs leave and every other buffer untouched. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]
    unfold Pipeline.ΦA
    iintro ⟨Hp, -, Hr⟩
    isplitl [Hr]; · iexact Hr
    iexact Hp
  hout c := by
    rw [show (pdats m 0 c).Φ (Fin.last _) = Pipeline.ΦA spec0 c from rfl]
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment of the program: entered with every unscoped buffer at the contents before it, left with the
    call's arrays at what its write-backs leave and every other buffer untouched. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]
    unfold Pipeline.ΦA
    iintro ⟨Hp, -, Hr⟩
    isplitl [Hr]; · iexact Hr
    iexact Hp
  hout c := by
    rw [show (pdats m 1 c).Φ (Fin.last _) = Pipeline.ΦA spec1 c from rfl]
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment of the program: entered with every unscoped buffer at the contents before it, left with the
    call's arrays at what its write-backs leave and every other buffer untouched. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec2 c : sProp 𝕄) from ?_).trans (hin2 (V5 m) c)
    unfold Pipeline.ΦA
    iintro ⟨Hp, -, Hr⟩
    isplitl [Hr]; · iexact Hr
    iexact Hp
  hout c := by
    refine (hout2 (V5 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]
theorem main_run (c : Dev nD) : main (F := F) c = Pipeline.Seg.run (segs m) := (main_chain c).trans (by chain_rfl)

set_option backward.isDefEq.respectTransparency.types false in
/-- Every weakly fair execution from memory `m` with zero counters ends without a fault, and in the final memory
    every unscoped buffer of every core holds the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c)⟩) (run_all m ρ)

end Cert.Kernel.Hand

end
-- ==== Proof.KI.Reg0.lean ====
/-
  The first projection call (grid of 25 points): at every point the body reads a block of 2000 rows of the node
  features and the whole 128×64 weight matrix and stores their matrix product, a 2000×64 block, into the output
  window, which is written back at every point. Stated at a parameter: the buffer contents the call is entered from.
-/
import proofs.«407159_j20469814132905_1_alg».proof.Proof.Gen.KernelIdeal.Launch
import proofs.«407159_j20469814132905_1_alg».proof.Proof.Gen.KernelIdeal.Skeleton
import proofs.«407159_j20469814132905_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array that the point works on. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window whose body leaves its block in place holds that block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window is fetched once; its block index never moves, so it too holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S2000x128 := Rect.unit (s := S2000x128) ![0, 0] S2000x128.size inb_S2000x128_S2000x128_0_0
abbrev r0_w : Rect S128x64 := Rect.unit (s := S128x64) ![0, 0] S128x64.size inb_S128x64_S128x64_0_0
abbrev r0_o : Rect S2000x64 := Rect.unit (s := S2000x64) ![0, 0] S2000x64.size inb_S2000x64_S2000x64_0_0

/-- What the body leaves in the output window: its one whole-block store, the product of the two loaded blocks. -/
def out0_2 (x0 : Vec F S2000x128 .f32) (x1 : Vec F S128x64 .f32) : Vec F S2000x64 .f32 :=
  View.canon [⟨r0_o, k0_pay1 (View.ld x0 r0_x) (View.ld x1 r0_w)⟩]

theorem cover0_2 (p0 : Vec F S2000x64 .f32) (y : S2000x64.Idx) :
    ∃ pc ∈ ([⟨r0_o, p0⟩] : List (View.Piece (Elt F) S2000x64 .f32)), y ∈ pc.1.set :=
  View.cover_of_tiled [⟨r0_o, p0⟩] S2000x64.size (by rfl) y

/-- The store is of the whole block through the zero offset, so what is left IS the product. -/
theorem out0_2_eq [∀ e, Nonempty (Elt F e)] (x0 : Vec F S2000x128 .f32) (x1 : Vec F S128x64 .f32) : out0_2 x0 x1 = k0_pay1 x0 x1 := by
  have hz : (![0, 0] : Fin 2 → ℕ) = fun _ => 0 := by funext a; fin_cases a <;> rfl
  unfold out0_2
  rw [View.canon_unit_zero hz, View.ld_unit_zero hz, View.ld_unit_zero hz]

set_option maxHeartbeats 1000000 in
/-- The body on whole staging buffers: the two inputs are read and kept, the output ends at the product. -/
theorem sound_kernel0 (c : Dev nD) (E : Set ℕ) (i : grid0.Coords) (arg1 : Memref sig .tc .vmem S2000x128 .f32) (harg1 : arg1.IsWhole)
    (arg2 : Memref sig .tc .vmem S128x64 .f32) (harg2 : arg2.IsWhole) (arg3 : Memref sig .tc .vmem S2000x64 .f32) (harg3 : arg3.IsWhole)
    (x0 : Vec F S2000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The call's bookkeeping on core `c`: the arrays as the call finds them; after the body at point `t` each
    input's buffer at its block and the output's at the product of the two; nothing carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  The second projection call (grid of 25 points): at every point the body reads a block of 2000 rows of the
  aggregated features, takes the maximum with zero, and stores the product with the whole 64×64 weight matrix, a 2000×64 block, into the output
  window, which is written back at every point. Stated at a parameter: the buffer contents the call is entered from.
-/
import proofs.«407159_j20469814132905_1_alg».proof.Proof.Gen.KernelIdeal.Launch
import proofs.«407159_j20469814132905_1_alg».proof.Proof.Gen.KernelIdeal.Skeleton
import proofs.«407159_j20469814132905_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array that the point works on. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window whose body leaves its block in place holds that block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window is fetched once; its block index never moves, so it too holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_x : Rect S2000x64 := Rect.unit (s := S2000x64) ![0, 0] S2000x64.size inb_S2000x64_S2000x64_0_0
abbrev r1_w : Rect S64x64 := Rect.unit (s := S64x64) ![0, 0] S64x64.size inb_S64x64_S64x64_0_0
abbrev r1_o : Rect S2000x64 := Rect.unit (s := S2000x64) ![0, 0] S2000x64.size inb_S2000x64_S2000x64_0_0

/-- What the body leaves in the output window: its one whole-block store, the product of the two loaded blocks. -/
def out1_2 (x0 : Vec F S2000x64 .f32) (x1 : Vec F S64x64 .f32) : Vec F S2000x64 .f32 :=
  View.canon [⟨r1_o, k1_pay1 (View.ld x0 r1_x) (View.ld x1 r1_w)⟩]

theorem cover1_2 (p0 : Vec F S2000x64 .f32) (y : S2000x64.Idx) :
    ∃ pc ∈ ([⟨r1_o, p0⟩] : List (View.Piece (Elt F) S2000x64 .f32)), y ∈ pc.1.set :=
  View.cover_of_tiled [⟨r1_o, p0⟩] S2000x64.size (by rfl) y

/-- The store is of the whole block through the zero offset, so what is left IS the product. -/
theorem out1_2_eq [∀ e, Nonempty (Elt F e)] (x0 : Vec F S2000x64 .f32) (x1 : Vec F S64x64 .f32) : out1_2 x0 x1 = k1_pay1 x0 x1 := by
  have hz : (![0, 0] : Fin 2 → ℕ) = fun _ => 0 := by funext a; fin_cases a <;> rfl
  unfold out1_2
  rw [View.canon_unit_zero hz, View.ld_unit_zero hz, View.ld_unit_zero hz]

set_option maxHeartbeats 1000000 in
/-- The body on whole staging buffers: the two inputs are read and kept, the output ends at the product. -/
theorem sound_kernel1 (c : Dev nD) (E : Set ℕ) (i : grid1.Coords) (arg1 : Memref sig .tc .vmem S2000x64 .f32) (harg1 : arg1.IsWhole)
    (arg2 : Memref sig .tc .vmem S64x64 .f32) (harg2 : arg2.IsWhole) (arg3 : Memref sig .tc .vmem S2000x64 .f32) (harg3 : arg3.IsWhole)
    (x0 : Vec F S2000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__relu_proj_kernel i arg1 harg1 arg2 harg2 arg3 harg3) K := by
  simp only [cc1__relu_proj_kernel_eq_skeleton]; unfold cc1__relu_proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The call's bookkeeping on core `c`: the arrays as the call finds them; after the body at point `t` each
    input's buffer at its block and the output's at the product of the two; nothing carried between points. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  The frame half of the third pallas_call (the pooling kernel, a grid of 50 points) of `Cert.KernelIdeal`, at any
  float model `F` and at a parameter `V`: the TensorCore's buffer contents when the region is entered.

  The kernel keeps two accumulators in scratch memory (512x64 sums and 512x1 counts). At the first point it resets
  both and adds that point's addends; at every later point it adds that point's addends to what the point before
  left; at the last point it also computes the output from the accumulators and stores it, the output's window being
  idle at every other point. So the region invariant before point `n + 1` holds the accumulators at `carried2 n`,
  defined by recursion on the point from the stores' payloads `k2_pay1`, `k2_pay2` (the reset values),
  `k2_pay4`, `k2_pay5` (the updates); and the one block written back is `k2_pay6` of the accumulators after
  the last point and the weight block.

  Contents: whole-buffer load and store lemmas; the body's run in each of its three control cases (first point,
  a middle point, last point), each ending at exactly the payload terms; the closed forms of the two conditions over
  the grid and where the output window is idle; the invariant; the proof data `dat2`; the body obligation at a
  generic point; and that the invariant begins and ends at what the launch hands over.
-/
import proofs.«407159_j20469814132905_1_alg».proof.Proof.Gen.KernelIdeal.Launch
import proofs.«407159_j20469814132905_1_alg».proof.Proof.Gen.KernelIdeal.Skeleton
import proofs.«407159_j20469814132905_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer loads and stores

A load through the whole-shape rectangle at zero offsets reads the buffer's contents; a store through it,
last, leaves its payload whatever came before. -/

theorem zeros2 : (![0, 0] : Fin 2 → Nat) = fun _ => 0 := funext fun a => by fin_cases a <;> rfl

theorem readAt_unit0 {sg : RefSig} {κ : Kind} {sp : Space} {S : Shape} {e : EltTy} {Val : EltTy → Type}
    (v : View sg κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f (Rect.unit off S.size inb)).trans (View.ld_unit_zero h inb _)

theorem read_writes_unit0 {sg : RefSig} {κ : Kind} {sp : Space} {S : Shape} {e : EltTy} {Val : EltTy → Type}
    [∀ e, Nonempty (Val e)] (v : View sg κ sp S e) (f : v.ty.Contents Val) {off : Fin S.rank → Nat}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb]

theorem readCov_cons_unit0 {sg : RefSig} {κ : Kind} {sp : Space} {S : Shape} {e : EltTy} {Val : EltTy → Type}
    [∀ e, Nonempty (Val e)] (v : View sg κ sp S e) {off : Fin S.rank → Nat}
    (h : off = fun _ => 0) (inb : ∀ a, off a + S.size a ≤ S.size a) (w : S.Idx → Val e)
    (L : List (View.Piece Val S e)) :
    v.readCov ((⟨Rect.unit off S.size inb, w⟩ : View.Piece Val S e) :: L) (Rect.unit off S.size inb).toLoadRect = w :=
  View.readCov_cons_toLoadRect v (Rect.unit off S.size inb) w L

/-! ## The body's two conditions -/

/-- The first conditional's condition (the grid coordinate is zero), from the grid coordinates. -/
abbrev cond2_0 (i : grid2.Coords) : Prop := (Scalar.cmpi .ne (Scalar.extui (Scalar.cmpi .eq (BitVec.ofNat 32 (i 0).val) 0#32)) 0#32) = 1#1
/-- The second conditional's condition (the grid coordinate is the last). -/
abbrev cond2_1 (i : grid2.Coords) : Prop := k2_cond2 i = 1#1

/-! ## The body's three runs

On whole memrefs: the input blocks at their contents, the two accumulators at what the point before left (at
anything at the first point, which resets them), the output's buffer handed back untouched where the body does
not store into it. -/

set_option maxHeartbeats 1000000 in
/-- A middle point: both accumulators take this point's addend. -/
theorem run2_B (c : Dev nD) (i : grid2.Coords)
    (arg1 : Memref sig .tc .vmem S1000x64 .f32) (harg1 : arg1.IsWhole) (arg2 : Memref sig .tc .vmem S1000x1 .i32) (harg2 : arg2.IsWhole)
    (arg3 : Memref sig .tc .vmem S64x1 .f32) (harg3 : arg3.IsWhole) (arg4 : Memref sig .tc .vmem S512x1 .f32) (harg4 : arg4.IsWhole)
    (arg5 : Memref sig .tc .vmem S512x64 .f32) (harg5 : arg5.IsWhole) (arg6 : Memref sig .tc .vmem S512x1 .f32) (harg6 : arg6.IsWhole)
    (hc0 : ¬cond2_0 i) (hc1 : ¬cond2_1 i)
    (x0 : Vec F S1000x64 .f32) (x1 : Vec F S1000x1 .i32) (x2 : Vec F S64x1 .f32) (xi3 : Vec F S512x1 .f32)
    (xs0 : Vec F S512x64 .f32) (xs1 : Vec F S512x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi3 ∗ owns (c : Thread nD τ) arg5 fullShare xs0 ∗ owns (c : Thread nD τ) arg6 fullShare xs1
        ∗ (iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare (k2_pay4 x1 x0 xs0)
            ∗ owns (c : Thread nD τ) arg6 fullShare (k2_pay5 x1 xs1)) -∗ K ⟨⟩))
      ⊢ wp frame (wpE (defs₀ (F := F)) Variants.none c none) E (cc2__pool_fc_kernel i arg1 harg1 arg2 harg2 arg3 harg3 arg4 harg4 arg5 harg5 arg6 harg6) K := by
  simp only [cc2__pool_fc_kernel_eq_skeleton]; unfold cc2__pool_fc_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [HS0]
  · iexists _; isplitr
    swap; · iexact HS0
    ipureintro
    rw [read_writes_unit0 (S := S512x64) _ _ zeros2, readAt_unit0 (S := S1000x1) _ _ zeros2, readAt_unit0 (S := S1000x64) _ _ zeros2,
      readAt_unit0 (S := S512x64) _ _ zeros2, hf0, hf1, hfs0]
  · iexists _; isplitr
    swap; · iexact HS1
    ipureintro
    rw [read_writes_unit0 (S := S512x1) _ _ zeros2, readAt_unit0 (S := S1000x1) _ _ zeros2,
      readAt_unit0 (S := S512x1) _ _ zeros2, hf1, hfs1]

set_option maxHeartbeats 1000000 in
/-- The first point: both accumulators are reset, then take this point's addend. -/
theorem run2_A (c : Dev nD) (i : grid2.Coords)
    (arg1 : Memref sig .tc .vmem S1000x64 .f32) (harg1 : arg1.IsWhole) (arg2 : Memref sig .tc .vmem S1000x1 .i32) (harg2 : arg2.IsWhole)
    (arg3 : Memref sig .tc .vmem S64x1 .f32) (harg3 : arg3.IsWhole) (arg4 : Memref sig .tc .vmem S512x1 .f32) (harg4 : arg4.IsWhole)
    (arg5 : Memref sig .tc .vmem S512x64 .f32) (harg5 : arg5.IsWhole) (arg6 : Memref sig .tc .vmem S512x1 .f32) (harg6 : arg6.IsWhole)
    (hc0 : cond2_0 i) (hc1 : ¬cond2_1 i)
    (x0 : Vec F S1000x64 .f32) (x1 : Vec F S1000x1 .i32) (x2 : Vec F S64x1 .f32) (xi3 : Vec F S512x1 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare (k2_pay4 x1 x0 k2_pay1)
            ∗ owns (c : Thread nD τ) arg6 fullShare (k2_pay5 x1 k2_pay2)) -∗ K ⟨⟩))
      ⊢ wp frame (wpE (defs₀ (F := F)) Variants.none c none) E (cc2__pool_fc_kernel i arg1 harg1 arg2 harg2 arg3 harg3 arg4 harg4 arg5 harg5 arg6 harg6) K := by
  simp only [cc2__pool_fc_kernel_eq_skeleton]; unfold cc2__pool_fc_kernel_skel
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [HS0]
  · iexists _; isplitr
    swap; · iexact HS0
    ipureintro
    rw [read_writes_unit0 (S := S512x64) _ _ zeros2]
    sl_unfold_words
    rw [readCov_cons_unit0 (S := S512x64) _ zeros2, readAt_unit0 (S := S1000x1) _ _ zeros2,
      readAt_unit0 (S := S1000x64) _ _ zeros2, hf0, hf1]
  · iexists _; isplitr
    swap; · iexact HS1
    ipureintro
    rw [read_writes_unit0 (S := S512x1) _ _ zeros2]
    sl_unfold_words
    rw [readCov_cons_unit0 (S := S512x1) _ zeros2, readAt_unit0 (S := S1000x1) _ _ zeros2, hf1]

set_option maxHeartbeats 1000000 in
/-- The last point: both accumulators take this point's addend, and the output is computed from them and stored. -/
theorem run2_C (c : Dev nD) (i : grid2.Coords)
    (arg1 : Memref sig .tc .vmem S1000x64 .f32) (harg1 : arg1.IsWhole) (arg2 : Memref sig .tc .vmem S1000x1 .i32) (harg2 : arg2.IsWhole)
    (arg3 : Memref sig .tc .vmem S64x1 .f32) (harg3 : arg3.IsWhole) (arg4 : Memref sig .tc .vmem S512x1 .f32) (harg4 : arg4.IsWhole)
    (arg5 : Memref sig .tc .vmem S512x64 .f32) (harg5 : arg5.IsWhole) (arg6 : Memref sig .tc .vmem S512x1 .f32) (harg6 : arg6.IsWhole)
    (hc0 : ¬cond2_0 i) (hc1 : cond2_1 i)
    (x0 : Vec F S1000x64 .f32) (x1 : Vec F S1000x1 .i32) (x2 : Vec F S64x1 .f32)
    (xs0 : Vec F S512x64 .f32) (xs1 : Vec F S512x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xs0 ∗ owns (c : Thread nD τ) arg6 fullShare xs1
        ∗ (iprop(owns (c : Thread nD τ) arg1 fullShare x0 ∗ owns (c : Thread nD τ) arg2 fullShare x1 ∗ owns (c : Thread nD τ) arg3 fullShare x2
            ∗ owns (c : Thread nD τ) arg4 fullShare (k2_pay6 (k2_pay5 x1 xs1) (k2_pay4 x1 x0 xs0) x2) ∗ owns (c : Thread nD τ) arg5 fullShare (k2_pay4 x1 x0 xs0)
            ∗ owns (c : Thread nD τ) arg6 fullShare (k2_pay5 x1 xs1)) -∗ K ⟨⟩))
      ⊢ wp frame (wpE (defs₀ (F := F)) Variants.none c none) E (cc2__pool_fc_kernel i arg1 harg1 arg2 harg2 arg3 harg3 arg4 harg4 arg5 harg5 arg6 harg6) K := by
  simp only [cc2__pool_fc_kernel_eq_skeleton]; unfold cc2__pool_fc_kernel_skel
  unfold owns
  iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]
  · iexists _; isplitr
    swap; · iexact H3
    ipureintro
    rw [read_writes_unit0 (S := S512x1) _ _ zeros2]
    sl_unfold_words
    rw [readCov_cons_unit0 (S := S512x1) _ zeros2, readCov_cons_unit0 (S := S512x64) _ zeros2,
      readAt_unit0 (S := S64x1) _ _ zeros2, readAt_unit0 (S := S1000x1) _ _ zeros2, readAt_unit0 (S := S1000x64) _ _ zeros2,
      readAt_unit0 (S := S512x64) _ _ zeros2, readAt_unit0 (S := S512x1) _ _ zeros2, hf0, hf1, hf2, hfs0, hfs1]
  isplitl [HS0]
  · iexists _; isplitr
    swap; · iexact HS0
    ipureintro
    sl_unfold_words
    rw [read_writes_unit0 (S := S512x64) _ _ zeros2, readAt_unit0 (S := S1000x1) _ _ zeros2, readAt_unit0 (S := S1000x64) _ _ zeros2,
      readAt_unit0 (S := S512x64) _ _ zeros2, hf0, hf1, hfs0]
  · iexists _; isplitr
    swap; · iexact HS1
    ipureintro
    sl_unfold_words
    rw [read_writes_unit0 (S := S512x1) _ _ zeros2, readAt_unit0 (S := S1000x1) _ _ zeros2,
      readAt_unit0 (S := S512x1) _ _ zeros2, hf1, hfs1]

/-! ## The conditions over the grid, and where the output window is idle -/

/-- The first conditional is taken at the first point only, -/
theorem hcond2_0 : ∀ t : Fin cfg2.N, cond2_0 (grid2.coords t) ↔ t.val = 0 :=
  (by decide +kernel : ∀ t : Fin grid2.N, cond2_0 (grid2.coords t) ↔ t.val = 0)
/-- the second at the last point only. -/
theorem hcond2_1 : ∀ t : Fin cfg2.N, cond2_1 (grid2.coords t) ↔ t.val = 49 :=
  (by decide +kernel : ∀ t : Fin grid2.N, cond2_1 (grid2.coords t) ↔ t.val = 49)

/-- The three inputs are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
/-- Off the last point the output window is idle and is not written back; -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
/-- at the last point it is live. -/
theorem liveAt2_3 : ∀ t : Fin cfg2.N, cond2_1 (grid2.coords t) → cfg2.idle 3 (grid2.coords t) = false := by decide +kernel

/-! ## The memrefs the body is called with -/

abbrev ms2_0 (t : Fin cfg2.N) : Memref sig .tc .vmem S1000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1000x1 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x1 .f32 := win2_3.stage (cfg2.slots t 3)
abbrev hs2_3 (t : Fin cfg2.N) : (ms2_3 t).IsWhole := hstage2_3 ((cfg2.slots t 3).cast nbuf2_3)
/-- The two accumulators: whole scoped buffers of the kernel's own. -/
abbrev scM2_0 : Memref sig .tc .vmem S512x64 .f32 := Memref.whole cc2_scratch0
abbrev scM2_1 : Memref sig .tc .vmem S512x1 .f32 := Memref.whole cc2_scratch1

/-! ## The invariant's shape -/

/-- A scoped buffer of the core at some contents. -/
abbrev anyBuf (c : Dev nD) (b : Ref sig .tc) : sProp 𝕄 :=
  iprop(∃ f : Buf (Elt F) ((c : Thread nD τ).loc b), ((c : Thread nD τ).loc b) ↦{fullShare} f)

/-- The core's scoped buffers other than this call's staging buffers, with the two accumulators as `T` states them,
    and the generator register at some state. -/
def Phi2With (c : Dev nD) (T : sProp 𝕄) : sProp 𝕄 :=
  iprop((anyBuf (F := F) c cc0_stg0_0 ∗ anyBuf (F := F) c cc0_stg0_1 ∗ anyBuf (F := F) c cc0_stg1_0 ∗ anyBuf (F := F) c cc0_stg2_0 ∗ anyBuf (F := F) c cc0_stg2_1 ∗ anyBuf (F := F) c cc1_stg0_0 ∗ anyBuf (F := F) c cc1_stg0_1 ∗ anyBuf (F := F) c cc1_stg1_0 ∗ anyBuf (F := F) c cc1_stg2_0 ∗ anyBuf (F := F) c cc1_stg2_1 ∗ T) ∗ (∃ r, prngReg c r))

/-- What is left of it without the accumulators. -/
def Phi2Rest (c : Dev nD) : sProp 𝕄 :=
  iprop((anyBuf (F := F) c cc0_stg0_0 ∗ anyBuf (F := F) c cc0_stg0_1 ∗ anyBuf (F := F) c cc0_stg1_0 ∗ anyBuf (F := F) c cc0_stg2_0 ∗ anyBuf (F := F) c cc0_stg2_1 ∗ anyBuf (F := F) c cc1_stg0_0 ∗ anyBuf (F := F) c cc1_stg0_1 ∗ anyBuf (F := F) c cc1_stg1_0 ∗ anyBuf (F := F) c cc1_stg2_0 ∗ anyBuf (F := F) c cc1_stg2_1) ∗ (∃ r, prngReg c r))

theorem Phi2With_out (c : Dev nD) (T : sProp 𝕄) : Phi2With (F := F) c T ⊢ iprop(T ∗ Phi2Rest (F := F) c) := by
  unfold Phi2With Phi2Rest
  iintro ⟨⟨A1, A2, A3, A4, A5, A6, A7, A8, A9, A10, HT⟩, Hg⟩
  isplitl [HT]; · iexact HT
  isplitr [Hg]
  swap; · iexact Hg
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  iexact A10

theorem Phi2With_in (c : Dev nD) (T : sProp 𝕄) : iprop(T ∗ Phi2Rest (F := F) c) ⊢ Phi2With (F := F) c T := by
  unfold Phi2With Phi2Rest
  iintro ⟨HT, ⟨A1, A2, A3, A4, A5, A6, A7, A8, A9, A10⟩, Hg⟩
  isplitr [Hg]
  swap; · iexact Hg
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  iexact HT

/-- What the launch hands the region, in that shape: both accumulators at some contents. -/
theorem PhiA2_eq (c : Dev nD) :
    (Pipeline.ΦA spec2 c : sProp 𝕄)
      = Phi2With (F := F) c iprop((∃ d, owns (c : Thread nD τ) scM2_0 fullShare d) ∗ (∃ d, owns (c : Thread nD τ) scM2_1 fullShare d)) := by
  unfold Pipeline.ΦA Phi2With; rw [scopedRest2_eq]; simp only [scM2_0, scM2_1, owns_whole]; try rfl

/-! ## The windows' blocks and what the accumulators carry -/

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the two accumulators hold after the body at position `n`: (the 512x64 sums, the 512x1 counts) — the reset
    values plus the first point's addends, then each point's addends on what the point before left. -/
def carried2 (c : Dev nD) : (n : ℕ) → n < cfg2.N → Vec F S512x64 .f32 × Vec F S512x1 .f32
  | 0, h => (k2_pay4 (iblk2 V c 1 ⟨0, h⟩) (iblk2 V c 0 ⟨0, h⟩) k2_pay1, k2_pay5 (iblk2 V c 1 ⟨0, h⟩) k2_pay2)
  | n + 1, h => (k2_pay4 (iblk2 V c 1 ⟨n + 1, h⟩) (iblk2 V c 0 ⟨n + 1, h⟩) (carried2 c n (Nat.lt_of_succ_lt h)).1,
                 k2_pay5 (iblk2 V c 1 ⟨n + 1, h⟩) (carried2 c n (Nat.lt_of_succ_lt h)).2)

/-- At the first point: the reset values plus its addends. -/
theorem carried2_first (c : Dev nD) (t : Fin cfg2.N) (h0 : t.val = 0) :
    carried2 V c t.val t.isLt = (k2_pay4 (iblk2 V c 1 t) (iblk2 V c 0 t) k2_pay1, k2_pay5 (iblk2 V c 1 t) k2_pay2) := by
  obtain ⟨n, hn⟩ := t
  cases n with
  | zero => rfl
  | succ n => exact absurd h0 (Nat.succ_ne_zero n)

/-- At a later point: its addends on what the point before left. -/
theorem carried2_later (c : Dev nD) (t : Fin cfg2.N) (h0 : t.val ≠ 0) :
    carried2 V c t.val t.isLt
      = (k2_pay4 (iblk2 V c 1 t) (iblk2 V c 0 t) (carried2 V c (t.val - 1) (Nat.lt_of_le_of_lt (Nat.sub_le _ _) t.isLt)).1,
         k2_pay5 (iblk2 V c 1 t) (carried2 V c (t.val - 1) (Nat.lt_of_le_of_lt (Nat.sub_le _ _) t.isLt)).2) := by
  obtain ⟨n, hn⟩ := t
  cases n with
  | zero => exact absurd rfl h0
  | succ n => rfl

/-! ## The region invariant -/

/-- Before the first point what the launch hands over (both accumulators at anything); before a later point the
    accumulators at what the point before left. -/
def Phi2 (c : Dev nD) : (n : ℕ) → n ≤ cfg2.N → sProp 𝕄
  | 0, _ => Pipeline.ΦA spec2 c
  | n + 1, hn => Phi2With (F := F) c iprop(owns (c : Thread nD τ) scM2_0 fullShare (carried2 V c n hn).1 ∗ owns (c : Thread nD τ) scM2_1 fullShare (carried2 V c n hn).2)

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = Phi2With (F := F) c iprop(owns (c : Thread nD τ) scM2_0 fullShare (carried2 V c n hn).1 ∗ owns (c : Thread nD τ) scM2_1 fullShare (carried2 V c n hn).2) := rfl

theorem Phi2_pos (c : Dev nD) (n : ℕ) (h : n ≤ cfg2.N) (hz : n ≠ 0) :
    Phi2 V c n h = Phi2With (F := F) c iprop(owns (c : Thread nD τ) scM2_0 fullShare (carried2 V c (n - 1) (by omega)).1 ∗ owns (c : Thread nD τ) scM2_1 fullShare (carried2 V c (n - 1) (by omega)).2) := by
  cases n with
  | zero => exact absurd rfl hz
  | succ n => rfl

/-! ## The proof data -/

/-- The arrays as the region finds them; after the body each input's buffer at its block, the output's at the
    closing computation on what the accumulators then hold (consulted at the last point only: elsewhere the window
    is idle); the invariant `Phi2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay6 (carried2 V c t.val t.isLt).2 (carried2 V c t.val t.isLt).1 (iblk2 V c 2 t)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay6 (carried2 V c t.val t.isLt).2 (carried2 V c t.val t.isLt).1 (iblk2 V c 2 t) := by dsimp only [dat2]

/-- What the last point writes back. -/
theorem after2_3_last (c : Dev nD) (t : Fin cfg2.N) (ht : t.val = 49) :
    (dat2 V c).after 3 t = k2_pay6 (carried2 V c t.val t.isLt).2 (carried2 V c t.val t.isLt).1 (iblk2 V c 2 t) :=
  after2_3 V c t

/-- Each input's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' memrefs hold their blocks; the point is the first, the last or one between,
    and the run for that case applies: the invariant hands it the accumulators at what the point before left (at
    anything at the first point) and takes them back at this point's contents; off the last point the output's buffer
    goes back as it came, at the last it holds the closing computation on the accumulators. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [Phi2_castSucc V c t]
  have hN : t.val < 50 := lt_of_lt_of_eq t.isLt (show cfg2.N = 50 from N_2)
  by_cases h0 : t.val = 0
  · have hc0 : cond2_0 (grid2.coords t) := (hcond2_0 t).mpr h0
    have hc1 : ¬cond2_1 (grid2.coords t) := fun h => by have := (hcond2_1 t).mp h; omega
    rw [Dat.leavesExact_idle (dat2 V c) 3 t (idleAt2_3 t hc1) (noFlush2_3 t hc1)]
    rw [carried2_first V c t h0, Phi2_zero V c _ _ h0, PhiA2_eq]
    iintro ⟨HΦ, Ho, ⟨%d0, H0⟩, ⟨%d1, H1⟩, ⟨%d2, H2⟩, ⟨%d3, H3⟩⟩
    ihave ⟨⟨HS0, HS1⟩, HR⟩ := (Phi2With_out (F := F) c _) $$ HΦ
    iapply (run2_A c (grid2.coords t) _ (hs2_0 t) _ (hs2_1 t) _ (hs2_2 t) _ (hs2_3 t) scM2_0 (Memref.isWhole_whole _) scM2_1 (Memref.isWhole_whole _)
      hc0 hc1 (iblk2 V c 0 t) (iblk2 V c 1 t) (iblk2 V c 2 t) _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 HR]
    · iapply (Phi2With_in (F := F) c _)
      isplitr [HR]
      swap; · iexact HR
      isplitl [HS0]; · iexact HS0
      iexact HS1
    isplitl [Ho]; · iexact Ho
    isplitl [H0]; · iexact H0
    isplitl [H1]; · iexact H1
    isplitl [H2]; · iexact H2
    iexists _; iexact H3
  · have hc0 : ¬cond2_0 (grid2.coords t) := fun h => h0 ((hcond2_0 t).mp h)
    rw [carried2_later V c t h0, Phi2_pos V c _ _ h0]
    by_cases h1 : t.val = 49
    · have hc1 : cond2_1 (grid2.coords t) := (hcond2_1 t).mpr h1
      rw [show (dat2 V c).leavesExact 3 t = owns (c : Thread nD τ) (ms2_3 t) fullShare ((dat2 V c).after 3 t) from by
        unfold Dat.leavesExact; rw [liveAt2_3 t hc1], after2_3, carried2_later V c t h0]
      iintro ⟨HΦ, Ho, ⟨%d0, H0⟩, ⟨%d1, H1⟩, ⟨%d2, H2⟩, ⟨%d3, H3⟩⟩
      ihave ⟨⟨HS0, HS1⟩, HR⟩ := (Phi2With_out (F := F) c _) $$ HΦ
      iapply (run2_C c (grid2.coords t) _ (hs2_0 t) _ (hs2_1 t) _ (hs2_2 t) _ (hs2_3 t) scM2_0 (Memref.isWhole_whole _) scM2_1 (Memref.isWhole_whole _)
        hc0 hc1 (iblk2 V c 0 t) (iblk2 V c 1 t) (iblk2 V c 2 t) _ _ Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, H3, HS0, HS1⟩
      isplitl [HS0 HS1 HR]
      · iapply (Phi2With_in (F := F) c _)
        isplitr [HR]
        swap; · iexact HR
        isplitl [HS0]; · iexact HS0
        iexact HS1
      isplitl [Ho]; · iexact Ho
      isplitl [H0]; · iexact H0
      isplitl [H1]; · iexact H1
      isplitl [H2]; · iexact H2
      iexact H3
    · have hc1 : ¬cond2_1 (grid2.coords t) := fun h => h1 ((hcond2_1 t).mp h)
      rw [Dat.leavesExact_idle (dat2 V c) 3 t (idleAt2_3 t hc1) (noFlush2_3 t hc1)]
      iintro ⟨HΦ, Ho, ⟨%d0, H0⟩, ⟨%d1, H1⟩, ⟨%d2, H2⟩, ⟨%d3, H3⟩⟩
      ihave ⟨⟨HS0, HS1⟩, HR⟩ := (Phi2With_out (F := F) c _) $$ HΦ
      iapply (run2_B c (grid2.coords t) _ (hs2_0 t) _ (hs2_1 t) _ (hs2_2 t) _ (hs2_3 t) scM2_0 (Memref.isWhole_whole _) scM2_1 (Memref.isWhole_whole _)
        hc0 hc1 (iblk2 V c 0 t) (iblk2 V c 1 t) (iblk2 V c 2 t) _ _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 HR]
      · iapply (Phi2With_in (F := F) c _)
        isplitr [HR]
        swap; · iexact HR
        isplitl [HS0]; · iexact HS0
        iexact HS1
      isplitl [Ho]; · iexact Ho
      isplitl [H0]; · iexact H0
      isplitl [H1]; · iexact H1
      isplitl [H2]; · iexact H2
      iexists _; iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = Phi2 V c 0 (Nat.zero_le _) from rfl, Phi2_zero V c 0 _ rfl]
  try exact Idealize.SL.BI.Entails.refl _

/-- After any point the invariant gives it back: what the accumulators hold is forgotten. -/
theorem Phi2_out (c : Dev nD) (t : Fin (cfg2.N + 1)) (ht : t.val ≠ 0) : (dat2 V c).Φ t ⊢ Pipeline.ΦA spec2 c := by
  rw [show (dat2 V c).Φ t = Phi2 V c t.val (Nat.le_of_lt_succ t.isLt) from rfl, Phi2_pos V c _ _ ht, PhiA2_eq]
  iintro HΦ
  ihave ⟨⟨HS0, HS1⟩, HR⟩ := (Phi2With_out (F := F) c _) $$ HΦ
  iapply (Phi2With_in (F := F) c _)
  isplitr [HR]
  swap; · iexact HR
  isplitl [HS0]
  · iexists _; iexact HS0
  · iexists _; iexact HS1

/-- The same after the last point. -/
theorem hout2 (c : Dev nD) : (dat2 V c).Φ (Fin.last cfg2.N) ⊢ Pipeline.ΦA spec2 c :=
  Phi2_out V c _ (by rw [Fin.val_last]; have : cfg2.N = 50 := N_2; omega)

end Cert.KernelIdeal.Hand

end
-- ==== Proof.KI.Run.lean ====
/-
  The whole program as a run of segments: three stretches of host operations and the three kernel calls between
  them. The contents of every buffer are followed from the launch through each segment; the launch theorem for a
  program of several calls then says that every execution ends, and that every buffer ends at the last contents.
  From that one statement come the frame (each argument is never written, so it ends as launched) and the value
  of the result (what the third call's single write-back leaves).
-/
import proofs.«407159_j20469814132905_1_alg».proof.Proof.KI.Reg0
import proofs.«407159_j20469814132905_1_alg».proof.Proof.KI.Reg1
import proofs.«407159_j20469814132905_1_alg».proof.Proof.KI.Reg2
import proofs.«407159_j20469814132905_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => m (c, b)
/-- After the first stretch of host operations (the edge index split into sources and targets, the graph ids as a column). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- The contents after call 0: its arrays at what the write-backs leave, every other buffer as before it. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second stretch (gather along the sources, scatter-add onto the targets). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- The contents after call 1: its arrays at what the write-backs leave, every other buffer as before it. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third stretch (the same aggregation once more). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b

/-- The contents after call 2: its arrays at what the write-backs leave, every other buffer as before it. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- Argument 0 ends as launched: no host operation writes it and every call only reads it. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide)
    _ = m ((c : Thread nD τ).loc main_arg0) := rfl

/-- Argument 1 ends as launched: no host operation writes it and every call only reads it. -/
theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-- Argument 2 ends as launched: no host operation writes it and every call only reads it. -/
theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

/-- Argument 3 ends as launched: no host operation writes it and every call only reads it. -/
theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := (W2_arr m c 1).trans (((dat0 (V1 m) c).arrAt_in 1 rfl _).trans (A_eq0 (V1 m) c 1))
    _ = W0 m c (Proc.devRef .tc main_arg3) := StableHlo.after_of_writes_sub hostOps0 _ hostOps0_writes (by decide)
    _ = m ((c : Thread nD τ).loc main_arg3) := rfl

/-- Argument 4 ends as launched: no host operation writes it and every call only reads it. -/
theorem W6_main_arg4 (c : Dev nD) : W6 m c (Proc.devRef .tc main_arg4) = m ((c : Thread nD τ).loc main_arg4) :=
  calc W6 m c (Proc.devRef .tc main_arg4)
    _ = W5 m c (Proc.devRef .tc main_arg4) := W6_of_ne m c main_arg4 (by decide)
    _ = W4 m c (Proc.devRef .tc main_arg4) := StableHlo.after_of_writes_sub hostOps2 _ hostOps2_writes (by decide)
    _ = W3 m c (Proc.devRef .tc main_arg4) := (W4_arr m c 1).trans (((dat1 (V3 m) c).arrAt_in 1 rfl _).trans (A_eq1 (V3 m) c 1))
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

/-- Argument 5 ends as launched: no host operation writes it and every call only reads it. -/
theorem W6_main_arg5 (c : Dev nD) : W6 m c (Proc.devRef .tc main_arg5) = m ((c : Thread nD τ).loc main_arg5) :=
  calc W6 m c (Proc.devRef .tc main_arg5)
    _ = W5 m c (Proc.devRef .tc main_arg5) := (W6_arr m c 2).trans (((dat2 (V5 m) c).arrAt_in 2 rfl _).trans (A_eq2 (V5 m) c 2))
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

/-! ## The calls' bookkeeping as one family, and what rides beside the buffers -/

/-- Every call's bookkeeping, each at the contents its call is entered from. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
abbrev L : GSem nD τ sig → Finset Unit := fun _ => ∅
abbrev lv : GSem nD τ sig → Unit → ℕ := fun _ _ => 0
/-- Beside the buffers: the core's generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

set_option backward.isDefEq.respectTransparency.types false in
/-- Call 0 as a segment of the program: entered with every unscoped buffer at the contents before it, left with the
    call's arrays at what its write-backs leave and every other buffer untouched. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]
    unfold Pipeline.ΦA
    iintro ⟨Hp, -, Hr⟩
    isplitl [Hr]; · iexact Hr
    iexact Hp
  hout c := by
    rw [show (pdats m 0 c).Φ (Fin.last _) = Pipeline.ΦA spec0 c from rfl]
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment of the program: entered with every unscoped buffer at the contents before it, left with the
    call's arrays at what its write-backs leave and every other buffer untouched. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]
    unfold Pipeline.ΦA
    iintro ⟨Hp, -, Hr⟩
    isplitl [Hr]; · iexact Hr
    iexact Hp
  hout c := by
    rw [show (pdats m 1 c).Φ (Fin.last _) = Pipeline.ΦA spec1 c from rfl]
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment of the program: entered with every unscoped buffer at the contents before it, left with the
    call's arrays at what its write-backs leave and every other buffer untouched. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec2 c : sProp 𝕄) from ?_).trans (hin2 (V5 m) c)
    unfold Pipeline.ΦA
    iintro ⟨Hp, -, Hr⟩
    isplitl [Hr]; · iexact Hr
    iexact Hp
  hout c := by
    refine (hout2 (V5 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]
theorem main_run (c : Dev nD) : main (F := F) c = Pipeline.Seg.run (segs m) := (main_chain c).trans (by chain_rfl)

set_option backward.isDefEq.respectTransparency.types false in
/-- Every weakly fair execution from memory `m` with zero counters ends without a fault, and in the final memory
    every unscoped buffer of every core holds the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c)⟩) (run_all m ρ)

end Cert.KernelIdeal.Hand

end
-- ==== Proof.KI.HostVals.lean ====
/-
  What the host stretches compute, read off the fold of buffer contents. The edge aggregation — gather the rows
  named by the (wrapped) source ids, add each onto the row named by its target id — is applied twice by the program;
  it is named once, as one function of the two id lists and the array it aggregates, and never opened.
-/
import proofs.«407159_j20469814132905_1_alg».proof.Proof.KI.Run
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

/-- The edge aggregation: rows of `p` gathered at the source ids (a negative id wrapped by the row count), then
    scatter-added at the target ids onto zeros. -/
def aggK (v1 v3 : IVec S800000 32) (p : FVec F S50000x64 .f32) : FVec F S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 v3)
    (Host.gather gather_S50000x64_S800000x1_S800000x64_1_0_n_n_0_1_164 p
      (broadcastInDim S800000x1 ![0] bcast_S800000_S800000x1_0
        (select (cmpi .slt v1 (broadcastInDim S800000 ![] bcast_S_S800000 (constantI S_ 32 0#32)))
          (addi v1 (broadcastInDim S800000 ![] bcast_S_S800000 (constantI S_ 32 50000#32))) v1)))

variable (m : (ℓ : Loc nD τ sig) → Buf (Elt F) ℓ)

/-! ## Buffers a later segment reads are what an earlier one left -/

theorem W2_v1 (c : Dev nD) : W2 m c (Proc.devRef .tc main_v1) = W1 m c (Proc.devRef .tc main_v1) := W2_of_ne m c main_v1 (by decide)
theorem W2_v3 (c : Dev nD) : W2 m c (Proc.devRef .tc main_v3) = W1 m c (Proc.devRef .tc main_v3) := W2_of_ne m c main_v3 (by decide)
theorem W2_v4 (c : Dev nD) : W2 m c (Proc.devRef .tc main_v4) = W1 m c (Proc.devRef .tc main_v4) := W2_of_ne m c main_v4 (by decide)
theorem W3_v1 (c : Dev nD) : W3 m c (Proc.devRef .tc main_v1) = W1 m c (Proc.devRef .tc main_v1) := (StableHlo.after_of_writes_sub hostOps1 _ hostOps1_writes (by decide)).trans (W2_v1 m c)
theorem W3_v3 (c : Dev nD) : W3 m c (Proc.devRef .tc main_v3) = W1 m c (Proc.devRef .tc main_v3) := (StableHlo.after_of_writes_sub hostOps1 _ hostOps1_writes (by decide)).trans (W2_v3 m c)
theorem W3_v4 (c : Dev nD) : W3 m c (Proc.devRef .tc main_v4) = W1 m c (Proc.devRef .tc main_v4) := (StableHlo.after_of_writes_sub hostOps1 _ hostOps1_writes (by decide)).trans (W2_v4 m c)
theorem W4_v1 (c : Dev nD) : W4 m c (Proc.devRef .tc main_v1) = W1 m c (Proc.devRef .tc main_v1) := (W4_of_ne m c main_v1 (by decide)).trans (W3_v1 m c)
theorem W4_v3 (c : Dev nD) : W4 m c (Proc.devRef .tc main_v3) = W1 m c (Proc.devRef .tc main_v3) := (W4_of_ne m c main_v3 (by decide)).trans (W3_v3 m c)
theorem W4_v4 (c : Dev nD) : W4 m c (Proc.devRef .tc main_v4) = W1 m c (Proc.devRef .tc main_v4) := (W4_of_ne m c main_v4 (by decide)).trans (W3_v4 m c)
theorem W5_v4 (c : Dev nD) : W5 m c (Proc.devRef .tc main_v4) = W1 m c (Proc.devRef .tc main_v4) := (StableHlo.after_of_writes_sub hostOps2 _ hostOps2_writes (by decide)).trans (W4_v4 m c)

theorem W1_arg0 (c : Dev nD) : W1 m c (Proc.devRef .tc main_arg0) = m ((c : Thread nD τ).loc main_arg0) :=
  StableHlo.after_of_writes_sub hostOps0 _ hostOps0_writes (by decide)
theorem W1_arg3 (c : Dev nD) : W1 m c (Proc.devRef .tc main_arg3) = m ((c : Thread nD τ).loc main_arg3) :=
  StableHlo.after_of_writes_sub hostOps0 _ hostOps0_writes (by decide)
theorem W3_arg4 (c : Dev nD) : W3 m c (Proc.devRef .tc main_arg4) = m ((c : Thread nD τ).loc main_arg4) :=
  (StableHlo.after_of_writes_sub hostOps1 _ hostOps1_writes (by decide)).trans
    ((W2_of_ne m c main_arg4 (by decide)).trans (StableHlo.after_of_writes_sub hostOps0 _ hostOps0_writes (by decide)))
theorem W5_arg5 (c : Dev nD) : W5 m c (Proc.devRef .tc main_arg5) = m ((c : Thread nD τ).loc main_arg5) :=
  (StableHlo.after_of_writes_sub hostOps2 _ hostOps2_writes (by decide)).trans
    ((W4_of_ne m c main_arg5 (by decide)).trans ((StableHlo.after_of_writes_sub hostOps1 _ hostOps1_writes (by decide)).trans
      ((W2_of_ne m c main_arg5 (by decide)).trans (StableHlo.after_of_writes_sub hostOps0 _ hostOps0_writes (by decide)))))

/-! ## The two aggregations -/

/-- The second projection's operand: the aggregation of what the first projection left. -/
theorem W3_v15 (c : Dev nD) : W3 m c (Proc.devRef .tc main_v15)
    = aggK (W1 m c (Proc.devRef .tc main_v1)) (W1 m c (Proc.devRef .tc main_v3)) (W2 m c (Proc.devRef .tc main_v5)) := by
  rw [← W2_v1 m c, ← W2_v3 m c]
  show StableHlo.after hostOps1 (W2 m c) (Proc.devRef .tc main_v15) = _
  after_results
  rfl

/-- The pooling call's operand: the aggregation of what the second projection left. -/
theorem W5_v26 (c : Dev nD) : W5 m c (Proc.devRef .tc main_v26)
    = aggK (W1 m c (Proc.devRef .tc main_v1)) (W1 m c (Proc.devRef .tc main_v3)) (W4 m c (Proc.devRef .tc main_v16)) := by
  rw [← W4_v1 m c, ← W4_v3 m c]
  show StableHlo.after hostOps2 (W4 m c) (Proc.devRef .tc main_v26) = _
  after_results
  rfl

end Cert.KernelIdeal.Hand

end
-- ==== Proof.ProjMath.lean ====
/- The two projection kernels, block by block, against the reference's whole products: pure mathematics
   at the ideal values (a float is an extended real, every operation exact, a narrowing conversion the
   identity). Block t of a projection kernel multiplies rows 2000·t … 2000·t+1999 of its left operand
   by the whole weight matrix into a zero accumulator; element (p, q) of that block is
   ∑ k, x[2000·t + p, k] · w[k, q], which is element (2000·t + p, q) of the whole product. For the second
   kernel the left operand is first replaced by max(·, 0), which commutes with taking rows. -/
import proofs.«407159_j20469814132905_1_alg».proof.Proof.Gen.KernelIdeal.Skeleton
import proofs.«407159_j20469814132905_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.Bridge.Proj

open Idealize.ShloMosaic Idealize.SL.Sem
open scoped BigOperators

/-! ## The first kernel's product read as a sum -/

theorem klhs0_0 (j : Cert.KernelIdeal.S2000x64.Idx) (q : Cert.KernelIdeal.dot_S2000x128_S128x64_S2000x64_1_0_0_1_n_n.contr.Idx) :
    (Cert.KernelIdeal.dot_S2000x128_S128x64_S2000x64_1_0_0_1_n_n.lhsIdx j q 0).val = (j 0).val := by
  unfold DotDims.lhsIdx
  rw [dif_neg (show ¬(0 : Fin Cert.KernelIdeal.S2000x128.rank) ∈ Cert.KernelIdeal.dot_S2000x128_S128x64_S2000x64_1_0_0_1_n_n.lhsBatch by decide), dif_pos (show (0 : Fin Cert.KernelIdeal.S2000x128.rank) ∈ Cert.KernelIdeal.dot_S2000x128_S128x64_S2000x64_1_0_0_1_n_n.lhsNonContracting by decide)]
  rfl
theorem klhs0_1 (j : Cert.KernelIdeal.S2000x64.Idx) (q : Cert.KernelIdeal.dot_S2000x128_S128x64_S2000x64_1_0_0_1_n_n.contr.Idx) :
    (Cert.KernelIdeal.dot_S2000x128_S128x64_S2000x64_1_0_0_1_n_n.lhsIdx j q 1).val = (q ⟨0, by decide⟩).val :=
  Cert.KernelIdeal.dot_S2000x128_S128x64_S2000x64_1_0_0_1_n_n.lhsIdx_val_of_single rfl j q
theorem krhs0_0 (j : Cert.KernelIdeal.S2000x64.Idx) (q : Cert.KernelIdeal.dot_S2000x128_S128x64_S2000x64_1_0_0_1_n_n.contr.Idx) :
    (Cert.KernelIdeal.dot_S2000x128_S128x64_S2000x64_1_0_0_1_n_n.rhsIdx j q 0).val = (q ⟨0, by decide⟩).val :=
  Cert.KernelIdeal.dot_S2000x128_S128x64_S2000x64_1_0_0_1_n_n.rhsIdx_val_of_single rfl j q
theorem krhs0_1 (j : Cert.KernelIdeal.S2000x64.Idx) (q : Cert.KernelIdeal.dot_S2000x128_S128x64_S2000x64_1_0_0_1_n_n.contr.Idx) :
    (Cert.KernelIdeal.dot_S2000x128_S128x64_S2000x64_1_0_0_1_n_n.rhsIdx j q 1).val = (j 1).val := by
  unfold DotDims.rhsIdx
  rw [dif_neg (show ¬(1 : Fin Cert.KernelIdeal.S128x64.rank) ∈ Cert.KernelIdeal.dot_S2000x128_S128x64_S2000x64_1_0_0_1_n_n.rhsBatch by decide), dif_pos (show (1 : Fin Cert.KernelIdeal.S128x64.rank) ∈ Cert.KernelIdeal.dot_S2000x128_S128x64_S2000x64_1_0_0_1_n_n.rhsNonContracting by decide)]
  rfl

/-- row j₀, column k of the block's left operand -/
abbrev klidx0 (j : Cert.KernelIdeal.S2000x64.Idx) (k : Fin 128) : Cert.KernelIdeal.S2000x128.Idx := fun a => match a with
  | ⟨0, _⟩ => ⟨(j 0).val, (j 0).isLt⟩
  | ⟨1, _⟩ => ⟨k.val, k.isLt⟩
/-- row k, column j₁ of the weight matrix -/
abbrev kridx0 (j : Cert.KernelIdeal.S2000x64.Idx) (k : Fin 128) : Cert.KernelIdeal.S128x64.Idx := fun a => match a with
  | ⟨0, _⟩ => ⟨k.val, k.isLt⟩
  | ⟨1, _⟩ => ⟨(j 1).val, (j 1).isLt⟩

/-- The first kernel's stored value at (j₀, j₁): ∑ k, v0[j₀, k] · v2[k, j₁]. -/
theorem k0_pay1_apply (v0 : Vec Ideal Cert.KernelIdeal.S2000x128 .f32) (v2 : Vec Ideal Cert.KernelIdeal.S128x64 .f32) (j : Cert.KernelIdeal.S2000x64.Idx) :
    Cert.KernelIdeal.Gen.k0_pay1 (F := Ideal) v0 v2 j = ∑ k : Fin 128, v0 (klidx0 j k) * v2 (kridx0 j k) := by
  unfold Cert.KernelIdeal.Gen.k0_pay1
  simp only [matmul]
  rw [Ideal.matmul_constant_zero_apply, ← Equiv.sum_comp (ValueIdx.contrEquiv1 Cert.KernelIdeal.dot_S2000x128_S128x64_S2000x64_1_0_0_1_n_n 128 rfl rfl).symm]
  refine Finset.sum_congr rfl fun k _ => ?_
  have hk := ValueIdx.contrEquiv1_symm_val Cert.KernelIdeal.dot_S2000x128_S128x64_S2000x64_1_0_0_1_n_n 128 rfl rfl k
  have el : Cert.KernelIdeal.dot_S2000x128_S128x64_S2000x64_1_0_0_1_n_n.lhsIdx j ((ValueIdx.contrEquiv1 Cert.KernelIdeal.dot_S2000x128_S128x64_S2000x64_1_0_0_1_n_n 128 rfl rfl).symm k) = klidx0 j k := funext fun a => Fin.ext (by
    match a with
    | ⟨0, _⟩ => exact klhs0_0 _ _
    | ⟨1, _⟩ => exact (klhs0_1 _ _).trans hk)
  have er : Cert.KernelIdeal.dot_S2000x128_S128x64_S2000x64_1_0_0_1_n_n.rhsIdx j ((ValueIdx.contrEquiv1 Cert.KernelIdeal.dot_S2000x128_S128x64_S2000x64_1_0_0_1_n_n 128 rfl rfl).symm k) = kridx0 j k := funext fun a => Fin.ext (by
    match a with
    | ⟨0, _⟩ => exact (krhs0_0 _ _).trans hk
    | ⟨1, _⟩ => exact krhs0_1 _ _)
  rw [el, er]
  rfl

/-! ## The second kernel's product read as a sum -/

theorem klhs1_0 (j : Cert.KernelIdeal.S2000x64.Idx) (q : Cert.KernelIdeal.dot_S2000x64_S64x64_S2000x64_1_0_0_1_n_n.contr.Idx) :
    (Cert.KernelIdeal.dot_S2000x64_S64x64_S2000x64_1_0_0_1_n_n.lhsIdx j q 0).val = (j 0).val := by
  unfold DotDims.lhsIdx
  rw [dif_neg (show ¬(0 : Fin Cert.KernelIdeal.S2000x64.rank) ∈ Cert.KernelIdeal.dot_S2000x64_S64x64_S2000x64_1_0_0_1_n_n.lhsBatch by decide), dif_pos (show (0 : Fin Cert.KernelIdeal.S2000x64.rank) ∈ Cert.KernelIdeal.dot_S2000x64_S64x64_S2000x64_1_0_0_1_n_n.lhsNonContracting by decide)]
  rfl
theorem klhs1_1 (j : Cert.KernelIdeal.S2000x64.Idx) (q : Cert.KernelIdeal.dot_S2000x64_S64x64_S2000x64_1_0_0_1_n_n.contr.Idx) :
    (Cert.KernelIdeal.dot_S2000x64_S64x64_S2000x64_1_0_0_1_n_n.lhsIdx j q 1).val = (q ⟨0, by decide⟩).val :=
  Cert.KernelIdeal.dot_S2000x64_S64x64_S2000x64_1_0_0_1_n_n.lhsIdx_val_of_single rfl j q
theorem krhs1_0 (j : Cert.KernelIdeal.S2000x64.Idx) (q : Cert.KernelIdeal.dot_S2000x64_S64x64_S2000x64_1_0_0_1_n_n.contr.Idx) :
    (Cert.KernelIdeal.dot_S2000x64_S64x64_S2000x64_1_0_0_1_n_n.rhsIdx j q 0).val = (q ⟨0, by decide⟩).val :=
  Cert.KernelIdeal.dot_S2000x64_S64x64_S2000x64_1_0_0_1_n_n.rhsIdx_val_of_single rfl j q
theorem krhs1_1 (j : Cert.KernelIdeal.S2000x64.Idx) (q : Cert.KernelIdeal.dot_S2000x64_S64x64_S2000x64_1_0_0_1_n_n.contr.Idx) :
    (Cert.KernelIdeal.dot_S2000x64_S64x64_S2000x64_1_0_0_1_n_n.rhsIdx j q 1).val = (j 1).val := by
  unfold DotDims.rhsIdx
  rw [dif_neg (show ¬(1 : Fin Cert.KernelIdeal.S64x64.rank) ∈ Cert.KernelIdeal.dot_S2000x64_S64x64_S2000x64_1_0_0_1_n_n.rhsBatch by decide), dif_pos (show (1 : Fin Cert.KernelIdeal.S64x64.rank) ∈ Cert.KernelIdeal.dot_S2000x64_S64x64_S2000x64_1_0_0_1_n_n.rhsNonContracting by decide)]
  rfl

/-- row j₀, column k of the block's left operand -/
abbrev klidx1 (j : Cert.KernelIdeal.S2000x64.Idx) (k : Fin 64) : Cert.KernelIdeal.S2000x64.Idx := fun a => match a with
  | ⟨0, _⟩ => ⟨(j 0).val, (j 0).isLt⟩
  | ⟨1, _⟩ => ⟨k.val, k.isLt⟩
/-- row k, column j₁ of the weight matrix -/
abbrev kridx1 (j : Cert.KernelIdeal.S2000x64.Idx) (k : Fin 64) : Cert.KernelIdeal.S64x64.Idx := fun a => match a with
  | ⟨0, _⟩ => ⟨k.val, k.isLt⟩
  | ⟨1, _⟩ => ⟨(j 1).val, (j 1).isLt⟩

/-- The second kernel's stored value at (j₀, j₁): ∑ k, max(v0[j₀, k], 0) · v5[k, j₁]. -/
theorem k1_pay1_apply (v0 : Vec Ideal Cert.KernelIdeal.S2000x64 .f32) (v5 : Vec Ideal Cert.KernelIdeal.S64x64 .f32) (j : Cert.KernelIdeal.S2000x64.Idx) :
    Cert.KernelIdeal.Gen.k1_pay1 (F := Ideal) v0 v5 j = ∑ k : Fin 64, max (v0 (klidx1 j k)) 0 * v5 (kridx1 j k) := by
  unfold Cert.KernelIdeal.Gen.k1_pay1
  simp only [matmul]
  rw [Ideal.matmul_constant_zero_apply, ← Equiv.sum_comp (ValueIdx.contrEquiv1 Cert.KernelIdeal.dot_S2000x64_S64x64_S2000x64_1_0_0_1_n_n 64 rfl rfl).symm]
  refine Finset.sum_congr rfl fun k _ => ?_
  have hk := ValueIdx.contrEquiv1_symm_val Cert.KernelIdeal.dot_S2000x64_S64x64_S2000x64_1_0_0_1_n_n 64 rfl rfl k
  have el : Cert.KernelIdeal.dot_S2000x64_S64x64_S2000x64_1_0_0_1_n_n.lhsIdx j ((ValueIdx.contrEquiv1 Cert.KernelIdeal.dot_S2000x64_S64x64_S2000x64_1_0_0_1_n_n 64 rfl rfl).symm k) = klidx1 j k := funext fun a => Fin.ext (by
    match a with
    | ⟨0, _⟩ => exact klhs1_0 _ _
    | ⟨1, _⟩ => exact (klhs1_1 _ _).trans hk)
  have er : Cert.KernelIdeal.dot_S2000x64_S64x64_S2000x64_1_0_0_1_n_n.rhsIdx j ((ValueIdx.contrEquiv1 Cert.KernelIdeal.dot_S2000x64_S64x64_S2000x64_1_0_0_1_n_n 64 rfl rfl).symm k) = kridx1 j k := funext fun a => Fin.ext (by
    match a with
    | ⟨0, _⟩ => exact (krhs1_0 _ _).trans hk
    | ⟨1, _⟩ => exact krhs1_1 _ _)
  rw [el, er, shapeCast_self]
  show max (v0 (klidx1 j k)) (Ideal.ofBits .f32 0x00000000#32) * v5 (kridx1 j k) = _
  rw [Ideal.ofBits_zero_f32]

/-! ## Blocks of rows -/

/-- rows 2000·t … 2000·t+1999 of a 50000-row array with 128 columns: the first kernel's block t -/
def xRows (x : Vec Ideal Cert.KernelIdeal.S50000x128 .f32) (t : Fin 25) : Vec Ideal Cert.KernelIdeal.S2000x128 .f32 :=
  fun y => x (ValueIdx.ix2 (n0 := 50000) (n1 := 128)
    ⟨2000 * t.val + (y 0).val, by have h0 := ValueIdx.idx2_lt0 y; have ht := t.isLt; omega⟩
    ⟨(y 1).val, ValueIdx.idx2_lt1 y⟩)

/-- rows 2000·t … 2000·t+1999 of a 50000-row array with 64 columns: the second kernel's block t -/
def aRows (a : Vec Ideal Cert.KernelIdeal.S50000x64 .f32) (t : Fin 25) : Vec Ideal Cert.KernelIdeal.S2000x64 .f32 :=
  fun y => a (ValueIdx.ix2 (n0 := 50000) (n1 := 64)
    ⟨2000 * t.val + (y 0).val, by have h0 := ValueIdx.idx2_lt0 y; have ht := t.isLt; omega⟩
    ⟨(y 1).val, ValueIdx.idx2_lt1 y⟩)

/-- Element (p, q) of the first kernel's block t is element (2000·t + p, q) of the reference's whole product:
    both are ∑ k, x[2000·t + p, k] · w[k, q]. -/
theorem proj0_eq (x : Vec Ideal Cert.KernelIdeal.S50000x128 .f32) (w : Vec Ideal Cert.KernelIdeal.S128x64 .f32) (t : Fin 25) (y : Cert.KernelIdeal.S2000x64.Idx) :
    Cert.KernelIdeal.Gen.k0_pay1 (F := Ideal) (xRows x t) w y
      = Host.dotGeneral (F := Ideal) (φ₁ := .f32) (φ₂ := .f32) Cert.ReferenceIdeal.dot_S50000x128_S128x64_S50000x64_1_0_0_1_n_n none x w
          (ValueIdx.ix2 (n0 := 50000) (n1 := 64)
            ⟨2000 * t.val + (y 0).val, by have h0 := ValueIdx.idx2_lt0 y; have ht := t.isLt; omega⟩
            ⟨(y 1).val, ValueIdx.idx2_lt1 y⟩) := by
  rw [k0_pay1_apply]
  refine ((Cert.ReferenceIdeal.Read.val_main_v4_apply x w _).trans ?_).symm
  refine Finset.sum_congr rfl fun k _ => ?_
  have el : Cert.ReferenceIdeal.Read.lidx_main_v4 (ValueIdx.ix2 (n0 := 50000) (n1 := 64)
            ⟨2000 * t.val + (y 0).val, by have h0 := ValueIdx.idx2_lt0 y; have ht := t.isLt; omega⟩
            ⟨(y 1).val, ValueIdx.idx2_lt1 y⟩) k
      = ValueIdx.ix2 (n0 := 50000) (n1 := 128)
          ⟨2000 * t.val + (klidx0 y k 0).val, by have h0 := ValueIdx.idx2_lt0 (klidx0 y k); have ht := t.isLt; omega⟩
          ⟨(klidx0 y k 1).val, ValueIdx.idx2_lt1 (klidx0 y k)⟩ := funext fun a => by
    match a with
    | ⟨0, _⟩ => rfl
    | ⟨1, _⟩ => rfl
  have er : Cert.ReferenceIdeal.Read.ridx_main_v4 (ValueIdx.ix2 (n0 := 50000) (n1 := 64)
            ⟨2000 * t.val + (y 0).val, by have h0 := ValueIdx.idx2_lt0 y; have ht := t.isLt; omega⟩
            ⟨(y 1).val, ValueIdx.idx2_lt1 y⟩) k = kridx0 y k := funext fun a => by
    match a with
    | ⟨0, _⟩ => rfl
    | ⟨1, _⟩ => rfl
  rw [el, er]
  rfl

/-! ## The second projection against the reference -/

/-- The reference's second product at an arbitrary left operand, read as a sum. -/
theorem ref1_apply (l : Vec Ideal Cert.KernelIdeal.S50000x64 .f32) (w : Vec Ideal Cert.KernelIdeal.S64x64 .f32) (i : Cert.KernelIdeal.S50000x64.Idx) :
    Host.dotGeneral (F := Ideal) (φ₁ := .f32) (φ₂ := .f32) Cert.ReferenceIdeal.dot_S50000x64_S64x64_S50000x64_1_0_0_1_n_n none l w i
      = ∑ k : Fin 64, l (Cert.ReferenceIdeal.Read.lidx_main_v16 i k) * w (Cert.ReferenceIdeal.Read.ridx_main_v16 i k) := by
  simp only [Host.dotGeneral]
  rw [Ideal.dotGeneral_apply, ← Equiv.sum_comp (ValueIdx.contrEquiv1 Cert.ReferenceIdeal.dot_S50000x64_S64x64_S50000x64_1_0_0_1_n_n 64 rfl rfl).symm]
  refine Finset.sum_congr rfl fun k _ => ?_
  have hk := ValueIdx.contrEquiv1_symm_val Cert.ReferenceIdeal.dot_S50000x64_S64x64_S50000x64_1_0_0_1_n_n 64 rfl rfl k
  have el : Cert.ReferenceIdeal.dot_S50000x64_S64x64_S50000x64_1_0_0_1_n_n.lhsIdx i ((ValueIdx.contrEquiv1 Cert.ReferenceIdeal.dot_S50000x64_S64x64_S50000x64_1_0_0_1_n_n 64 rfl rfl).symm k) = Cert.ReferenceIdeal.Read.lidx_main_v16 i k := funext fun a => Fin.ext (by
    match a with
    | ⟨0, _⟩ => exact Cert.ReferenceIdeal.Read.lhs_main_v16_0 _ _
    | ⟨1, _⟩ => exact (Cert.ReferenceIdeal.Read.lhs_main_v16_1 _ _).trans hk)
  have er : Cert.ReferenceIdeal.dot_S50000x64_S64x64_S50000x64_1_0_0_1_n_n.rhsIdx i ((ValueIdx.contrEquiv1 Cert.ReferenceIdeal.dot_S50000x64_S64x64_S50000x64_1_0_0_1_n_n 64 rfl rfl).symm k) = Cert.ReferenceIdeal.Read.ridx_main_v16 i k := funext fun a => Fin.ext (by
    match a with
    | ⟨0, _⟩ => exact (Cert.ReferenceIdeal.Read.rhs_main_v16_0 _ _).trans hk
    | ⟨1, _⟩ => exact Cert.ReferenceIdeal.Read.rhs_main_v16_1 _ _)
  rw [el, er]

/-- The reference's zero splat is the extended real 0 everywhere. -/
theorem relu0_apply (i : Cert.KernelIdeal.S50000x64.Idx) : Cert.ReferenceIdeal.Read.val_main_call0_v0 (F := Ideal) i = 0 := by
  rw [Cert.ReferenceIdeal.Read.val_main_call0_v0_apply]
  show Ideal.ofBits .f32 0x00000000#32 = 0
  exact Ideal.ofBits_zero_f32

/-- Element (p, q) of the second kernel's block t is element (2000·t + p, q) of the reference's second product,
    whose left operand is max(a, 0): both are ∑ k, max(a[2000·t + p, k], 0) · w[k, q]. -/
theorem proj1_eq (a : Vec Ideal Cert.KernelIdeal.S50000x64 .f32) (w : Vec Ideal Cert.KernelIdeal.S64x64 .f32) (t : Fin 25) (y : Cert.KernelIdeal.S2000x64.Idx) :
    Cert.KernelIdeal.Gen.k1_pay1 (F := Ideal) (aRows a t) w y
      = Host.dotGeneral (F := Ideal) (φ₁ := .f32) (φ₂ := .f32) Cert.ReferenceIdeal.dot_S50000x64_S64x64_S50000x64_1_0_0_1_n_n none
          (maximumf a (Cert.ReferenceIdeal.Read.val_main_call0_v0 (F := Ideal))) w
          (ValueIdx.ix2 (n0 := 50000) (n1 := 64)
            ⟨2000 * t.val + (y 0).val, by have h0 := ValueIdx.idx2_lt0 y; have ht := t.isLt; omega⟩
            ⟨(y 1).val, ValueIdx.idx2_lt1 y⟩) := by
  rw [k1_pay1_apply, ref1_apply]
  refine Finset.sum_congr rfl fun k _ => ?_
  have el : Cert.ReferenceIdeal.Read.lidx_main_v16 (ValueIdx.ix2 (n0 := 50000) (n1 := 64)
            ⟨2000 * t.val + (y 0).val, by have h0 := ValueIdx.idx2_lt0 y; have ht := t.isLt; omega⟩
            ⟨(y 1).val, ValueIdx.idx2_lt1 y⟩) k
      = ValueIdx.ix2 (n0 := 50000) (n1 := 64)
          ⟨2000 * t.val + (klidx1 y k 0).val, by have h0 := ValueIdx.idx2_lt0 (klidx1 y k); have ht := t.isLt; omega⟩
          ⟨(klidx1 y k 1).val, ValueIdx.idx2_lt1 (klidx1 y k)⟩ := funext fun a => by
    match a with
    | ⟨0, _⟩ => rfl
    | ⟨1, _⟩ => rfl
  have er : Cert.ReferenceIdeal.Read.ridx_main_v16 (ValueIdx.ix2 (n0 := 50000) (n1 := 64)
            ⟨2000 * t.val + (y 0).val, by have h0 := ValueIdx.idx2_lt0 y; have ht := t.isLt; omega⟩
            ⟨(y 1).val, ValueIdx.idx2_lt1 y⟩) k = kridx1 y k := funext fun a => by
    match a with
    | ⟨0, _⟩ => rfl
    | ⟨1, _⟩ => rfl
  rw [el, er, ValueIdx.maximumf_apply, relu0_apply]
  rfl

/-! ## The blocks put side by side are the whole products -/

/-- The first kernel's 25 blocks as one 50000-row array: row i₀ comes from block i₀ / 2000 at local row i₀ % 2000. -/
def G0 (x : Vec Ideal Cert.KernelIdeal.S50000x128 .f32) (w : Vec Ideal Cert.KernelIdeal.S128x64 .f32) : Vec Ideal Cert.KernelIdeal.S50000x64 .f32 :=
  fun i => Cert.KernelIdeal.Gen.k0_pay1 (F := Ideal)
    (xRows x ⟨(i 0).val / 2000, by have h0 := ValueIdx.idx2_lt0 i; omega⟩) w
    (ValueIdx.ix2 (n0 := 2000) (n1 := 64) ⟨(i 0).val % 2000, Nat.mod_lt _ (by decide)⟩ ⟨(i 1).val, ValueIdx.idx2_lt1 i⟩)

/-- The second kernel's 25 blocks as one 50000-row array. -/
def G1 (a : Vec Ideal Cert.KernelIdeal.S50000x64 .f32) (w : Vec Ideal Cert.KernelIdeal.S64x64 .f32) : Vec Ideal Cert.KernelIdeal.S50000x64 .f32 :=
  fun i => Cert.KernelIdeal.Gen.k1_pay1 (F := Ideal)
    (aRows a ⟨(i 0).val / 2000, by have h0 := ValueIdx.idx2_lt0 i; omega⟩) w
    (ValueIdx.ix2 (n0 := 2000) (n1 := 64) ⟨(i 0).val % 2000, Nat.mod_lt _ (by decide)⟩ ⟨(i 1).val, ValueIdx.idx2_lt1 i⟩)

/-- The first kernel's blocks together are the reference's first product: 2000·(i₀ / 2000) + i₀ % 2000 = i₀. -/
theorem G0_eq (x : Vec Ideal Cert.KernelIdeal.S50000x128 .f32) (w : Vec Ideal Cert.KernelIdeal.S128x64 .f32) :
    G0 x w = Host.dotGeneral (F := Ideal) (φ₁ := .f32) (φ₂ := .f32) Cert.ReferenceIdeal.dot_S50000x128_S128x64_S50000x64_1_0_0_1_n_n none x w := by
  funext i
  unfold G0
  rw [proj0_eq]
  refine congrArg (Host.dotGeneral (F := Ideal) (φ₁ := .f32) (φ₂ := .f32) Cert.ReferenceIdeal.dot_S50000x128_S128x64_S50000x64_1_0_0_1_n_n none x w) (funext fun a => ?_)
  match a with
  | ⟨0, _⟩ => exact Fin.ext (Nat.div_add_mod (i 0).val 2000)
  | ⟨1, _⟩ => rfl

/-- The second kernel's blocks together are the reference's second product at max(a, 0). -/
theorem G1_eq (a : Vec Ideal Cert.KernelIdeal.S50000x64 .f32) (w : Vec Ideal Cert.KernelIdeal.S64x64 .f32) :
    G1 a w = Host.dotGeneral (F := Ideal) (φ₁ := .f32) (φ₂ := .f32) Cert.ReferenceIdeal.dot_S50000x64_S64x64_S50000x64_1_0_0_1_n_n none
      (maximumf a (Cert.ReferenceIdeal.Read.val_main_call0_v0 (F := Ideal))) w := by
  funext i
  unfold G1
  rw [proj1_eq]
  refine congrArg (Host.dotGeneral (F := Ideal) (φ₁ := .f32) (φ₂ := .f32) Cert.ReferenceIdeal.dot_S50000x64_S64x64_S50000x64_1_0_0_1_n_n none
      (maximumf a (Cert.ReferenceIdeal.Read.val_main_call0_v0 (F := Ideal))) w) (funext fun a => ?_)
  match a with
  | ⟨0, _⟩ => exact Fin.ext (Nat.div_add_mod (i 0).val 2000)
  | ⟨1, _⟩ => rfl

/-- The same against the reference's named values: its first product … -/
theorem G0_eq_val (x : Vec Ideal Cert.KernelIdeal.S50000x128 .f32) (w : Vec Ideal Cert.KernelIdeal.S128x64 .f32) :
    G0 x w = Cert.ReferenceIdeal.Read.val_main_v4 (F := Ideal) x w := G0_eq x w

/-- … and its second, whose left operand is max(·, 0) of the reference's aggregated array. -/
theorem G1_eq_val (x0 : Vec Ideal Cert.KernelIdeal.S50000x128 .f32) (x1 : Vec Ideal Cert.ReferenceIdeal.S2x800000 .i32)
    (x3 : Vec Ideal Cert.KernelIdeal.S128x64 .f32) (x4 : Vec Ideal Cert.KernelIdeal.S64x64 .f32) :
    G1 (Cert.ReferenceIdeal.Read.val_main_v14 (F := Ideal) x0 x1 x3) x4
      = Cert.ReferenceIdeal.Read.val_main_v16 (F := Ideal) x0 x1 x3 x4 :=
  G1_eq (Cert.ReferenceIdeal.Read.val_main_v14 (F := Ideal) x0 x1 x3) x4

end Cert.Bridge.Proj

end
-- ==== Proof.KI.Vals.lean ====
/- The whole arrays the three calls leave, at the ideal values, read back from the per-point blocks.
   A projection call writes back, at point t, rows 2000·t … 2000·t+1999 of its output; those 25 blocks tile
   the 50000 rows, so the output array ends as the blocks put side by side. The pooling call's one output
   block is the whole 512×1 array, written back at the last point only. -/
import proofs.«407159_j20469814132905_1_alg».proof.Proof.KI.Reg0
import proofs.«407159_j20469814132905_1_alg».proof.Proof.KI.Reg1
import proofs.«407159_j20469814132905_1_alg».proof.Proof.KI.Reg2
import proofs.«407159_j20469814132905_1_alg».proof.Proof.ProjMath
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable (V : (c : Dev nD) → (b : Ref sig .tc) → Buf (Elt Ideal) ((c : Thread nD τ).loc b))

/-! ## The first projection call -/

/-- The printed index maps over the grid: the row-block windows sit at block t on the row axis and 0 on the column
    axis, the weight window at 0 on both. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem N0 : cfg0.N = 25 := by decide
theorem ltN0 {n : Nat} (h : n < 25) : n < cfg0.N := by rw [N0]; exact h
theorem lt25_0 (t : Fin cfg0.N) : t.val < 25 := N0 ▸ t.isLt

/-- The feature window's block at point t is rows 2000·t … of the feature array. -/
theorem iblk0_x (c : Dev nD) (t : Fin cfg0.N) :
    iblk0 V c 0 t = Cert.Bridge.Proj.xRows (V c main_arg0) ⟨t.val, lt25_0 t⟩ := by
  obtain ⟨e0, e1, e2, e3, e4, e5⟩ := idx_facts0 t
  funext y
  show V c main_arg0 (((cfg0.win 0).blk t).view.emb y) = V c main_arg0 _
  refine congrArg (V c main_arg0) (funext fun a => Fin.ext ?_)
  match a with
  | ⟨0, _⟩ => show win0_0.index t (0 : Fin 2) * 2000 + 1 * (y 0).val = 2000 * t.val + (y 0).val; omega
  | ⟨1, _⟩ => show win0_0.index t (1 : Fin 2) * 128 + 1 * (y 1).val = (y 1).val; omega

/-- The weight window's block at every point is the whole weight matrix. -/
theorem iblk0_w (c : Dev nD) (t : Fin cfg0.N) : iblk0 V c 1 t = V c main_arg3 := by
  obtain ⟨e0, e1, e2, e3, e4, e5⟩ := idx_facts0 t
  funext y
  show V c main_arg3 (((cfg0.win 1).blk t).view.emb y) = V c main_arg3 y
  refine congrArg (V c main_arg3) (funext fun a => Fin.ext ?_)
  match a with
  | ⟨0, _⟩ => show win0_1.index t (0 : Fin 2) * 128 + 1 * (y 0).val = (y 0).val; omega
  | ⟨1, _⟩ => show win0_1.index t (1 : Fin 2) * 64 + 1 * (y 1).val = (y 1).val; omega

/-- What point t writes back is block t of the blocks put side by side. -/
theorem flushed0_eq (c : Dev nD) (t : Fin cfg0.N) :
    (dat0 V c).flushed 2 t = ((cfg0.win 2).blk t).view.read (Elt Ideal) (Cert.Bridge.Proj.G0 (V c main_arg0) (V c main_arg3)) := by
  show (cfg0.win 2).cut (grid0.coords t) ((dat0 V c).after 2 t) = _
  rw [after0_2, out0_2_eq, iblk0_x, iblk0_w, Cert.Bridge.Proj.G0_eq]
  obtain ⟨e0, e1, e2, e3, e4, e5⟩ := idx_facts0 t
  funext j
  refine (Cert.Bridge.Proj.proj0_eq (V c main_arg0) (V c main_arg3) ⟨t.val, lt25_0 t⟩ j).trans ?_
  show _ = Host.dotGeneral (F := Ideal) (φ₁ := .f32) (φ₂ := .f32) _ none (V c main_arg0) (V c main_arg3) (((cfg0.win 2).blk t).view.emb j)
  refine congrArg (Host.dotGeneral (F := Ideal) (φ₁ := .f32) (φ₂ := .f32) _ none (V c main_arg0) (V c main_arg3)) (funext fun a => Fin.ext ?_)
  match a with
  | ⟨0, _⟩ => show 2000 * t.val + (j 0).val = win0_2.index t (0 : Fin 2) * 2000 + 1 * (j 0).val; omega
  | ⟨1, _⟩ => show (j 1).val = win0_2.index t (1 : Fin 2) * 64 + 1 * (j 1).val; omega

/-- An index of the output array is in point t's block iff each coordinate is in the block's range on its axis. -/
theorem mem_blk0 (t : Fin cfg0.N) (i : S50000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v5).slice (win0_2.rect t)).set ↔ _
  rw [View.set_slice_whole, Rect.mem_set_unit]
  exact Iff.rfl

/-- Every row r of the output array lies in the block of point r / 2000. -/
theorem cover0 (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  refine ⟨⟨(i 0).val / 2000, ltN0 (by omega)⟩, flush0_2 _, ?_⟩
  rw [mem_blk0]
  obtain ⟨e0, e1, e2, e3, e4, e5⟩ := idx_facts0 ⟨(i 0).val / 2000, ltN0 (by omega)⟩
  have e4' : win0_2.index ⟨(i 0).val / 2000, ltN0 (by omega)⟩ (0 : Fin 2) = (i 0).val / 2000 := e4
  intro a
  match a with
  | ⟨0, _⟩ => show win0_2.index _ (0 : Fin 2) * 2000 ≤ (i 0).val ∧ (i 0).val < win0_2.index _ (0 : Fin 2) * 2000 + 2000; omega
  | ⟨1, _⟩ => show win0_2.index _ (1 : Fin 2) * 64 ≤ (i 1).val ∧ (i 1).val < win0_2.index _ (1 : Fin 2) * 64 + 64; omega

/-- The first call's output array after the run: the 25 blocks side by side. -/
theorem final0 (c : Dev nD) : (dat0 V c).arrAt 2 cfg0.N = Cert.Bridge.Proj.G0 (V c main_arg0) (V c main_arg3) :=
  (dat0 V c).arrAt_eq_of_cover 2 _ (fun t _ => flushed0_eq V c t) cover0

/-! ## The second projection call -/

/-- The printed index maps over the grid: the row-block windows sit at block t on the row axis and 0 on the column
    axis, the weight window at 0 on both. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem N1 : cfg1.N = 25 := by decide
theorem ltN1 {n : Nat} (h : n < 25) : n < cfg1.N := by rw [N1]; exact h
theorem lt25_1 (t : Fin cfg1.N) : t.val < 25 := N1 ▸ t.isLt

/-- The left operand's window at point t holds rows 2000·t … of the aggregated array. -/
theorem iblk1_x (c : Dev nD) (t : Fin cfg1.N) :
    iblk1 V c 0 t = Cert.Bridge.Proj.aRows (V c main_v15) ⟨t.val, lt25_1 t⟩ := by
  obtain ⟨e0, e1, e2, e3, e4, e5⟩ := idx_facts1 t
  funext y
  show V c main_v15 (((cfg1.win 0).blk t).view.emb y) = V c main_v15 _
  refine congrArg (V c main_v15) (funext fun a => Fin.ext ?_)
  match a with
  | ⟨0, _⟩ => show win1_0.index t (0 : Fin 2) * 2000 + 1 * (y 0).val = 2000 * t.val + (y 0).val; omega
  | ⟨1, _⟩ => show win1_0.index t (1 : Fin 2) * 64 + 1 * (y 1).val = (y 1).val; omega

/-- The weight window's block at every point is the whole weight matrix. -/
theorem iblk1_w (c : Dev nD) (t : Fin cfg1.N) : iblk1 V c 1 t = V c main_arg4 := by
  obtain ⟨e0, e1, e2, e3, e4, e5⟩ := idx_facts1 t
  funext y
  show V c main_arg4 (((cfg1.win 1).blk t).view.emb y) = V c main_arg4 y
  refine congrArg (V c main_arg4) (funext fun a => Fin.ext ?_)
  match a with
  | ⟨0, _⟩ => show win1_1.index t (0 : Fin 2) * 64 + 1 * (y 0).val = (y 0).val; omega
  | ⟨1, _⟩ => show win1_1.index t (1 : Fin 2) * 64 + 1 * (y 1).val = (y 1).val; omega

/-- What point t writes back is block t of the blocks put side by side. -/
theorem flushed1_eq (c : Dev nD) (t : Fin cfg1.N) :
    (dat1 V c).flushed 2 t = ((cfg1.win 2).blk t).view.read (Elt Ideal) (Cert.Bridge.Proj.G1 (V c main_v15) (V c main_arg4)) := by
  show (cfg1.win 2).cut (grid1.coords t) ((dat1 V c).after 2 t) = _
  rw [after1_2, out1_2_eq, iblk1_x, iblk1_w, Cert.Bridge.Proj.G1_eq]
  obtain ⟨e0, e1, e2, e3, e4, e5⟩ := idx_facts1 t
  funext j
  refine (Cert.Bridge.Proj.proj1_eq (V c main_v15) (V c main_arg4) ⟨t.val, lt25_1 t⟩ j).trans ?_
  show _ = Host.dotGeneral (F := Ideal) (φ₁ := .f32) (φ₂ := .f32) _ none (maximumf (V c main_v15) (Cert.ReferenceIdeal.Read.val_main_call0_v0 (F := Ideal))) (V c main_arg4) (((cfg1.win 2).blk t).view.emb j)
  refine congrArg (Host.dotGeneral (F := Ideal) (φ₁ := .f32) (φ₂ := .f32) _ none (maximumf (V c main_v15) (Cert.ReferenceIdeal.Read.val_main_call0_v0 (F := Ideal))) (V c main_arg4)) (funext fun a => Fin.ext ?_)
  match a with
  | ⟨0, _⟩ => show 2000 * t.val + (j 0).val = win1_2.index t (0 : Fin 2) * 2000 + 1 * (j 0).val; omega
  | ⟨1, _⟩ => show (j 1).val = win1_2.index t (1 : Fin 2) * 64 + 1 * (j 1).val; omega

/-- An index of the output array is in point t's block iff each coordinate is in the block's range on its axis. -/
theorem mem_blk1 (t : Fin cfg1.N) (i : S50000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v16).slice (win1_2.rect t)).set ↔ _
  rw [View.set_slice_whole, Rect.mem_set_unit]
  exact Iff.rfl

/-- Every row r of the output array lies in the block of point r / 2000. -/
theorem cover1 (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  refine ⟨⟨(i 0).val / 2000, ltN1 (by omega)⟩, flush1_2 _, ?_⟩
  rw [mem_blk1]
  obtain ⟨e0, e1, e2, e3, e4, e5⟩ := idx_facts1 ⟨(i 0).val / 2000, ltN1 (by omega)⟩
  have e4' : win1_2.index ⟨(i 0).val / 2000, ltN1 (by omega)⟩ (0 : Fin 2) = (i 0).val / 2000 := e4
  intro a
  match a with
  | ⟨0, _⟩ => show win1_2.index _ (0 : Fin 2) * 2000 ≤ (i 0).val ∧ (i 0).val < win1_2.index _ (0 : Fin 2) * 2000 + 2000; omega
  | ⟨1, _⟩ => show win1_2.index _ (1 : Fin 2) * 64 ≤ (i 1).val ∧ (i 1).val < win1_2.index _ (1 : Fin 2) * 64 + 64; omega

/-- The second call's output array after the run: the 25 blocks side by side. -/
theorem final1 (c : Dev nD) : (dat1 V c).arrAt 2 cfg1.N = Cert.Bridge.Proj.G1 (V c main_v15) (V c main_arg4) :=
  (dat1 V c).arrAt_eq_of_cover 2 _ (fun t _ => flushed1_eq V c t) cover1

/-! ## The pooling call -/

/-- The printed index maps over the grid of 50 points: the two row-block windows sit at block t on the row axis,
    the weight window and the output window at 0 on both axes. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

theorem N2 : cfg2.N = 50 := by decide
theorem ltN2 {n : Nat} (h : n < 50) : n < cfg2.N := by rw [N2]; exact h
theorem lt50_2 (t : Fin cfg2.N) : t.val < 50 := N2 ▸ t.isLt

/-- The node-feature window's block at point t is rows 1000·t … 1000·t+999 of the 50000×64 array. -/
theorem iblk2_h (c : Dev nD) (t : Fin cfg2.N) :
    (iblk2 V c 0 t : Vec Ideal S1000x64 .f32) = fun y => V c main_v26 (ValueIdx.ix2 (n0 := 50000) (n1 := 64)
      ⟨1000 * t.val + (y 0).val, by have h0 := ValueIdx.idx2_lt0 y; have ht := lt50_2 t; omega⟩
      ⟨(y 1).val, ValueIdx.idx2_lt1 y⟩) := by
  obtain ⟨e0, e1, e2, e3, e4, e5, e6, e7⟩ := idx_facts2 t
  funext y
  show V c main_v26 (((cfg2.win 0).blk t).view.emb y) = V c main_v26 _
  refine congrArg (V c main_v26) (funext fun a => Fin.ext ?_)
  match a with
  | ⟨0, _⟩ => show win2_0.index t (0 : Fin 2) * 1000 + 1 * (y 0).val = 1000 * t.val + (y 0).val; omega
  | ⟨1, _⟩ => show win2_0.index t (1 : Fin 2) * 64 + 1 * (y 1).val = (y 1).val; omega

/-- The segment-id window's block at point t is rows 1000·t … 1000·t+999 of the 50000×1 array. -/
theorem iblk2_b (c : Dev nD) (t : Fin cfg2.N) :
    (iblk2 V c 1 t : Vec Ideal S1000x1 .i32) = fun y => V c main_v4 (ValueIdx.ix2 (n0 := 50000) (n1 := 1)
      ⟨1000 * t.val + (y 0).val, by have h0 := ValueIdx.idx2_lt0 y; have ht := lt50_2 t; omega⟩
      ⟨(y 1).val, ValueIdx.idx2_lt1 y⟩) := by
  obtain ⟨e0, e1, e2, e3, e4, e5, e6, e7⟩ := idx_facts2 t
  funext y
  show V c main_v4 (((cfg2.win 1).blk t).view.emb y) = V c main_v4 _
  refine congrArg (V c main_v4) (funext fun a => Fin.ext ?_)
  match a with
  | ⟨0, _⟩ => show win2_1.index t (0 : Fin 2) * 1000 + 1 * (y 0).val = 1000 * t.val + (y 0).val; omega
  | ⟨1, _⟩ => show win2_1.index t (1 : Fin 2) * 1 + 1 * (y 1).val = (y 1).val; omega

/-- The weight window's block at every point is the whole 64×1 weight vector. -/
theorem iblk2_w (c : Dev nD) (t : Fin cfg2.N) : iblk2 V c 2 t = V c main_arg5 := by
  obtain ⟨e0, e1, e2, e3, e4, e5, e6, e7⟩ := idx_facts2 t
  funext y
  show V c main_arg5 (((cfg2.win 2).blk t).view.emb y) = V c main_arg5 y
  refine congrArg (V c main_arg5) (funext fun a => Fin.ext ?_)
  match a with
  | ⟨0, _⟩ => show win2_2.index t (0 : Fin 2) * 64 + 1 * (y 0).val = (y 0).val; omega
  | ⟨1, _⟩ => show win2_2.index t (1 : Fin 2) * 1 + 1 * (y 1).val = (y 1).val; omega

/-- What the last point leaves in the output window: the final stage of the body on the two running sums
    carried through all 50 points and the weight vector. -/
abbrev G2 (c : Dev nD) : Vec Ideal S512x1 .f32 :=
  k2_pay6 (carried2 V c 49 (by decide)).2 (carried2 V c 49 (by decide)).1 (iblk2 V c 2 ⟨49, by decide⟩)

/-- The output window's one block is the whole array: read through it, an array is itself. -/
theorem read_blk2_3 (t : Fin cfg2.N) (G : Vec Ideal S512x1 .f32) :
    ((cfg2.win 3).blk t).view.read (Elt Ideal) G = G := by
  obtain ⟨e0, e1, e2, e3, e4, e5, e6, e7⟩ := idx_facts2 t
  funext y
  show G (((cfg2.win 3).blk t).view.emb y) = G y
  refine congrArg G (funext fun a => Fin.ext ?_)
  match a with
  | ⟨0, _⟩ => show win2_3.index t (0 : Fin 2) * 512 + 1 * (y 0).val = (y 0).val; omega
  | ⟨1, _⟩ => show win2_3.index t (1 : Fin 2) * 1 + 1 * (y 1).val = (y 1).val; omega

/-- The output window is never cut at the array's end: the write-back moves the whole staging buffer. -/
theorem cut2_3 (t : Fin cfg2.N) (X : Vec Ideal S512x1 .f32) : (cfg2.win 3).cut (grid2.coords t) X = X := rfl

/-- The last point's value, named at the literal point 49. -/
theorem after2_3_at49 (c : Dev nD) : (dat2 V c).after 3 ⟨49, by decide⟩ = G2 V c :=
  after2_3_last V c ⟨49, by decide⟩ rfl

/-- The only point that writes the output back is the last, and it writes the final stage's value. -/
theorem flushed2_eq (c : Dev nD) (t : Fin cfg2.N) (hf : (cfg2.win 3).flush t = true) :
    (dat2 V c).flushed 3 t = ((cfg2.win 3).blk t).view.read (Elt Ideal) (G2 V c) := by
  have ht : t.val = 49 := by have h := (flush2_3 t).mp hf; have := lt50_2 t; omega
  obtain rfl : t = ⟨49, by decide⟩ := Fin.ext ht
  rw [read_blk2_3]
  show (cfg2.win 3).cut (grid2.coords ⟨49, by decide⟩) ((dat2 V c).after 3 ⟨49, by decide⟩) = _
  rw [cut2_3, after2_3_at49]

/-- An index of the output array is in point t's block iff each coordinate is in the block's range on its axis. -/
theorem mem_blk2 (t : Fin cfg2.N) (i : S512x1.Idx) :
    i ∈ ((cfg2.win 3).blk t).view.set ↔ ∀ a : Fin 2, win2_3.index t a * S512x1.size a ≤ (i a).val ∧ (i a).val < win2_3.index t a * S512x1.size a + S512x1.size a := by
  show i ∈ ((View.whole main_v27).slice (win2_3.rect t)).set ↔ _
  rw [View.set_slice_whole, Rect.mem_set_unit]
  exact Iff.rfl

/-- Every index of the output array lies in the last point's block, the whole array. -/
theorem cover2 (i : S512x1.Idx) : ∃ t : Fin cfg2.N, (cfg2.win 3).flush t = true ∧ i ∈ ((cfg2.win 3).blk t).view.set := by
  have hi0 : (i 0).val < 512 := (i 0).isLt
  have hi1 : (i 1).val < 1 := (i 1).isLt
  refine ⟨⟨49, by decide⟩, (flush2_3 _).mpr rfl, ?_⟩
  rw [mem_blk2]
  obtain ⟨e0, e1, e2, e3, e4, e5, e6, e7⟩ := idx_facts2 ⟨49, by decide⟩
  intro a
  match a with
  | ⟨0, _⟩ => show win2_3.index _ (0 : Fin 2) * 512 ≤ (i 0).val ∧ (i 0).val < win2_3.index _ (0 : Fin 2) * 512 + 512; omega
  | ⟨1, _⟩ => show win2_3.index _ (1 : Fin 2) * 1 ≤ (i 1).val ∧ (i 1).val < win2_3.index _ (1 : Fin 2) * 1 + 1; omega

/-- The pooling call's output array after the run: what the last point's final stage stored. -/
theorem final2 (c : Dev nD) : (dat2 V c).arrAt 3 cfg2.N
    = k2_pay6 (carried2 V c 49 (by decide)).2 (carried2 V c 49 (by decide)).1 (iblk2 V c 2 ⟨49, by decide⟩) :=
  (dat2 V c).arrAt_eq_of_cover 3 (G2 V c) (fun t hf => flushed2_eq V c t hf) cover2

end Cert.KernelIdeal.Hand

end
-- ==== Proof.RefSide.lean ====
/-
  The two programs share their host operations: splitting the edge index into source and target ids, and the edge
  aggregation. Here the reference's stage terms are recognised as the same functions the kernel program's run was
  read through, so that the comparison of the two results never opens a gather or an edge scatter.
-/
import proofs.«407159_j20469814132905_1_alg».proof.Proof.KI.HostVals
import proofs.«407159_j20469814132905_1_alg».proof.Proof.Gen.ReferenceIdeal.Run
import proofs.«407159_j20469814132905_1_alg».proof.Proof.Gen.ReferenceIdeal.Read
import Idealize.ShloMosaic.Lib.Pipeline.Value
import Idealize.ShloMosaic.Lib.ValueIdx

set_option maxRecDepth 16384

noncomputable section

namespace Cert.Bridge.Ref

open Idealize.ShloMosaic Idealize.ShloMosaic.TcCoe Idealize.SL.Sem
open Cert.ReferenceIdeal.Read

/-- A memory of the kernel program at the ideal instance. -/
abbrev KMem := (ℓ : Loc Cert.KernelIdeal.nD Cert.KernelIdeal.τ Cert.KernelIdeal.sig) → Buf (Elt Ideal) ℓ

/-- The reference's first aggregation is the shared edge aggregation of its first product. -/
theorem ref_v14 (x0 x1 x3) : val_main_v14 (F := Ideal) x0 x1 x3
    = Cert.KernelIdeal.Hand.aggK (F := Ideal) (val_main_v1 (F := Ideal) x1) (val_main_v3 (F := Ideal) x1) (val_main_v4 (F := Ideal) x0 x3) := rfl

/-- Its second aggregation is the same function of its second product. -/
theorem ref_v26 (x0 x1 x3 x4) : val_main_v26 (F := Ideal) x0 x1 x3 x4
    = Cert.KernelIdeal.Hand.aggK (F := Ideal) (val_main_v1 (F := Ideal) x1) (val_main_v3 (F := Ideal) x1) (val_main_v16 (F := Ideal) x0 x1 x3 x4) := rfl

section
open Cert.KernelIdeal Cert.KernelIdeal.Gen Cert.KernelIdeal.Hand

/-- The kernel program's source ids are the reference's, of the same edge index. -/
theorem ker_v1 (m : KMem) (c : Dev Cert.KernelIdeal.nD) :
    W1 m c (Proc.devRef .tc Cert.KernelIdeal.main_v1) = val_main_v1 (F := Ideal) (m ((c : Thread nD τ).loc Cert.KernelIdeal.main_arg1)) := by
  show StableHlo.after hostOps0 (W0 m c) (Proc.devRef .tc Cert.KernelIdeal.main_v1) = _
  after_results
  rfl

/-- Likewise the target ids. -/
theorem ker_v3 (m : KMem) (c : Dev Cert.KernelIdeal.nD) :
    W1 m c (Proc.devRef .tc Cert.KernelIdeal.main_v3) = val_main_v3 (F := Ideal) (m ((c : Thread nD τ).loc Cert.KernelIdeal.main_arg1)) := by
  show StableHlo.after hostOps0 (W0 m c) (Proc.devRef .tc Cert.KernelIdeal.main_v3) = _
  after_results
  rfl

/-- The graph ids as a column: row `n` of the column is entry `n` of the list. -/
theorem ker_v4 (m : KMem) (c : Dev Cert.KernelIdeal.nD) (n : Fin 50000) :
    (W1 m c (Proc.devRef .tc Cert.KernelIdeal.main_v4) : Cert.KernelIdeal.S50000x1.Idx → BitVec 32) (ValueIdx.ix2 (n0 := 50000) (n1 := 1) n ⟨0, by decide⟩)
      = (m ((c : Thread nD τ).loc Cert.KernelIdeal.main_arg2) : Cert.KernelIdeal.S50000.Idx → BitVec 32) (ValueIdx.ix1 (n := 50000) n) := by
  show StableHlo.after hostOps0 (W0 m c) (Proc.devRef .tc Cert.KernelIdeal.main_v4) _ = _
  after_results
  exact shapeCast_apply _ Cert.KernelIdeal.Facts₀.shapeCasts_S50000_S50000x1 _ (ValueIdx.ix1 (n := 50000) n)
    (by rewrite [Shape.rowMajor_val_two, Shape.rowMajor_val_one]; show n.val = n.val * 1 + 0; omega)

end

end Cert.Bridge.Ref

end
-- ==== Proof.PoolMath.lean ====
import proofs.«407159_j20469814132905_1_alg».proof.Proof.Gen.KernelIdeal.Skeleton
import proofs.«407159_j20469814132905_1_alg».proof.Proof.Gen.ReferenceIdeal.Read
import Idealize.ShloMosaic.Lib.Pipeline.Value
import Idealize.ShloMosaic.Lib.ValueIdx
import Idealize.ShloMosaic.PureOps.Ideal.Laws

/-!
# The pooling stage as mathematics on the extended reals

Every float is an extended real and every operation is exact. For a graph g < 512 and a feature d < 64 the
kernel holds, after its 50 blocks of 1000 rows,

  acc[g, d] = ((0 + c₀) + c₁) + … + c₄₉,   c_t[g, d] = ∑ r < 1000, onehot(b[1000 t + r], g) · h[1000 t + r, d],

where onehot(w, g) is 1 when the 32-bit word w is the word g and 0 otherwise, and cnt[g] likewise with h replaced
by 1. Since 0 · x = 0 and 1 · x = x for every extended real x, each c_t is the sum of h[n, d] over the rows n of
block t with b[n] = g, and the blocks together are the sum over all n < 50000 with b[n] = g.

The reference adds, onto zeros, every update (n, d') whose result index is (g, d): the index is the graph id read
as a signed integer, not clamped, plus the window coordinate, so the update lands on (g, d) exactly when d' = d
and b[n] read signed is g; for 0 ≤ g < 512 that says b[n] is the word g. So both accumulations are one sum over
the naturals below 50000, and the counts are the same sum of ones.

On equal sums the rest is the same function on both sides: maximum of the count with 1, quotient, the 64-term
product with Wfc, and the logistic function, which is 1 / (1 + exp (-x)) by definition.
-/

set_option maxRecDepth 16384

noncomputable section

namespace Cert.Bridge.Pool

open Idealize.ShloMosaic Idealize.ShloMosaic.ValueIdx Cert.KernelIdeal.Gen
open scoped BigOperators

/-! ### The one-hot matrix of a block -/

/-- a one-bit comparison widened to a word and read signed is the indicator -/
theorem cmpi_eq_toInt (x y : BitVec 32) :
    ((((IntOp.cmpi .eq x y).setWidth 32).toInt : ℝ) : EReal) = if x = y then (1 : EReal) else 0 := by
  unfold IntOp.cmpi
  by_cases h : x = y
  · rw [if_pos h, h]; simp
  · rw [if_neg h]
    have : (x == y) = false := by simpa using h
    simp [this]

/-- the one-hot entry: the indicator that the row's graph id is the column number -/
theorem onehot_apply (v3 : Vec Ideal Cert.KernelIdeal.S1000x1 .i32) (r : Fin 1000) (g : Fin 512) :
    k2_pay3 (F := Ideal) v3 (ix2 r g) = if v3 (ix2 r ⟨0, Nat.one_pos⟩) = BitVec.ofNat 32 g.val then (1 : EReal) else 0 := by
  unfold k2_pay3
  rw [shapeCast_self]
  show ((((IntOp.cmpi .eq (broadcastTo Cert.KernelIdeal.S1000x512 v3 _ (ix2 r g)) (iota .tc Cert.KernelIdeal.S1000x512 32 [1] _ (ix2 r g))).setWidth 32).toInt : ℝ) : EReal) = _
  rw [iota_single_apply]
  rw [broadcastTo_apply v3 _ (ix2 r g) (ix2 r ⟨0, Nat.one_pos⟩) (fun a => match a with
    | ⟨0, _⟩ => by show r.val = if (1000 : Nat) = 1 then 0 else r.val; rw [if_neg (by decide)]
    | ⟨1, _⟩ => by show 0 = if (1 : Nat) = 1 then 0 else g.val; rw [if_pos rfl])]
  exact cmpi_eq_toInt _ _

/-! ### The two one-hot products read as sums over the block's rows -/

theorem lhs_pay4_0 (i : Cert.KernelIdeal.S512x64.Idx) (q : Cert.KernelIdeal.dot_S1000x512_S1000x64_S512x64_0_0_1_1_n_n.contr.Idx) :
    (Cert.KernelIdeal.dot_S1000x512_S1000x64_S512x64_0_0_1_1_n_n.lhsIdx i q 0).val = (q ⟨0, by decide⟩).val :=
  Cert.KernelIdeal.dot_S1000x512_S1000x64_S512x64_0_0_1_1_n_n.lhsIdx_val_of_single rfl i q
theorem lhs_pay4_1 (i : Cert.KernelIdeal.S512x64.Idx) (q : Cert.KernelIdeal.dot_S1000x512_S1000x64_S512x64_0_0_1_1_n_n.contr.Idx) :
    (Cert.KernelIdeal.dot_S1000x512_S1000x64_S512x64_0_0_1_1_n_n.lhsIdx i q 1).val = (i 0).val := by
  unfold DotDims.lhsIdx
  rw [dif_neg (show ¬(1 : Fin Cert.KernelIdeal.S1000x512.rank) ∈ Cert.KernelIdeal.dot_S1000x512_S1000x64_S512x64_0_0_1_1_n_n.lhsBatch by decide), dif_pos (show (1 : Fin Cert.KernelIdeal.S1000x512.rank) ∈ Cert.KernelIdeal.dot_S1000x512_S1000x64_S512x64_0_0_1_1_n_n.lhsNonContracting by decide)]
  rfl
theorem rhs_pay4_0 (i : Cert.KernelIdeal.S512x64.Idx) (q : Cert.KernelIdeal.dot_S1000x512_S1000x64_S512x64_0_0_1_1_n_n.contr.Idx) :
    (Cert.KernelIdeal.dot_S1000x512_S1000x64_S512x64_0_0_1_1_n_n.rhsIdx i q 0).val = (q ⟨0, by decide⟩).val :=
  Cert.KernelIdeal.dot_S1000x512_S1000x64_S512x64_0_0_1_1_n_n.rhsIdx_val_of_single rfl i q
theorem rhs_pay4_1 (i : Cert.KernelIdeal.S512x64.Idx) (q : Cert.KernelIdeal.dot_S1000x512_S1000x64_S512x64_0_0_1_1_n_n.contr.Idx) :
    (Cert.KernelIdeal.dot_S1000x512_S1000x64_S512x64_0_0_1_1_n_n.rhsIdx i q 1).val = (i 1).val := by
  unfold DotDims.rhsIdx
  rw [dif_neg (show ¬(1 : Fin Cert.KernelIdeal.S1000x64.rank) ∈ Cert.KernelIdeal.dot_S1000x512_S1000x64_S512x64_0_0_1_1_n_n.rhsBatch by decide), dif_pos (show (1 : Fin Cert.KernelIdeal.S1000x64.rank) ∈ Cert.KernelIdeal.dot_S1000x512_S1000x64_S512x64_0_0_1_1_n_n.rhsNonContracting by decide)]
  rfl

/-- one block of the feature accumulation: the rows of the block whose graph id is g, summed -/
theorem pay4_apply (v3 : Vec Ideal Cert.KernelIdeal.S1000x1 .i32) (v11 : Vec Ideal Cert.KernelIdeal.S1000x64 .f32)
    (v17 : Vec Ideal Cert.KernelIdeal.S512x64 .f32) (g : Fin 512) (d : Fin 64) :
    k2_pay4 (F := Ideal) v3 v11 v17 (ix2 g d)
      = v17 (ix2 g d) + ∑ r : Fin 1000, if v3 (ix2 r ⟨0, Nat.one_pos⟩) = BitVec.ofNat 32 g.val then v11 (ix2 r d) else 0 := by
  unfold k2_pay4
  rw [shapeCast_self, shapeCast_self]
  show v17 (ix2 g d) + _ = _
  congr 1
  refine (Ideal.matmul_constant_zero_apply _ none _ _ _).trans ?_
  rw [← Equiv.sum_comp (ValueIdx.contrEquiv1 Cert.KernelIdeal.dot_S1000x512_S1000x64_S512x64_0_0_1_1_n_n 1000 rfl rfl).symm]
  refine Finset.sum_congr rfl fun k _ => ?_
  have hk := ValueIdx.contrEquiv1_symm_val Cert.KernelIdeal.dot_S1000x512_S1000x64_S512x64_0_0_1_1_n_n 1000 rfl rfl k
  have el : Cert.KernelIdeal.dot_S1000x512_S1000x64_S512x64_0_0_1_1_n_n.lhsIdx (ix2 g d) ((ValueIdx.contrEquiv1 Cert.KernelIdeal.dot_S1000x512_S1000x64_S512x64_0_0_1_1_n_n 1000 rfl rfl).symm k) = ix2 k g := funext fun a => Fin.ext (by
    match a with
    | ⟨0, _⟩ => exact (lhs_pay4_0 _ _).trans hk
    | ⟨1, _⟩ => exact lhs_pay4_1 _ _)
  have er : Cert.KernelIdeal.dot_S1000x512_S1000x64_S512x64_0_0_1_1_n_n.rhsIdx (ix2 g d) ((ValueIdx.contrEquiv1 Cert.KernelIdeal.dot_S1000x512_S1000x64_S512x64_0_0_1_1_n_n 1000 rfl rfl).symm k) = ix2 k d := funext fun a => Fin.ext (by
    match a with
    | ⟨0, _⟩ => exact (rhs_pay4_0 _ _).trans hk
    | ⟨1, _⟩ => exact rhs_pay4_1 _ _)
  rw [el, er, onehot_apply]
  show (if _ then (1 : EReal) else 0) * v11 (ix2 k d) = _
  rw [ite_mul, one_mul, zero_mul]

/-- the bf16 word of 1.0 is the real 1 -/
theorem one_bf16 : Ideal.ofBits .bf16 0x3F80#16 = 1 := by
  simp [Ideal.ofBits, Ideal.ieee, -EReal.coe_mul]; norm_num
/-- the f32 word of 1.0 is the real 1 -/
theorem one_f32 : Ideal.ofBits .f32 0x3F800000#32 = 1 := by
  simp [Ideal.ofBits, Ideal.ieee, -EReal.coe_mul]; norm_num

theorem lhs_pay5_0 (i : Cert.KernelIdeal.S512x1.Idx) (q : Cert.KernelIdeal.dot_S1000x512_S1000x1_S512x1_0_0_1_1_n_n.contr.Idx) :
    (Cert.KernelIdeal.dot_S1000x512_S1000x1_S512x1_0_0_1_1_n_n.lhsIdx i q 0).val = (q ⟨0, by decide⟩).val :=
  Cert.KernelIdeal.dot_S1000x512_S1000x1_S512x1_0_0_1_1_n_n.lhsIdx_val_of_single rfl i q
theorem lhs_pay5_1 (i : Cert.KernelIdeal.S512x1.Idx) (q : Cert.KernelIdeal.dot_S1000x512_S1000x1_S512x1_0_0_1_1_n_n.contr.Idx) :
    (Cert.KernelIdeal.dot_S1000x512_S1000x1_S512x1_0_0_1_1_n_n.lhsIdx i q 1).val = (i 0).val := by
  unfold DotDims.lhsIdx
  rw [dif_neg (show ¬(1 : Fin Cert.KernelIdeal.S1000x512.rank) ∈ Cert.KernelIdeal.dot_S1000x512_S1000x1_S512x1_0_0_1_1_n_n.lhsBatch by decide), dif_pos (show (1 : Fin Cert.KernelIdeal.S1000x512.rank) ∈ Cert.KernelIdeal.dot_S1000x512_S1000x1_S512x1_0_0_1_1_n_n.lhsNonContracting by decide)]
  rfl

/-- one block of the count accumulation: the number of rows of the block whose graph id is g -/
theorem pay5_apply (v3 : Vec Ideal Cert.KernelIdeal.S1000x1 .i32) (v22 : Vec Ideal Cert.KernelIdeal.S512x1 .f32) (g : Fin 512) :
    k2_pay5 (F := Ideal) v3 v22 (ix2 g ⟨0, Nat.one_pos⟩)
      = v22 (ix2 g ⟨0, Nat.one_pos⟩) + ∑ r : Fin 1000, if v3 (ix2 r ⟨0, Nat.one_pos⟩) = BitVec.ofNat 32 g.val then (1 : EReal) else 0 := by
  unfold k2_pay5
  rw [shapeCast_self]
  show v22 (ix2 g ⟨0, Nat.one_pos⟩) + _ = _
  congr 1
  refine (Ideal.matmul_constant_zero_apply _ none _ _ _).trans ?_
  rw [← Equiv.sum_comp (ValueIdx.contrEquiv1 Cert.KernelIdeal.dot_S1000x512_S1000x1_S512x1_0_0_1_1_n_n 1000 rfl rfl).symm]
  refine Finset.sum_congr rfl fun k _ => ?_
  have hk := ValueIdx.contrEquiv1_symm_val Cert.KernelIdeal.dot_S1000x512_S1000x1_S512x1_0_0_1_1_n_n 1000 rfl rfl k
  have el : Cert.KernelIdeal.dot_S1000x512_S1000x1_S512x1_0_0_1_1_n_n.lhsIdx (ix2 g ⟨0, Nat.one_pos⟩) ((ValueIdx.contrEquiv1 Cert.KernelIdeal.dot_S1000x512_S1000x1_S512x1_0_0_1_1_n_n 1000 rfl rfl).symm k) = ix2 k g := funext fun a => Fin.ext (by
    match a with
    | ⟨0, _⟩ => exact (lhs_pay5_0 _ _).trans hk
    | ⟨1, _⟩ => exact lhs_pay5_1 _ _)
  rw [el, onehot_apply]
  show (if _ then (1 : EReal) else 0) * Ideal.ofBits .bf16 0x3F80#16 = _
  rw [one_bf16, mul_one]

/-! ### The blocks of the 50000 rows, and the values the kernel carries from block to block -/

/-- rows 1000·t … 1000·t+999 of a 50000-row array: what the kernel's block t is -/
def hRows (h : Vec Ideal Cert.KernelIdeal.S50000x64 .f32) (t : Fin 50) : Vec Ideal Cert.KernelIdeal.S1000x64 .f32 :=
  fun y => h (ix2 (⟨1000 * t.val + (y 0).val, by have := idx2_lt0 y; have := t.isLt; omega⟩ : Fin 50000) (⟨(y 1).val, idx2_lt1 y⟩ : Fin 64))

/-- the same rows of the column of graph ids -/
def bRows (b : Vec Ideal Cert.KernelIdeal.S50000x1 .i32) (t : Fin 50) : Vec Ideal Cert.KernelIdeal.S1000x1 .i32 :=
  fun y => b (ix2 (⟨1000 * t.val + (y 0).val, by have := idx2_lt0 y; have := t.isLt; omega⟩ : Fin 50000) (⟨(y 1).val, idx2_lt1 y⟩ : Fin 1))

/-- the pair (feature sums, counts) the kernel holds after blocks 0 … n -/
def carriedOf (h : Vec Ideal Cert.KernelIdeal.S50000x64 .f32) (b : Vec Ideal Cert.KernelIdeal.S50000x1 .i32) :
    (n : ℕ) → n < 50 → Vec Ideal Cert.KernelIdeal.S512x64 .f32 × Vec Ideal Cert.KernelIdeal.S512x1 .f32
  | 0, hn => (k2_pay4 (F := Ideal) (bRows b ⟨0, hn⟩) (hRows h ⟨0, hn⟩) (k2_pay1 (F := Ideal)), k2_pay5 (F := Ideal) (bRows b ⟨0, hn⟩) (k2_pay2 (F := Ideal)))
  | n + 1, hn => (k2_pay4 (F := Ideal) (bRows b ⟨n + 1, hn⟩) (hRows h ⟨n + 1, hn⟩) (carriedOf h b n (Nat.lt_of_succ_lt hn)).1,
      k2_pay5 (F := Ideal) (bRows b ⟨n + 1, hn⟩) (carriedOf h b n (Nat.lt_of_succ_lt hn)).2)

/-- the pair after block 0, and after block n+1 from the pair after block n: the two defining equations -/
theorem carriedOf_zero (h : Vec Ideal Cert.KernelIdeal.S50000x64 .f32) (b : Vec Ideal Cert.KernelIdeal.S50000x1 .i32) (hn : 0 < 50) :
    carriedOf h b 0 hn = (k2_pay4 (F := Ideal) (bRows b ⟨0, hn⟩) (hRows h ⟨0, hn⟩) (k2_pay1 (F := Ideal)),
      k2_pay5 (F := Ideal) (bRows b ⟨0, hn⟩) (k2_pay2 (F := Ideal))) := rfl
theorem carriedOf_succ (h : Vec Ideal Cert.KernelIdeal.S50000x64 .f32) (b : Vec Ideal Cert.KernelIdeal.S50000x1 .i32) (n : ℕ) (hn : n + 1 < 50) :
    carriedOf h b (n + 1) hn = (k2_pay4 (F := Ideal) (bRows b ⟨n + 1, hn⟩) (hRows h ⟨n + 1, hn⟩) (carriedOf h b n (Nat.lt_of_succ_lt hn)).1,
      k2_pay5 (F := Ideal) (bRows b ⟨n + 1, hn⟩) (carriedOf h b n (Nat.lt_of_succ_lt hn)).2) := rfl

/-- row x of the feature array at column d, as a function of the natural number x (0 past the end) -/
def hAt (h : Vec Ideal Cert.KernelIdeal.S50000x64 .f32) (d : Fin 64) (x : ℕ) : EReal :=
  if hx : x < 50000 then h (ix2 (⟨x, hx⟩ : Fin 50000) d) else 0

/-- graph id of row x, as a function of the natural number x -/
def bAt (b : Vec Ideal Cert.KernelIdeal.S50000x1 .i32) (x : ℕ) : BitVec 32 :=
  if hx : x < 50000 then b (ix2 (⟨x, hx⟩ : Fin 50000) (⟨0, Nat.one_pos⟩ : Fin 1)) else 0

/-- row x's contribution to graph g: u x when the row's graph id is the word g -/
def term (b : Vec Ideal Cert.KernelIdeal.S50000x1 .i32) (u : ℕ → EReal) (g : Fin 512) (x : ℕ) : EReal :=
  if bAt b x = BitVec.ofNat 32 g.val then u x else 0

/-- a block's filtered sum over its 1000 rows is the filtered sum over the naturals 1000·t … 1000·t+999 -/
theorem block_sum_feat (h : Vec Ideal Cert.KernelIdeal.S50000x64 .f32) (b : Vec Ideal Cert.KernelIdeal.S50000x1 .i32)
    (t : Fin 50) (g : Fin 512) (d : Fin 64) :
    (∑ r : Fin 1000, if bRows b t (ix2 r ⟨0, Nat.one_pos⟩) = BitVec.ofNat 32 g.val then hRows h t (ix2 r d) else 0)
      = ∑ r ∈ Finset.range 1000, term b (hAt h d) g (1000 * t.val + r) := by
  rw [← Fin.sum_univ_eq_sum_range (fun r => term b (hAt h d) g (1000 * t.val + r)) 1000]
  refine Finset.sum_congr rfl fun r _ => ?_
  have hx : 1000 * t.val + r.val < 50000 := by have := r.isLt; have := t.isLt; omega
  unfold term bAt hAt
  rw [dif_pos hx, dif_pos hx]
  rfl

theorem block_sum_cnt (b : Vec Ideal Cert.KernelIdeal.S50000x1 .i32) (t : Fin 50) (g : Fin 512) :
    (∑ r : Fin 1000, if bRows b t (ix2 r ⟨0, Nat.one_pos⟩) = BitVec.ofNat 32 g.val then (1 : EReal) else 0)
      = ∑ r ∈ Finset.range 1000, term b (fun _ => 1) g (1000 * t.val + r) := by
  rw [← Fin.sum_univ_eq_sum_range (fun r => term b (fun _ => 1) g (1000 * t.val + r)) 1000]
  refine Finset.sum_congr rfl fun r _ => ?_
  have hx : 1000 * t.val + r.val < 50000 := by have := r.isLt; have := t.isLt; omega
  unfold term bAt
  rw [dif_pos hx]
  rfl

/-- the first 1000·(n+1) naturals are the first 1000·n and then block n -/
theorem sum_blocks_succ (f : ℕ → EReal) (n : ℕ) :
    ∑ x ∈ Finset.range (1000 * (n + 1)), f x = ∑ x ∈ Finset.range (1000 * n), f x + ∑ r ∈ Finset.range 1000, f (1000 * n + r) := by
  rw [Nat.mul_succ, Finset.sum_range_add]

theorem pay1_apply (i : Cert.KernelIdeal.S512x64.Idx) : k2_pay1 (F := Ideal) i = 0 := by
  unfold k2_pay1
  rw [shapeCast_self]
  exact Ideal.ofBits_zero_f32
theorem pay2_apply (i : Cert.KernelIdeal.S512x1.Idx) : k2_pay2 (F := Ideal) i = 0 := by
  unfold k2_pay2
  rw [shapeCast_self]
  exact Ideal.ofBits_zero_f32

/-- after blocks 0 … n the feature accumulator holds, at (g, d), the sum over the rows below 1000·(n+1) with graph id g -/
theorem carried_fst (h : Vec Ideal Cert.KernelIdeal.S50000x64 .f32) (b : Vec Ideal Cert.KernelIdeal.S50000x1 .i32) (g : Fin 512) (d : Fin 64) :
    ∀ (n : ℕ) (hn : n < 50), (carriedOf h b n hn).1 (ix2 g d) = ∑ x ∈ Finset.range (1000 * (n + 1)), term b (hAt h d) g x
  | 0, hn => by
    rw [carriedOf]; dsimp only
    rw [pay4_apply, pay1_apply, zero_add, block_sum_feat, sum_blocks_succ]
    simp
  | n + 1, hn => by
    rw [carriedOf]; dsimp only
    rw [pay4_apply, carried_fst h b g d n (Nat.lt_of_succ_lt hn), block_sum_feat, sum_blocks_succ _ (n + 1)]

/-- … and the count accumulator, at g, the number of those rows -/
theorem carried_snd (h : Vec Ideal Cert.KernelIdeal.S50000x64 .f32) (b : Vec Ideal Cert.KernelIdeal.S50000x1 .i32) (g : Fin 512) :
    ∀ (n : ℕ) (hn : n < 50), (carriedOf h b n hn).2 (ix2 g ⟨0, Nat.one_pos⟩) = ∑ x ∈ Finset.range (1000 * (n + 1)), term b (fun _ => 1) g x
  | 0, hn => by
    rw [carriedOf]; dsimp only
    rw [pay5_apply, pay2_apply, zero_add, block_sum_cnt, sum_blocks_succ]
    simp
  | n + 1, hn => by
    rw [carriedOf]; dsimp only
    rw [pay5_apply, carried_snd h b g n (Nat.lt_of_succ_lt hn), block_sum_cnt, sum_blocks_succ _ (n + 1)]

/-! ### The two segment sums of the reference read at an index -/

/-- a word read signed is the small natural g exactly when it is the word g -/
theorem toInt_eq_iff (w : BitVec 32) (g : ℕ) (hg : g < 512) : w.toInt = (g : ℤ) ↔ w = BitVec.ofNat 32 g := by
  constructor
  · intro h
    apply BitVec.eq_of_toNat_eq
    rw [BitVec.toNat_ofNat, Nat.mod_eq_of_lt (by omega)]
    have e := BitVec.toInt_eq_toNat_cond w
    have := w.isLt
    split at e <;> omega
  · intro h
    have hn : w.toNat = g := by rw [h, BitVec.toNat_ofNat, Nat.mod_eq_of_lt (by omega)]
    have e := BitVec.toInt_eq_toNat_cond w
    split at e <;> omega

theorem start_feat_0 (n : Fin 50000) (c : Fin 64) (idx : IVec Cert.ReferenceIdeal.S50000x1 32) :
    Cert.ReferenceIdeal.scatter_S512x64_S50000x1_S50000x64_1_0_0_1.start (ix2 n c) idx 0
      = (idx (ix2 n (⟨0, Nat.one_pos⟩ : Fin 1))).toInt := by
  unfold ScatterDims.start
  rw [dif_pos (show (0 : Fin Cert.ReferenceIdeal.S512x64.rank) ∈ Cert.ReferenceIdeal.scatter_S512x64_S50000x1_S50000x64_1_0_0_1.scatterDimsToOperandDims by decide)]
  refine congrArg (fun k => (idx k).toInt) ?_
  funext b; refine Fin.ext ?_
  match b with
  | ⟨0, _⟩ => rfl
  | ⟨1, _⟩ => rfl
theorem start_feat_1 (n : Fin 50000) (c : Fin 64) (idx : IVec Cert.ReferenceIdeal.S50000x1 32) :
    Cert.ReferenceIdeal.scatter_S512x64_S50000x1_S50000x64_1_0_0_1.start (ix2 n c) idx 1 = 0 := by
  unfold ScatterDims.start
  rw [dif_neg (show ¬(1 : Fin Cert.ReferenceIdeal.S512x64.rank) ∈ Cert.ReferenceIdeal.scatter_S512x64_S50000x1_S50000x64_1_0_0_1.scatterDimsToOperandDims by decide)]
theorem window_feat_0 (n : Fin 50000) (c : Fin 64) :
    Cert.ReferenceIdeal.scatter_S512x64_S50000x1_S50000x64_1_0_0_1.window (ix2 n c) 0 = 0 := by
  unfold ScatterDims.window
  rw [dif_neg (show ¬(0 : Fin Cert.ReferenceIdeal.S512x64.rank) ∈ Cert.ReferenceIdeal.scatter_S512x64_S50000x1_S50000x64_1_0_0_1.sKept by decide)]
theorem window_feat_1 (n : Fin 50000) (c : Fin 64) :
    Cert.ReferenceIdeal.scatter_S512x64_S50000x1_S50000x64_1_0_0_1.window (ix2 n c) 1 = c.val := by
  unfold ScatterDims.window
  rw [dif_pos (show (1 : Fin Cert.ReferenceIdeal.S512x64.rank) ∈ Cert.ReferenceIdeal.scatter_S512x64_S50000x1_S50000x64_1_0_0_1.sKept by decide)]
  rfl

/-- update (n, c) of the feature scatter lands on (g, d) exactly when row n's graph id, read signed, is g and c = d -/
theorem resultIdx_feat (n : Fin 50000) (c : Fin 64) (idx : IVec Cert.ReferenceIdeal.S50000x1 32) (g : Fin 512) (d : Fin 64) :
    Cert.ReferenceIdeal.scatter_S512x64_S50000x1_S50000x64_1_0_0_1.resultIdx? (ix2 n c) idx = some (ix2 g d)
      ↔ (idx (ix2 n (⟨0, Nat.one_pos⟩ : Fin 1))).toInt = (g.val : ℤ) ∧ c = d := by
  have hg := g.isLt
  have hc := c.isLt
  unfold ScatterDims.resultIdx?
  split
  · rename_i H
    rw [Option.some.injEq]
    constructor
    · intro e
      have e0 : (Cert.ReferenceIdeal.scatter_S512x64_S50000x1_S50000x64_1_0_0_1.start (ix2 n c) idx 0
          + (Cert.ReferenceIdeal.scatter_S512x64_S50000x1_S50000x64_1_0_0_1.window (ix2 n c) 0 : ℤ)).toNat = g.val :=
        congrArg (fun f => (f 0).val) e
      have e1 : (Cert.ReferenceIdeal.scatter_S512x64_S50000x1_S50000x64_1_0_0_1.start (ix2 n c) idx 1
          + (Cert.ReferenceIdeal.scatter_S512x64_S50000x1_S50000x64_1_0_0_1.window (ix2 n c) 1 : ℤ)).toNat = d.val :=
        congrArg (fun f => (f 1).val) e
      have H0 := (H 0).1
      rw [start_feat_0, window_feat_0] at e0 H0
      rw [start_feat_1, window_feat_1] at e1
      exact ⟨by omega, Fin.ext (by omega)⟩
    · rintro ⟨h0, h1⟩
      funext a; refine Fin.ext ?_
      match a with
      | ⟨0, _⟩ =>
        show (Cert.ReferenceIdeal.scatter_S512x64_S50000x1_S50000x64_1_0_0_1.start (ix2 n c) idx 0
          + (Cert.ReferenceIdeal.scatter_S512x64_S50000x1_S50000x64_1_0_0_1.window (ix2 n c) 0 : ℤ)).toNat = g.val
        rw [start_feat_0, window_feat_0, h0]; omega
      | ⟨1, _⟩ =>
        show (Cert.ReferenceIdeal.scatter_S512x64_S50000x1_S50000x64_1_0_0_1.start (ix2 n c) idx 1
          + (Cert.ReferenceIdeal.scatter_S512x64_S50000x1_S50000x64_1_0_0_1.window (ix2 n c) 1 : ℤ)).toNat = d.val
        rw [start_feat_1, window_feat_1, h1]; omega
  · rename_i H
    constructor
    · intro e; cases e
    · rintro ⟨h0, h1⟩
      exfalso; apply H
      intro a
      match a with
      | ⟨0, _⟩ =>
        show 0 ≤ Cert.ReferenceIdeal.scatter_S512x64_S50000x1_S50000x64_1_0_0_1.start (ix2 n c) idx 0
            + (Cert.ReferenceIdeal.scatter_S512x64_S50000x1_S50000x64_1_0_0_1.window (ix2 n c) 0 : ℤ)
          ∧ Cert.ReferenceIdeal.scatter_S512x64_S50000x1_S50000x64_1_0_0_1.start (ix2 n c) idx 0
            + (Cert.ReferenceIdeal.scatter_S512x64_S50000x1_S50000x64_1_0_0_1.window (ix2 n c) 0 : ℤ) < ((512 : ℕ) : ℤ)
        rw [start_feat_0, window_feat_0, h0]; omega
      | ⟨1, _⟩ =>
        show 0 ≤ Cert.ReferenceIdeal.scatter_S512x64_S50000x1_S50000x64_1_0_0_1.start (ix2 n c) idx 1
            + (Cert.ReferenceIdeal.scatter_S512x64_S50000x1_S50000x64_1_0_0_1.window (ix2 n c) 1 : ℤ)
          ∧ Cert.ReferenceIdeal.scatter_S512x64_S50000x1_S50000x64_1_0_0_1.start (ix2 n c) idx 1
            + (Cert.ReferenceIdeal.scatter_S512x64_S50000x1_S50000x64_1_0_0_1.window (ix2 n c) 1 : ℤ) < ((64 : ℕ) : ℤ)
        rw [start_feat_1, window_feat_1]; omega

theorem start_cnt_0 (n : Fin 50000) (idx : IVec Cert.ReferenceIdeal.S50000x1 32) :
    Cert.ReferenceIdeal.scatter_S512_S50000x1_S50000_n_0_0_1.start (ix1 n) idx 0
      = (idx (ix2 n (⟨0, Nat.one_pos⟩ : Fin 1))).toInt := by
  unfold ScatterDims.start
  rw [dif_pos (show (0 : Fin Cert.ReferenceIdeal.S512.rank) ∈ Cert.ReferenceIdeal.scatter_S512_S50000x1_S50000_n_0_0_1.scatterDimsToOperandDims by decide)]
  refine congrArg (fun k => (idx k).toInt) ?_
  funext b; refine Fin.ext ?_
  match b with
  | ⟨0, _⟩ => rfl
  | ⟨1, _⟩ => rfl
theorem window_cnt_0 (n : Fin 50000) :
    Cert.ReferenceIdeal.scatter_S512_S50000x1_S50000_n_0_0_1.window (ix1 n) 0 = 0 := by
  unfold ScatterDims.window
  rw [dif_neg (show ¬(0 : Fin Cert.ReferenceIdeal.S512.rank) ∈ Cert.ReferenceIdeal.scatter_S512_S50000x1_S50000_n_0_0_1.sKept by decide)]

/-- update n of the count scatter lands on g exactly when row n's graph id, read signed, is g -/
theorem resultIdx_cnt (n : Fin 50000) (idx : IVec Cert.ReferenceIdeal.S50000x1 32) (g : Fin 512) :
    Cert.ReferenceIdeal.scatter_S512_S50000x1_S50000_n_0_0_1.resultIdx? (ix1 n) idx = some (ix1 g)
      ↔ (idx (ix2 n (⟨0, Nat.one_pos⟩ : Fin 1))).toInt = (g.val : ℤ) := by
  have hg := g.isLt
  unfold ScatterDims.resultIdx?
  split
  · rename_i H
    rw [Option.some.injEq]
    constructor
    · intro e
      have e0 : (Cert.ReferenceIdeal.scatter_S512_S50000x1_S50000_n_0_0_1.start (ix1 n) idx 0
          + (Cert.ReferenceIdeal.scatter_S512_S50000x1_S50000_n_0_0_1.window (ix1 n) 0 : ℤ)).toNat = g.val :=
        congrArg (fun f => (f 0).val) e
      have H0 := (H 0).1
      rw [start_cnt_0, window_cnt_0] at e0 H0
      omega
    · intro h0
      funext a; refine Fin.ext ?_
      match a with
      | ⟨0, _⟩ =>
        show (Cert.ReferenceIdeal.scatter_S512_S50000x1_S50000_n_0_0_1.start (ix1 n) idx 0
          + (Cert.ReferenceIdeal.scatter_S512_S50000x1_S50000_n_0_0_1.window (ix1 n) 0 : ℤ)).toNat = g.val
        rw [start_cnt_0, window_cnt_0, h0]; omega
  · rename_i H
    constructor
    · intro e; cases e
    · intro h0
      exfalso; apply H
      intro a
      match a with
      | ⟨0, _⟩ =>
        show 0 ≤ Cert.ReferenceIdeal.scatter_S512_S50000x1_S50000_n_0_0_1.start (ix1 n) idx 0
            + (Cert.ReferenceIdeal.scatter_S512_S50000x1_S50000_n_0_0_1.window (ix1 n) 0 : ℤ)
          ∧ Cert.ReferenceIdeal.scatter_S512_S50000x1_S50000_n_0_0_1.start (ix1 n) idx 0
            + (Cert.ReferenceIdeal.scatter_S512_S50000x1_S50000_n_0_0_1.window (ix1 n) 0 : ℤ) < ((512 : ℕ) : ℤ)
        rw [start_cnt_0, window_cnt_0, h0]; omega

/-- a rank-1 index set is its one coordinate range -/
def idxEquiv1 {n0 : Nat} : (⟨1, ![n0]⟩ : Shape).Idx ≃ Fin n0 where
  toFun i := i 0
  invFun a := ix1 a
  left_inv i := (eq_ix1 i).symm
  right_inv _ := rfl

/-- the feature segment sum at (g, d): the operand there plus the rows whose graph id, read signed, is g -/
theorem scatter_feat_apply (x : Cert.ReferenceIdeal.S512x64.Idx → EReal) (idx : IVec Cert.ReferenceIdeal.S50000x1 32)
    (upd : Cert.ReferenceIdeal.S50000x64.Idx → EReal) (g : Fin 512) (d : Fin 64) :
    Ideal.hostScatterAdd Cert.ReferenceIdeal.scatter_S512x64_S50000x1_S50000x64_1_0_0_1 x idx upd (ix2 g d)
      = x (ix2 g d) + ∑ n : Fin 50000, if (idx (ix2 n (⟨0, Nat.one_pos⟩ : Fin 1))).toInt = (g.val : ℤ) then upd (ix2 n d) else 0 := by
  unfold Ideal.hostScatterAdd
  refine congrArg (x (ix2 g d) + ·) ?_
  rw [Finset.sum_filter, sum_idx2]
  refine Finset.sum_congr rfl fun n _ => ?_
  by_cases hg : (idx (ix2 n (⟨0, Nat.one_pos⟩ : Fin 1))).toInt = (g.val : ℤ)
  · rw [if_pos hg, Finset.sum_eq_single d]
    · exact if_pos ((resultIdx_feat n d idx g d).2 ⟨hg, rfl⟩)
    · intro c _ hc
      exact if_neg fun e => hc ((resultIdx_feat n c idx g d).1 e).2
    · intro h; exact absurd (Finset.mem_univ _) h
  · rw [if_neg hg]
    exact Finset.sum_eq_zero fun c _ => if_neg fun e => hg ((resultIdx_feat n c idx g d).1 e).1

/-- the count segment sum at g -/
theorem scatter_cnt_apply (x : Cert.ReferenceIdeal.S512.Idx → EReal) (idx : IVec Cert.ReferenceIdeal.S50000x1 32)
    (upd : Cert.ReferenceIdeal.S50000.Idx → EReal) (g : Fin 512) :
    Ideal.hostScatterAdd Cert.ReferenceIdeal.scatter_S512_S50000x1_S50000_n_0_0_1 x idx upd (ix1 g)
      = x (ix1 g) + ∑ n : Fin 50000, if (idx (ix2 n (⟨0, Nat.one_pos⟩ : Fin 1))).toInt = (g.val : ℤ) then upd (ix1 n) else 0 := by
  unfold Ideal.hostScatterAdd
  refine congrArg (x (ix1 g) + ·) ?_
  rw [Finset.sum_filter, ← Equiv.sum_comp (idxEquiv1 (n0 := 50000)).symm]
  refine Finset.sum_congr rfl fun n _ => ?_
  show (if Cert.ReferenceIdeal.scatter_S512_S50000x1_S50000_n_0_0_1.resultIdx? (ix1 n) idx = some (ix1 g) then upd (ix1 n) else 0) = _
  by_cases hg : (idx (ix2 n (⟨0, Nat.one_pos⟩ : Fin 1))).toInt = (g.val : ℤ)
  · rw [if_pos hg, if_pos ((resultIdx_cnt n idx g).2 hg)]
  · rw [if_neg hg, if_neg fun e => hg ((resultIdx_cnt n idx g).1 e)]

/-! ### Both sides as one sum over the 50000 rows -/

open Cert.ReferenceIdeal.Read in
/-- the reference's graph-id column at row n is the kernel's -/
theorem ids_agree (b1 : Vec Ideal Cert.KernelIdeal.S50000x1 .i32) (b0 : IVec Cert.ReferenceIdeal.S50000 32)
    (hb : ∀ n : Fin 50000, b1 (ix2 n (⟨0, Nat.one_pos⟩ : Fin 1)) = b0 (ix1 n)) (n : Fin 50000) :
    val_main_v32 (F := Ideal) b0 (ix2 n (⟨0, Nat.one_pos⟩ : Fin 1)) = bAt b1 n.val := by
  unfold bAt
  rw [dif_pos n.isLt, val_main_v32_apply]
  refine Eq.trans (congrArg b0 (funext fun a => ?_)) (hb n).symm
  match a with
  | ⟨0, _⟩ => rfl

open Cert.ReferenceIdeal.Read in
/-- the reference's feature segment sum at (g, d) is the sum over all rows with graph id g -/
theorem ref_feat (h : FVec Ideal Cert.ReferenceIdeal.S50000x64 .f32) (b1 : Vec Ideal Cert.KernelIdeal.S50000x1 .i32)
    (b0 : IVec Cert.ReferenceIdeal.S50000 32) (hb : ∀ n : Fin 50000, b1 (ix2 n (⟨0, Nat.one_pos⟩ : Fin 1)) = b0 (ix1 n))
    (g : Fin 512) (d : Fin 64) :
    Host.scatterAdd Cert.ReferenceIdeal.scatter_S512x64_S50000x1_S50000x64_1_0_0_1 (val_main_v31 (F := Ideal))
        (val_main_v32 (F := Ideal) b0) h (ix2 g d)
      = ∑ x ∈ Finset.range 50000, term b1 (hAt h d) g x := by
  show Ideal.hostScatterAdd Cert.ReferenceIdeal.scatter_S512x64_S50000x1_S50000x64_1_0_0_1 _ _ _ _ = _
  rw [scatter_feat_apply, val_main_v31_apply, val_main_cst_6_apply]
  show Ideal.ofBits .f32 0x00000000#32 + _ = _
  rw [Ideal.ofBits_zero_f32, zero_add, ← Fin.sum_univ_eq_sum_range (fun x => term b1 (hAt h d) g x) 50000]
  refine Finset.sum_congr rfl fun n _ => ?_
  rw [ids_agree b1 b0 hb n]
  unfold term hAt
  rw [dif_pos n.isLt]
  exact if_congr (toInt_eq_iff _ g.val g.isLt) rfl rfl

open Cert.ReferenceIdeal.Read in
/-- the reference's count at g is the number of rows with graph id g -/
theorem ref_cnt (b1 : Vec Ideal Cert.KernelIdeal.S50000x1 .i32)
    (b0 : IVec Cert.ReferenceIdeal.S50000 32) (hb : ∀ n : Fin 50000, b1 (ix2 n (⟨0, Nat.one_pos⟩ : Fin 1)) = b0 (ix1 n))
    (g : Fin 512) :
    val_main_v30 (F := Ideal) b0 (ix1 g) = ∑ x ∈ Finset.range 50000, term b1 (fun _ => 1) g x := by
  show Ideal.hostScatterAdd Cert.ReferenceIdeal.scatter_S512_S50000x1_S50000_n_0_0_1 (val_main_v28 (F := Ideal)) (val_main_v29 (F := Ideal) b0) (val_main_v27 (F := Ideal)) (ix1 g) = _
  rw [scatter_cnt_apply, val_main_v28_apply, val_main_cst_5_apply]
  show Ideal.ofBits .f32 0x00000000#32 + _ = _
  rw [Ideal.ofBits_zero_f32, zero_add, ← Fin.sum_univ_eq_sum_range (fun x => term b1 (fun _ => 1) g x) 50000]
  refine Finset.sum_congr rfl fun n _ => ?_
  rw [show val_main_v29 (F := Ideal) b0 = val_main_v32 (F := Ideal) b0 from rfl, ids_agree b1 b0 hb n,
    val_main_v27_apply, val_main_cst_4_apply]
  show (if _ then Ideal.ofBits .f32 0x3F800000#32 else 0) = _
  rw [one_f32]
  unfold term
  exact if_congr (toInt_eq_iff _ g.val g.isLt) rfl rfl

/-- what the kernel has accumulated after its last block is the reference's feature segment sum -/
theorem feat_eq (h : Vec Ideal Cert.KernelIdeal.S50000x64 .f32) (b1 : Vec Ideal Cert.KernelIdeal.S50000x1 .i32)
    (b0 : IVec Cert.ReferenceIdeal.S50000 32) (hb : ∀ n : Fin 50000, b1 (ix2 n (⟨0, Nat.one_pos⟩ : Fin 1)) = b0 (ix1 n)) :
    (carriedOf h b1 49 (by decide)).1
      = Host.scatterAdd (F := Ideal) (φ := .f32) Cert.ReferenceIdeal.scatter_S512x64_S50000x1_S50000x64_1_0_0_1 (Cert.ReferenceIdeal.Read.val_main_v31 (F := Ideal))
        (Cert.ReferenceIdeal.Read.val_main_v32 (F := Ideal) b0) h := by
  funext i
  obtain ⟨g, d, rfl⟩ : ∃ (g : Fin 512) (d : Fin 64), i = ix2 g d := ⟨i 0, i 1, eq_ix2 i⟩
  rw [carried_fst h b1 g d 49 (by decide), ref_feat h b1 b0 hb g d]

/-- … and its count the reference's -/
theorem cnt_eq (h : Vec Ideal Cert.KernelIdeal.S50000x64 .f32) (b1 : Vec Ideal Cert.KernelIdeal.S50000x1 .i32)
    (b0 : IVec Cert.ReferenceIdeal.S50000 32) (hb : ∀ n : Fin 50000, b1 (ix2 n (⟨0, Nat.one_pos⟩ : Fin 1)) = b0 (ix1 n)) (g : Fin 512) :
    (carriedOf h b1 49 (by decide)).2 (ix2 g (⟨0, Nat.one_pos⟩ : Fin 1)) = Cert.ReferenceIdeal.Read.val_main_v30 (F := Ideal) b0 (ix1 g) := by
  rw [carried_snd h b1 g 49 (by decide), ref_cnt b1 b0 hb g]

/-! ### The tail: mean, final linear map, logistic -/

/-- the kernel's last stage as a function of the per-graph mean Q: logistic of Q · wfc -/
def tailK (Q : Vec Ideal Cert.KernelIdeal.S512x64 .f32) (wfc : Vec Ideal Cert.KernelIdeal.S64x1 .f32) :
    Vec Ideal Cert.KernelIdeal.S512x1 .f32 :=
  logistic (F := Ideal) (matmul (F := Ideal) Cert.KernelIdeal.dot_S512x64_S64x1_S512x1_1_0_0_1_n_n none
    (truncf (F := Ideal) (φ := .f32) .bf16 Q Cert.KernelIdeal.Gen.bitsLt_bf16_f32)
    (truncf (F := Ideal) (φ := .f32) .bf16 wfc Cert.KernelIdeal.Gen.bitsLt_bf16_f32)
    (constant (F := Ideal) Cert.KernelIdeal.S512x1 .f32 0x00000000#32))

theorem pay6_eq_tailK (cnt : Vec Ideal Cert.KernelIdeal.S512x1 .f32) (acc : Vec Ideal Cert.KernelIdeal.S512x64 .f32)
    (wfc : Vec Ideal Cert.KernelIdeal.S64x1 .f32) :
    k2_pay6 (F := Ideal) cnt acc wfc
      = tailK (divf (F := Ideal) (φ := .f32) acc (broadcastTo Cert.KernelIdeal.S512x64
          (maximumf (F := Ideal) (φ := .f32) cnt (broadcast Cert.KernelIdeal.S512x1 (Scalar.ofBits (F := Ideal) .f32 0x3F800000#32)))
          Cert.KernelIdeal.Gen.broadcasts_S512x1_S512x64)) wfc := rfl

open Cert.ReferenceIdeal.Read in
/-- the reference's last stages as a function of the per-graph mean Q: 1 / (1 + exp (-(Q · wfc))) -/
def tailR (Q : FVec Ideal Cert.ReferenceIdeal.S512x64 .f32) (wfc : FVec Ideal Cert.ReferenceIdeal.S64x1 .f32) :
    FVec Ideal Cert.ReferenceIdeal.S512x1 .f32 :=
  Host.divf (F := Ideal) (val_main_v44 (F := Ideal)) (addf (F := Ideal) (val_main_v42 (F := Ideal))
    (Host.exp (F := Ideal) (Host.negf (F := Ideal) (Host.dotGeneral (F := Ideal) Cert.ReferenceIdeal.dot_S512x64_S64x1_S512x1_1_0_0_1_n_n none Q wfc))))

open Cert.ReferenceIdeal.Read in
/-- the reference's tail as ONE function of the aggregated features h, the graph ids b0 and Wfc -/
def refTail (h : FVec Ideal Cert.ReferenceIdeal.S50000x64 .f32) (b0 : IVec Cert.ReferenceIdeal.S50000 32)
    (wfc : FVec Ideal Cert.ReferenceIdeal.S64x1 .f32) : FVec Ideal Cert.ReferenceIdeal.S512x1 .f32 :=
  tailR (Host.divf (F := Ideal) (Host.scatterAdd (F := Ideal) (φ := .f32) Cert.ReferenceIdeal.scatter_S512x64_S50000x1_S50000x64_1_0_0_1
      (val_main_v31 (F := Ideal)) (val_main_v32 (F := Ideal) b0) h) (val_main_v37 (F := Ideal) b0)) wfc

open Cert.ReferenceIdeal.Read in
theorem refTail_eq_val (x0 : (⟨Cert.ReferenceIdeal.S50000x128, .f32⟩ : BufTy).Contents (Elt Ideal))
    (x1 : (⟨Cert.ReferenceIdeal.S2x800000, .i32⟩ : BufTy).Contents (Elt Ideal))
    (x2 : (⟨Cert.ReferenceIdeal.S50000, .i32⟩ : BufTy).Contents (Elt Ideal))
    (x3 : (⟨Cert.ReferenceIdeal.S128x64, .f32⟩ : BufTy).Contents (Elt Ideal))
    (x4 : (⟨Cert.ReferenceIdeal.S64x64, .f32⟩ : BufTy).Contents (Elt Ideal))
    (x5 : (⟨Cert.ReferenceIdeal.S64x1, .f32⟩ : BufTy).Contents (Elt Ideal)) :
    val_main_v45 (F := Ideal) x0 x1 x2 x3 x4 x5 = refTail (val_main_v26 (F := Ideal) x0 x1 x3 x4) x2 x5 := rfl

open Cert.ReferenceIdeal.Read in
/-- on equal means the two tails are one function: the two products are the same 64-term sum, and the
    logistic is its expansion into negate, exponential, add and divide -/
theorem tail_eq (Q : Vec Ideal Cert.KernelIdeal.S512x64 .f32) (wfc : Vec Ideal Cert.KernelIdeal.S64x1 .f32) :
    tailK Q wfc = tailR Q wfc := by
  funext i
  show Ideal.logistic (Ideal.ofBits .f32 0x00000000#32
        + ∑ k : Cert.KernelIdeal.dot_S512x64_S64x1_S512x1_1_0_0_1_n_n.contr.Idx,
            Q (Cert.KernelIdeal.dot_S512x64_S64x1_S512x1_1_0_0_1_n_n.lhsIdx i k) * wfc (Cert.KernelIdeal.dot_S512x64_S64x1_S512x1_1_0_0_1_n_n.rhsIdx i k))
    = Ideal.div (val_main_v44 (F := Ideal) i) (val_main_v42 (F := Ideal) i
        + Ideal.exp (-(0 + ∑ k : Cert.ReferenceIdeal.dot_S512x64_S64x1_S512x1_1_0_0_1_n_n.contr.Idx,
            Q (Cert.ReferenceIdeal.dot_S512x64_S64x1_S512x1_1_0_0_1_n_n.lhsIdx i k) * wfc (Cert.ReferenceIdeal.dot_S512x64_S64x1_S512x1_1_0_0_1_n_n.rhsIdx i k))))
  rw [val_main_v44_apply, val_main_cst_9_apply, val_main_v42_apply, val_main_cst_8_apply, Ideal.ofBits_def, one_f32,
    Ideal.ofBits_zero_f32, zero_add, zero_add]
  rfl

open Cert.ReferenceIdeal.Read in
/-- the kernel's mean (features A over the count C clamped below at 1) is the reference's, for any accumulated pair
    that agrees with the reference's two segment sums -/
theorem quot_eq_of (A : Vec Ideal Cert.KernelIdeal.S512x64 .f32) (C : Vec Ideal Cert.KernelIdeal.S512x1 .f32)
    (b0 : IVec Cert.ReferenceIdeal.S50000 32) (X : FVec Ideal Cert.ReferenceIdeal.S512x64 .f32) (hA : A = X)
    (hC : ∀ g : Fin 512, C (ix2 g (⟨0, Nat.one_pos⟩ : Fin 1)) = val_main_v30 (F := Ideal) b0 (ix1 g)) :
    divf (F := Ideal) (φ := .f32) A (broadcastTo Cert.KernelIdeal.S512x64
        (maximumf (F := Ideal) (φ := .f32) C (broadcast Cert.KernelIdeal.S512x1 (Scalar.ofBits (F := Ideal) .f32 0x3F800000#32)))
        Cert.KernelIdeal.Gen.broadcasts_S512x1_S512x64)
      = Host.divf (F := Ideal) X (val_main_v37 (F := Ideal) b0) := by
  subst hA
  have hB : broadcastTo Cert.KernelIdeal.S512x64
        (maximumf (F := Ideal) (φ := .f32) C (broadcast Cert.KernelIdeal.S512x1 (Scalar.ofBits (F := Ideal) .f32 0x3F800000#32)))
        Cert.KernelIdeal.Gen.broadcasts_S512x1_S512x64 = val_main_v37 (F := Ideal) b0 := by
    funext i
    obtain ⟨g, d, rfl⟩ : ∃ (g : Fin 512) (d : Fin 64), i = ix2 g d := ⟨i 0, i 1, eq_ix2 i⟩
    rw [broadcastTo_apply _ _ (ix2 g d) (ix2 g (⟨0, Nat.one_pos⟩ : Fin 1)) (fun a => match a with
      | ⟨0, _⟩ => by show g.val = if (512 : Nat) = 1 then 0 else g.val; rw [if_neg (by decide)]
      | ⟨1, _⟩ => by show 0 = if (1 : Nat) = 1 then 0 else d.val; rw [if_pos rfl])]
    rw [val_main_v37_apply, val_main_v36_apply, val_main_v35_apply, val_main_v34_apply, val_main_cst_7_apply]
    show max (C (ix2 g (⟨0, Nat.one_pos⟩ : Fin 1))) (Ideal.ofBits .f32 0x3F800000#32)
      = max (val_main_v30 (F := Ideal) b0 (idx_main_v36 (idx_main_v37 (ix2 g d)))) (Ideal.ofBits .f32 0x3F800000#32)
    rw [hC g]
    refine congrArg (fun k => max (val_main_v30 (F := Ideal) b0 k) (Ideal.ofBits .f32 0x3F800000#32)) (funext fun a => ?_)
    match a with
    | ⟨0, _⟩ => rfl
  rw [hB]
  rfl

/-- the whole last stage on such a pair -/
theorem pool_eq_of (A : Vec Ideal Cert.KernelIdeal.S512x64 .f32) (C : Vec Ideal Cert.KernelIdeal.S512x1 .f32)
    (wfc : Vec Ideal Cert.KernelIdeal.S64x1 .f32)
    (b0 : IVec Cert.ReferenceIdeal.S50000 32) (X : FVec Ideal Cert.ReferenceIdeal.S512x64 .f32) (hA : A = X)
    (hC : ∀ g : Fin 512, C (ix2 g (⟨0, Nat.one_pos⟩ : Fin 1)) = Cert.ReferenceIdeal.Read.val_main_v30 (F := Ideal) b0 (ix1 g)) :
    k2_pay6 (F := Ideal) C A wfc = tailR (Host.divf (F := Ideal) X (Cert.ReferenceIdeal.Read.val_main_v37 (F := Ideal) b0)) wfc := by
  rw [pay6_eq_tailK, quot_eq_of A C b0 X hA hC, tail_eq]

/-- THE POOLING STAGE: the kernel's value — the one-hot products accumulated over the 50 blocks of 1000 rows, then mean,
    final linear map and logistic — is the reference's — two segment sums by graph id, maximum with 1, divide,
    product with Wfc, 1 / (1 + exp (-x)) — whenever the two programs' graph-id arrays hold the same words -/
theorem pool_eq (h : Vec Ideal Cert.KernelIdeal.S50000x64 .f32) (b1 : Vec Ideal Cert.KernelIdeal.S50000x1 .i32)
    (b0 : IVec Cert.ReferenceIdeal.S50000 32) (hb : ∀ n : Fin 50000, b1 (ix2 n (⟨0, Nat.one_pos⟩ : Fin 1)) = b0 (ix1 n))
    (wfc : Vec Ideal Cert.KernelIdeal.S64x1 .f32) :
    k2_pay6 (F := Ideal) (carriedOf h b1 49 (by decide)).2 (carriedOf h b1 49 (by decide)).1 wfc = refTail h b0 wfc :=
  pool_eq_of _ _ wfc b0 _ (feat_eq h b1 b0 hb) (cnt_eq h b1 b0 hb)

end Cert.Bridge.Pool

end
-- ==== Proof.KI.KernelVal.lean ====
/-
  The kernel program's result as a function of its arguments, at the ideal values: the fold of buffer contents is
  read stage by stage — first product, aggregation, second product (after the maximum with zero), aggregation,
  pooling — and each stage is recognised as the reference's stage of the same arguments.
-/
import proofs.«407159_j20469814132905_1_alg».proof.Proof.KI.HostVals
import proofs.«407159_j20469814132905_1_alg».proof.Proof.KI.Vals
import proofs.«407159_j20469814132905_1_alg».proof.Proof.RefSide
import proofs.«407159_j20469814132905_1_alg».proof.Proof.PoolMath
set_option maxRecDepth 16384

noncomputable section

namespace Cert.KernelIdeal.Hand

open Cert.KernelIdeal Cert.KernelIdeal.Gen
open Idealize.ShloMosaic Idealize.ShloMosaic.TcCoe
open Idealize.SL Idealize.SL.Sem
open Cert.ReferenceIdeal.Read Cert.Bridge.Ref

variable (m : KMem)

/-- The first projection's array is the reference's first product. -/
theorem val_v5 (c : Dev nD) : W2 m c (Proc.devRef .tc main_v5)
    = val_main_v4 (F := Ideal) (m ((c : Thread nD τ).loc main_arg0)) (m ((c : Thread nD τ).loc main_arg3)) := by
  show W2 m c (Proc.devRef .tc (Pipeline.arrRef spec0 2)) = _
  rw [W2_arr m c 2, final0 (V1 m) c]
  show Cert.Bridge.Proj.G0 (W1 m c (Proc.devRef .tc main_arg0)) (W1 m c (Proc.devRef .tc main_arg3)) = _
  rw [W1_arg0 m c, W1_arg3 m c]
  exact Cert.Bridge.Proj.G0_eq_val _ _

/-- Its aggregation is the reference's. -/
theorem val_v15 (c : Dev nD) : W3 m c (Proc.devRef .tc main_v15)
    = val_main_v14 (F := Ideal) (m ((c : Thread nD τ).loc main_arg0)) (m ((c : Thread nD τ).loc main_arg1)) (m ((c : Thread nD τ).loc main_arg3)) := by
  rw [W3_v15 m c, val_v5 m c, ker_v1 m c, ker_v3 m c]
  exact (ref_v14 _ _ _).symm

/-- The second projection's array is the reference's second product. -/
theorem val_v16 (c : Dev nD) : W4 m c (Proc.devRef .tc main_v16)
    = val_main_v16 (F := Ideal) (m ((c : Thread nD τ).loc main_arg0)) (m ((c : Thread nD τ).loc main_arg1)) (m ((c : Thread nD τ).loc main_arg3)) (m ((c : Thread nD τ).loc main_arg4)) := by
  show W4 m c (Proc.devRef .tc (Pipeline.arrRef spec1 2)) = _
  rw [W4_arr m c 2, final1 (V3 m) c]
  show Cert.Bridge.Proj.G1 (W3 m c (Proc.devRef .tc main_v15)) (W3 m c (Proc.devRef .tc main_arg4)) = _
  rw [val_v15 m c, W3_arg4 m c]
  exact Cert.Bridge.Proj.G1_eq_val _ _ _ _

/-- Its aggregation, the pooling call's operand, is the reference's. -/
theorem val_v26 (c : Dev nD) : W5 m c (Proc.devRef .tc main_v26)
    = val_main_v26 (F := Ideal) (m ((c : Thread nD τ).loc main_arg0)) (m ((c : Thread nD τ).loc main_arg1)) (m ((c : Thread nD τ).loc main_arg3)) (m ((c : Thread nD τ).loc main_arg4)) := by
  rw [W5_v26 m c, val_v16 m c, ker_v1 m c, ker_v3 m c]
  exact (ref_v26 _ _ _ _).symm

section
variable (V : (c : Dev nD) → (b : Ref sig .tc) → Buf (Elt Ideal) ((c : Thread nD τ).loc b))

/-- The carried sums, point by point, are the accumulation over the row blocks of the two whole arrays. -/
theorem carried2_eq (c : Dev nD) : ∀ (n : ℕ) (h : n < cfg2.N) (h' : n < 50),
    carried2 V c n h = Cert.Bridge.Pool.carriedOf (V c main_v26) (V c main_v4) n h'
  | 0, h, h' => by
    simp only [carried2, Cert.Bridge.Pool.carriedOf]
    rw [iblk2_h V c ⟨0, h⟩, iblk2_b V c ⟨0, h⟩]
    rfl
  | n + 1, h, h' => by
    simp only [carried2, Cert.Bridge.Pool.carriedOf]
    rw [carried2_eq c n (Nat.lt_of_succ_lt h) (Nat.lt_of_succ_lt h'), iblk2_h V c ⟨n + 1, h⟩, iblk2_b V c ⟨n + 1, h⟩]
    rfl
end

/-- The kernel program's result is the reference's function of the arguments. -/
theorem kernel_val (c : Dev nD) : W6 m c (Proc.devRef .tc main_v27)
    = val_main_v45 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  show W6 m c (Proc.devRef .tc (Pipeline.arrRef spec2 3)) = _
  rw [W6_arr m c 3, final2 (V5 m) c, carried2_eq (V5 m) c 49 (by decide) (by decide), iblk2_w (V5 m) c]
  show k2_pay6 (F := Ideal) (Cert.Bridge.Pool.carriedOf (W5 m c (Proc.devRef .tc main_v26)) (W5 m c (Proc.devRef .tc main_v4)) 49 (by decide)).2
      (Cert.Bridge.Pool.carriedOf (W5 m c (Proc.devRef .tc main_v26)) (W5 m c (Proc.devRef .tc main_v4)) 49 (by decide)).1
      (W5 m c (Proc.devRef .tc main_arg5)) = _
  rw [val_v26 m c, W5_v4 m c, W5_arg5 m c, Cert.Bridge.Pool.refTail_eq_val]
  exact Cert.Bridge.Pool.pool_eq _ _ _ (fun n => ker_v4 m c n) _

end Cert.KernelIdeal.Hand

end
-- ==== Proof.lean ====
/-
  The certificate's claims, assembled.

  The program is a two-layer graph convolution followed by a mean pool over graph ids, a linear map and a logistic:
  two projection calls (a block of rows times a weight matrix), each followed on the host by the edge aggregation
  (gather at the source ids, scatter-add at the target ids), and a pooling call that accumulates, block by block,
  the product of the transposed one-hot membership matrix with the node features, and at the last block divides by
  the clamped counts, multiplies by the last weight column and applies the logistic.

  Frames: each program is run as a list of segments (three host stretches, three calls); every execution ends and
  every buffer ends at the last contents of the fold, in which no argument is ever written.
  Value, over the extended reals: a projection block is the corresponding rows of the reference's whole product
  (a change of float format is the identity; the maximum with zero commutes with taking rows); the edge
  aggregation is literally the same function on both sides; the one-hot product summed over the fifty blocks is the
  reference's segment sum (0·x = 0 and 1·x = x for every extended real, and addition is commutative and
  associative, so no finiteness is needed), the counts likewise; the tail is the same functions of equal
  arguments, the kernel's logistic being 1 / (1 + e^(-x)) as the reference spells it.
-/
import proofs.«407159_j20469814132905_1_alg».proof.Defs
import proofs.«407159_j20469814132905_1_alg».proof.Proof.Gen.Kernel
import proofs.«407159_j20469814132905_1_alg».proof.Proof.Gen.KernelIdeal
import proofs.«407159_j20469814132905_1_alg».proof.Proof.Gen.ReferenceIdeal
import proofs.«407159_j20469814132905_1_alg».proof.Proof.Gen.Pre_finite_inputs
import proofs.«407159_j20469814132905_1_alg».proof.Proof.Gen.ReferenceIdeal.Run
import proofs.«407159_j20469814132905_1_alg».proof.Proof.Gen.ReferenceIdeal.Read
import proofs.«407159_j20469814132905_1_alg».proof.Proof.K.Run
import proofs.«407159_j20469814132905_1_alg».proof.Proof.KI.Run
import proofs.«407159_j20469814132905_1_alg».proof.Proof.KI.KernelVal
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel := fun m ρ _ => Cert.Kernel.Hand.frame (F := Bits) m ρ

/-- So does its idealization: the same text read at the ideal instance. -/
theorem frame_ki : Cert.frame_KernelIdeal := fun m ρ _ => Cert.KernelIdeal.Hand.frame (F := Ideal) m ρ

/-- The reference is a line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the same result: the reference's function of
    the arguments. -/
theorem algebraic : Cert.algebraic_KernelIdeal_ReferenceIdeal := by
  intro m ρ m' ρ' _ hagree
  refine ⟨fun c => Cert.ReferenceIdeal.Read.val_main_v45 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono (fun r h c =>
      ⟨(h c _ (Cert.KernelIdeal.Hand.mem_uc Cert.KernelIdeal.main_v27 (by decide))).trans (Cert.KernelIdeal.Hand.kernel_val m c),
       (h c _ (Cert.KernelIdeal.Hand.mem_uc Cert.KernelIdeal.main_arg0 (by decide))).trans (Cert.KernelIdeal.Hand.W6_main_arg0 m c),
       (h c _ (Cert.KernelIdeal.Hand.mem_uc Cert.KernelIdeal.main_arg1 (by decide))).trans (Cert.KernelIdeal.Hand.W6_main_arg1 m c),
       (h c _ (Cert.KernelIdeal.Hand.mem_uc Cert.KernelIdeal.main_arg2 (by decide))).trans (Cert.KernelIdeal.Hand.W6_main_arg2 m c),
       (h c _ (Cert.KernelIdeal.Hand.mem_uc Cert.KernelIdeal.main_arg3 (by decide))).trans (Cert.KernelIdeal.Hand.W6_main_arg3 m c),
       (h c _ (Cert.KernelIdeal.Hand.mem_uc Cert.KernelIdeal.main_arg4 (by decide))).trans (Cert.KernelIdeal.Hand.W6_main_arg4 m c),
       (h c _ (Cert.KernelIdeal.Hand.mem_uc Cert.KernelIdeal.main_arg5 (by decide))).trans (Cert.KernelIdeal.Hand.W6_main_arg5 m c)⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v45_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
